-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S5x64x64 : Shape := ⟨3, ![5, 64, 64]⟩
abbrev S5x64 : Shape := ⟨2, ![5, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S5x64 .f32) (main_arg7 : FVec F S64x64 .f32) (main_arg8 : FVec F S64 .f32) (main_arg9 : FVec F S64x64 .f32) (main_arg10 : FVec F S64 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S5x64 .f32 := Host.absf main_arg6
  let main_cst_6 : FVec F S_ .f32 := constant S_ .f32 0x7F800000#32
  let main_v20 : FVec F S5x64 .f32 := broadcastInDim S5x64 ![] bcast_S_S5x64 main_cst_6
  let main_v21 : IVec S5x64 1 := cmpf .olt main_v19 main_v20
  let main_c_7 : IVec S_ 1 := constantI S_ 1 1#1
  let main_v22 : IVec S_ 1 := (fun x v => Host.reduce IntOp.andi x v reducesTo_S5x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S5x64x64 .f32) (main_arg4 : FVec F S5x64 .f32) (main_arg5 : FVec F S5x64x64 .f32) (main_arg6 : FVec F S5x64 .f32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S5x64x64 .f32 := Host.absf main_arg3
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S5x64 .f32 := Host.absf main_arg4
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S5x64x64 .f32 := Host.absf main_arg5
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S5x64x64 : Shape := ⟨3, ![5, 64, 64]⟩
abbrev S5x64 : Shape := ⟨2, ![5, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S1x64 : Shape := ⟨2, ![1, 64]⟩
abbrev S5000x64 : Shape := ⟨2, ![5000, 64]⟩
abbrev S106496x64 : Shape := ⟨2, ![106496, 64]⟩
abbrev S106496 : Shape := ⟨1, ![106496]⟩
abbrev S256x64 : Shape := ⟨2, ![256, 64]⟩
abbrev S8192x64 : Shape := ⟨2, ![8192, 64]⟩
abbrev S8192 : Shape := ⟨1, ![8192]⟩
abbrev S256x1 : Shape := ⟨2, ![256, 1]⟩
abbrev S8192x256 : Shape := ⟨2, ![8192, 256]⟩
abbrev S8192x1 : Shape := ⟨2, ![8192, 1]⟩

abbrev nBuf : Space → Nat
  | .hbm => 132
  | .vmem => 61
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S5x64x64, .f32⟩
  | 4 => ⟨S5x64, .f32⟩
  | 5 => ⟨S5x64x64, .f32⟩
  | 6 => ⟨S5x64, .f32⟩
  | 7 => ⟨S64x64, .f32⟩
  | 8 => ⟨S64, .f32⟩
  | 9 => ⟨S64x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S1x64x64, .f32⟩
  | 29 => ⟨S64x64, .f32⟩
  | 30 => ⟨S1x64, .f32⟩
  | 31 => ⟨S64, .f32⟩
  | 32 => ⟨S1x64x64, .f32⟩
  | 33 => ⟨S64x64, .f32⟩
  | 34 => ⟨S1x64, .f32⟩
  | 35 => ⟨S64, .f32⟩
  | 36 => ⟨S100000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S1x64x64, .f32⟩
  | 51 => ⟨S64x64, .f32⟩
  | 52 => ⟨S1x64, .f32⟩
  | 53 => ⟨S64, .f32⟩
  | 54 => ⟨S1x64x64, .f32⟩
  | 55 => ⟨S64x64, .f32⟩
  | 56 => ⟨S1x64, .f32⟩
  | 57 => ⟨S64, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S1x64x64, .f32⟩
  | 73 => ⟨S64x64, .f32⟩
  | 74 => ⟨S1x64, .f32⟩
  | 75 => ⟨S64, .f32⟩
  | 76 => ⟨S1x64x64, .f32⟩
  | 77 => ⟨S64x64, .f32⟩
  | 78 => ⟨S1x64, .f32⟩
  | 79 => ⟨S64, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S1x64x64, .f32⟩
  | 95 => ⟨S64x64, .f32⟩
  | 96 => ⟨S1x64, .f32⟩
  | 97 => ⟨S64, .f32⟩
  | 98 => ⟨S1x64x64, .f32⟩
  | 99 => ⟨S64x64, .f32⟩
  | 100 => ⟨S1x64, .f32⟩
  | 101 => ⟨S64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S1x64x64, .f32⟩
  | 117 => ⟨S64x64, .f32⟩
  | 118 => ⟨S1x64, .f32⟩
  | 119 => ⟨S64, .f32⟩
  | 120 => ⟨S1x64x64, .f32⟩
  | 121 => ⟨S64x64, .f32⟩
  | 122 => ⟨S1x64, .f32⟩
  | 123 => ⟨S64, .f32⟩
  | 124 => ⟨S100000x64, .f32⟩
  | 125 => ⟨S_, .i32⟩
  | 126 => ⟨S_, .f32⟩
  | 127 => ⟨S106496x64, .f32⟩
  | _ => ⟨S100000x64, .f32⟩

abbrev hbmTy0_1 (i : Nat) : BufTy := match i % 128 with
  | 0 => ⟨S_, .i32⟩
  | 1 => ⟨S_, .i32⟩
  | 2 => ⟨S106496, .i32⟩
  | 3 => ⟨S256x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64, .f32⟩
  | .local _ .vmem, ⟨26, _⟩ => ⟨S64x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S64, .f32⟩
  | .local _ .vmem, ⟨36, _⟩ => ⟨S64x64, .f32⟩
  | .local _ .vmem, ⟨37, _⟩ => ⟨S64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S64, .f32⟩
  | .local _ .vmem, ⟨46, _⟩ => ⟨S64x64, .f32⟩
  | .local _ .vmem, ⟨47, _⟩ => ⟨S64, .f32⟩
  | .local _ .vmem, ⟨48, _⟩ => ⟨S5000x64, .f32⟩
  | .local _ .vmem, ⟨49, _⟩ => ⟨S5000x64, .f32⟩
  | .local _ .vmem, ⟨50, _⟩ => ⟨S8192x64, .f32⟩
  | .local _ .vmem, ⟨51, _⟩ => ⟨S8192x64, .f32⟩
  | .local _ .vmem, ⟨52, _⟩ => ⟨S8192, .i32⟩
  | .local _ .vmem, ⟨53, _⟩ => ⟨S8192, .i32⟩
  | .local _ .vmem, ⟨54, _⟩ => ⟨S64x64, .f32⟩
  | .local _ .vmem, ⟨55, _⟩ => ⟨S64, .f32⟩
  | .local _ .vmem, ⟨56, _⟩ => ⟨S64x64, .f32⟩
  | .local _ .vmem, ⟨57, _⟩ => ⟨S64, .f32⟩
  | .local _ .vmem, ⟨58, _⟩ => ⟨S256x64, .f32⟩
  | .local _ .vmem, ⟨59, _⟩ => ⟨S256x64, .f32⟩
  | .local _ .vmem, ⟨60, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_4 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_7 : Ref sig .tc := ⟨.hbm, 81, rfl⟩
abbrev main_v61 : Ref sig .tc := ⟨.hbm, 82, rfl⟩
abbrev main_v62 : Ref sig .tc := ⟨.hbm, 83, rfl⟩
abbrev main_c_8 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_10 : Ref sig .tc := ⟨.hbm, 103, rfl⟩
abbrev main_v80 : Ref sig .tc := ⟨.hbm, 104, rfl⟩
abbrev main_v81 : Ref sig .tc := ⟨.hbm, 105, rfl⟩
abbrev main_c_11 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_12 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_13 : Ref sig .tc := ⟨.hbm, 125, rfl⟩
abbrev main_call0_v0 : Ref sig .tc := ⟨.hbm, 126, rfl⟩
abbrev main_v99 : Ref sig .tc := ⟨.hbm, 127, rfl⟩
abbrev main_c_14 : Ref sig .tc := ⟨.hbm, 128, rfl⟩
abbrev main_call1_v0 : Ref sig .tc := ⟨.hbm, 129, rfl⟩
abbrev main_v100 : Ref sig .tc := ⟨.hbm, 130, rfl⟩
abbrev main_v101 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_scratch0 : Ref sig .tc := ⟨.vmem, 59, rfl⟩
abbrev cc5_scratch1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![13], ![false]⟩

def k5_cond2 (i : grid5.Coords) : BitVec 1 :=
  let arg0 : BitVec 32 := BitVec.ofNat 32 (i 0).val
  let c12_i32 : BitVec 32 := 12#32
  let v28 : BitVec 1 := Scalar.cmpi .eq arg0 c12_i32
  let v29 : BitVec 32 := Scalar.extui v28
  let c0_i32_13 : BitVec 32 := 0#32
  let v30 : BitVec 1 := Scalar.cmpi .ne v29 c0_i32_13
  v30

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  ![arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  pads_S100000x64_S106496x64_064960_000 : S100000x64.Pads (![0, 0] : Fin 2 → Nat) ![6496, 0] ![0, 0] S106496x64
  h_S_ : 0 < S_.numel
  pads_S100000_S106496_064960 : S100000.Pads (![0] : Fin 1 → Nat) ![6496] ![0] S106496
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192_S8192_0 : ∀ a, (![0] : Fin 1 → Nat) a + S8192.size a ≤ S8192.size a
  h_S8192 : 0 < S8192.numel
  shapeCasts_S8192_S8192 : S8192.ShapeCasts S8192
  iota_S8192x256_d1_w32 : S8192x256.Iotas .tc 32 [1]
  shapeCasts_S8192_S8192x1 : S8192.ShapeCasts S8192x1
  broadcasts_S8192x1_S8192x256 : S8192x1.Broadcasts S8192x256
  natLt_1_32 : 1 < 32
  broadcasts_S256x1_S256x64 : S256x1.Broadcasts S256x64
  broadcasts_S1x64_S256x64 : S1x64.Broadcasts S256x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S8192x256_S8192x64_S256x64_0_0_1_1_n_n_wf : DotDims.WF S8192x256 S8192x64 S256x64 [0] [0] [1] [1] [] []
  dot_S8192x256_S8192x1_S256x1_0_0_1_1_n_n_wf : DotDims.WF S8192x256 S8192x1 S256x1 [0] [0] [1] [1] [] []
  dot_S256x64_S64x64_S256x64_1_0_0_1_n_n_wf : DotDims.WF S256x64 S64x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S106496x64.size a
  hwx5_0 : ∀ i : grid5.Coords, EltTy.bits .f32 = 32 ∨ (Rect.block (s := S106496x64) S8192x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192.size a ≤ S106496.size a
  hwx5_1 : ∀ i : grid5.Coords, EltTy.bits .i32 = 32 ∨ (Rect.block (s := S106496) S8192.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64.size a ≤ S64.size a
  hwx5_5 : ∀ i : grid5.Coords, EltTy.bits .f32 = 32 ∨ (Rect.block (s := S64) S64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x64.size a ≤ S256x64.size a
  hwx5_6 : ∀ i : grid5.Coords, EltTy.bits .f32 = 32 ∨ (Rect.block (s := S256x64) S256x64.size (cc5_transform_6 i) (hinb5_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S8192x256_S8192x64_S256x64_0_0_1_1_n_n : DotDims S8192x256 S8192x64 S256x64 where
  lhsContracting := [0]
  rhsContracting := [0]
  lhsNonContracting := [1]
  rhsNonContracting := [1]
  lhsBatch := []
  rhsBatch := []
  wf := dot_S8192x256_S8192x64_S256x64_0_0_1_1_n_n_wf
def dot_S8192x256_S8192x1_S256x1_0_0_1_1_n_n : DotDims S8192x256 S8192x1 S256x1 where
  lhsContracting := [0]
  rhsContracting := [0]
  lhsNonContracting := [1]
  rhsNonContracting := [1]
  lhsBatch := []
  rhsBatch := []
  wf := dot_S8192x256_S8192x1_S256x1_0_0_1_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v79) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v91) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v98) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v99) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S8192.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg9) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg10) S64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v101) S256x64.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun _ => false | 6 => fun i => !(k5_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S5x64x64 : Shape := ⟨3, ![5, 64, 64]⟩
abbrev S5x64 : Shape := ⟨2, ![5, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩

abbrev nBuf : Space → Nat
  | .hbm => 207
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S5x64x64, .f32⟩
  | 4 => ⟨S5x64, .f32⟩
  | 5 => ⟨S5x64x64, .f32⟩
  | 6 => ⟨S5x64, .f32⟩
  | 7 => ⟨S64x64, .f32⟩
  | 8 => ⟨S64, .f32⟩
  | 9 => ⟨S64x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000x64, .f32⟩
  | 29 => ⟨S1x64x64, .f32⟩
  | 30 => ⟨S64x64, .f32⟩
  | 31 => ⟨S100000x64, .f32⟩
  | 32 => ⟨S1x64, .f32⟩
  | 33 => ⟨S64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S1x64x64, .f32⟩
  | 41 => ⟨S64x64, .f32⟩
  | 42 => ⟨S100000x64, .f32⟩
  | 43 => ⟨S1x64, .f32⟩
  | 44 => ⟨S64, .f32⟩
  | 45 => ⟨S1x64, .f32⟩
  | 46 => ⟨S100000x64, .f32⟩
  | 47 => ⟨S100000x64, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000x64, .f32⟩
  | 62 => ⟨S1x64x64, .f32⟩
  | 63 => ⟨S64x64, .f32⟩
  | 64 => ⟨S100000x64, .f32⟩
  | 65 => ⟨S1x64, .f32⟩
  | 66 => ⟨S64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S1x64, .f32⟩
  | 77 => ⟨S64, .f32⟩
  | 78 => ⟨S1x64, .f32⟩
  | 79 => ⟨S100000x64, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S100000x64, .f32⟩
  | 95 => ⟨S1x64x64, .f32⟩
  | 96 => ⟨S64x64, .f32⟩
  | 97 => ⟨S100000x64, .f32⟩
  | 98 => ⟨S1x64, .f32⟩
  | 99 => ⟨S64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S1x64x64, .f32⟩
  | 107 => ⟨S64x64, .f32⟩
  | 108 => ⟨S100000x64, .f32⟩
  | 109 => ⟨S1x64, .f32⟩
  | 110 => ⟨S64, .f32⟩
  | 111 => ⟨S1x64, .f32⟩
  | 112 => ⟨S100000x64, .f32⟩
  | 113 => ⟨S100000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S100000x64, .f32⟩
  | _ => ⟨S100000x64, .f32⟩

abbrev hbmTy0_1 (i : Nat) : BufTy := match i % 128 with
  | 0 => ⟨S1x64x64, .f32⟩
  | 1 => ⟨S64x64, .f32⟩
  | 2 => ⟨S100000x64, .f32⟩
  | 3 => ⟨S1x64, .f32⟩
  | 4 => ⟨S64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S1x64x64, .f32⟩
  | 12 => ⟨S64x64, .f32⟩
  | 13 => ⟨S100000x64, .f32⟩
  | 14 => ⟨S1x64, .f32⟩
  | 15 => ⟨S64, .f32⟩
  | 16 => ⟨S1x64, .f32⟩
  | 17 => ⟨S100000x64, .f32⟩
  | 18 => ⟨S100000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S100000x64, .f32⟩
  | 33 => ⟨S1x64x64, .f32⟩
  | 34 => ⟨S64x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S1x64x64, .f32⟩
  | 45 => ⟨S64x64, .f32⟩
  | 46 => ⟨S100000x64, .f32⟩
  | 47 => ⟨S1x64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S256x64, .f32⟩
  | 54 => ⟨S100000x1, .i32⟩
  | 55 => ⟨S256x64, .f32⟩
  | 56 => ⟨S_, .f32⟩
  | 57 => ⟨S100000, .f32⟩
  | 58 => ⟨S_, .f32⟩
  | 59 => ⟨S256, .f32⟩
  | 60 => ⟨S100000x1, .i32⟩
  | 61 => ⟨S256, .f32⟩
  | 62 => ⟨S_, .f32⟩
  | 63 => ⟨S256, .f32⟩
  | 64 => ⟨S256, .f32⟩
  | 65 => ⟨S256x1, .f32⟩
  | 66 => ⟨S256x64, .f32⟩
  | 67 => ⟨S256x64, .f32⟩
  | 68 => ⟨S256x64, .f32⟩
  | 69 => ⟨S1x64, .f32⟩
  | 70 => ⟨S256x64, .f32⟩
  | 71 => ⟨S256x64, .f32⟩
  | 72 => ⟨S_, .f32⟩
  | 73 => ⟨S256x64, .f32⟩
  | 74 => ⟨S256x64, .f32⟩
  | 75 => ⟨S256x64, .f32⟩
  | 76 => ⟨S1x64, .f32⟩
  | 77 => ⟨S256x64, .f32⟩
  | 78 => ⟨S256x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_1 : Ref sig .tc := ⟨.hbm, 48, rfl⟩
abbrev main_v32 : Ref sig .tc := ⟨.hbm, 49, rfl⟩
abbrev main_v33 : Ref sig .tc := ⟨.hbm, 50, rfl⟩
abbrev main_c_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_4 : Ref sig .tc := ⟨.hbm, 81, rfl⟩
abbrev main_v60 : Ref sig .tc := ⟨.hbm, 82, rfl⟩
abbrev main_v61 : Ref sig .tc := ⟨.hbm, 83, rfl⟩
abbrev main_c_5 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_6 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call2_cst : Ref sig .tc := ⟨.hbm, 103, rfl⟩
abbrev main_call2_v0 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_7 : Ref sig .tc := ⟨.hbm, 114, rfl⟩
abbrev main_v88 : Ref sig .tc := ⟨.hbm, 115, rfl⟩
abbrev main_v89 : Ref sig .tc := ⟨.hbm, 116, rfl⟩
abbrev main_c_8 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_9 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_call3_cst : Ref sig .tc := ⟨.hbm, 136, rfl⟩
abbrev main_call3_v0 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_c_10 : Ref sig .tc := ⟨.hbm, 147, rfl⟩
abbrev main_v116 : Ref sig .tc := ⟨.hbm, 148, rfl⟩
abbrev main_v117 : Ref sig .tc := ⟨.hbm, 149, rfl⟩
abbrev main_c_11 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_12 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_call4_cst : Ref sig .tc := ⟨.hbm, 169, rfl⟩
abbrev main_call4_v0 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_13 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_14 : Ref sig .tc := ⟨.hbm, 184, rfl⟩
abbrev main_v147 : Ref sig .tc := ⟨.hbm, 185, rfl⟩
abbrev main_cst_15 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_16 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_call5_cst : Ref sig .tc := ⟨.hbm, 200, rfl⟩
abbrev main_call5_v0 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x64_S256x64_1_0_0_1_n_n_wf : DotDims.WF S256x64 S64x64 S256x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

class Facts : Prop extends Facts₀ where

variable [Facts]
-- ==== Proof.K.Mlp0.lean ====
/-
  Region 0 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.Kernel.Launch
import proofs.«419162_j62646392980003_1_alg».proof.Proof.Gen.Kernel.Skeleton
import proofs.«419162_j62646392980003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched point has the
    block index of the point before, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched point has the
    block index of the point before, and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched point has the
    block index of the point before, and the body leaves the buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched point has the
    block index of the point before, and the body leaves the buffer as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: an unfetched point has the
    block index of the point before, and the body leaves the buffer as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: an unfetched point has the
    block index of the point before, and the body leaves the buffer as it found it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: every load and the one store take a whole buffer. -/

abbrev rT0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S64 := Rect.unit (s := S64) ![0] S64.size inb_S64_S64_0

/-- The output tile after the body, from the six input buffers: one whole-buffer store of the layer's arithmetic. -/
def out0_6 (x0 x1 : Vec F S5000x64 .f32) (x2 : Vec F S64x64 .f32) (x3 : Vec F S64 .f32) (x4 : Vec F S64x64 .f32) (x5 : Vec F S64 .f32) : Vec F S5000x64 .f32 :=
  View.canon [⟨rT0, k0_pay1 (View.ld x0 rT0) (View.ld x1 rT0) (View.ld x2 rW0) (View.ld x3 rB0) (View.ld x4 rW0) (View.ld x5 rB0)⟩]

/-- The one store covers the tile. -/
theorem cover0_6 (p0 : Vec F S5000x64 .f32) (y : S5000x64.Idx) :
    ∃ pc ∈ ([⟨rT0, p0⟩] : List (View.Piece (Elt F) S5000x64 .f32)), y ∈ pc.1.set :=
  View.cover_of_tiled [⟨rT0, p0⟩] S5000x64.size (by rfl) y

set_option maxHeartbeats 4000000 in
/-- The body on whole staging buffers, the inputs' at given contents and the output's at anything, runs to the continuation
    holding the inputs' as they were and the output's at `out0_6` of the inputs'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of pipeline 0 on core c: the arrays as the region finds them; after the body at point t each input's
    buffer at its block and the output's at `out0_6` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Mlp1.lean ====
/-
  Region 1 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.Kernel.Launch
import proofs.«419162_j62646392980003_1_alg».proof.Proof.Gen.Kernel.Skeleton
import proofs.«419162_j62646392980003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched point has the
    block index of the point before, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched point has the
    block index of the point before, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched point has the
    block index of the point before, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched point has the
    block index of the point before, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: an unfetched point has the
    block index of the point before, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: an unfetched point has the
    block index of the point before, and the body leaves the buffer as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: every load and the one store take a whole buffer. -/

abbrev rT1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S64 := Rect.unit (s := S64) ![0] S64.size inb_S64_S64_0

/-- The output tile after the body, from the six input buffers: one whole-buffer store of the layer's arithmetic. -/
def out1_6 (x0 x1 : Vec F S5000x64 .f32) (x2 : Vec F S64x64 .f32) (x3 : Vec F S64 .f32) (x4 : Vec F S64x64 .f32) (x5 : Vec F S64 .f32) : Vec F S5000x64 .f32 :=
  View.canon [⟨rT1, k1_pay1 (View.ld x0 rT1) (View.ld x1 rT1) (View.ld x2 rW1) (View.ld x3 rB1) (View.ld x4 rW1) (View.ld x5 rB1)⟩]

/-- The one store covers the tile. -/
theorem cover1_6 (p0 : Vec F S5000x64 .f32) (y : S5000x64.Idx) :
    ∃ pc ∈ ([⟨rT1, p0⟩] : List (View.Piece (Elt F) S5000x64 .f32)), y ∈ pc.1.set :=
  View.cover_of_tiled [⟨rT1, p0⟩] S5000x64.size (by rfl) y

set_option maxHeartbeats 4000000 in
/-- The body on whole staging buffers, the inputs' at given contents and the output's at anything, runs to the continuation
    holding the inputs' as they were and the output's at `out1_6` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core c: the arrays as the region finds them; after the body at point t each input's
    buffer at its block and the output's at `out1_6` of the input blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Mlp2.lean ====
/-
  Region 2 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.Kernel.Launch
import proofs.«419162_j62646392980003_1_alg».proof.Proof.Gen.Kernel.Skeleton
import proofs.«419162_j62646392980003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched point has the
    block index of the point before, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched point has the
    block index of the point before, and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched point has the
    block index of the point before, and the body leaves the buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched point has the
    block index of the point before, and the body leaves the buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched point has the
    block index of the point before, and the body leaves the buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an unfetched point has the
    block index of the point before, and the body leaves the buffer as it found it. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: every load and the one store take a whole buffer. -/

abbrev rT2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S64 := Rect.unit (s := S64) ![0] S64.size inb_S64_S64_0

/-- The output tile after the body, from the six input buffers: one whole-buffer store of the layer's arithmetic. -/
def out2_6 (x0 x1 : Vec F S5000x64 .f32) (x2 : Vec F S64x64 .f32) (x3 : Vec F S64 .f32) (x4 : Vec F S64x64 .f32) (x5 : Vec F S64 .f32) : Vec F S5000x64 .f32 :=
  View.canon [⟨rT2, k2_pay1 (View.ld x0 rT2) (View.ld x1 rT2) (View.ld x2 rW2) (View.ld x3 rB2) (View.ld x4 rW2) (View.ld x5 rB2)⟩]

/-- The one store covers the tile. -/
theorem cover2_6 (p0 : Vec F S5000x64 .f32) (y : S5000x64.Idx) :
    ∃ pc ∈ ([⟨rT2, p0⟩] : List (View.Piece (Elt F) S5000x64 .f32)), y ∈ pc.1.set :=
  View.cover_of_tiled [⟨rT2, p0⟩] S5000x64.size (by rfl) y

set_option maxHeartbeats 4000000 in
/-- The body on whole staging buffers, the inputs' at given contents and the output's at anything, runs to the continuation
    holding the inputs' as they were and the output's at `out2_6` of the inputs'. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core c: the arrays as the region finds them; after the body at point t each input's
    buffer at its block and the output's at `out2_6` of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 4000000 in
/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Mlp3.lean ====
/-
  Region 3 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.Kernel.Launch
import proofs.«419162_j62646392980003_1_alg».proof.Proof.Gen.Kernel.Skeleton
import proofs.«419162_j62646392980003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: an unfetched point has the
    block index of the point before, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: an unfetched point has the
    block index of the point before, and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: an unfetched point has the
    block index of the point before, and the body leaves the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: an unfetched point has the
    block index of the point before, and the body leaves the buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: an unfetched point has the
    block index of the point before, and the body leaves the buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not: an unfetched point has the
    block index of the point before, and the body leaves the buffer as it found it. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! The body's accesses: every load and the one store take a whole buffer. -/

abbrev rT3 : Rect S5000x64 := Rect.unit (s := S5000x64) ![0, 0] S5000x64.size inb_S5000x64_S5000x64_0_0
abbrev rW3 : Rect S64x64 := Rect.unit (s := S64x64) ![0, 0] S64x64.size inb_S64x64_S64x64_0_0
abbrev rB3 : Rect S64 := Rect.unit (s := S64) ![0] S64.size inb_S64_S64_0

/-- The output tile after the body, from the six input buffers: one whole-buffer store of the layer's arithmetic. -/
def out3_6 (x0 x1 : Vec F S5000x64 .f32) (x2 : Vec F S64x64 .f32) (x3 : Vec F S64 .f32) (x4 : Vec F S64x64 .f32) (x5 : Vec F S64 .f32) : Vec F S5000x64 .f32 :=
  View.canon [⟨rT3, k3_pay1 (View.ld x0 rT3) (View.ld x1 rT3) (View.ld x2 rW3) (View.ld x3 rB3) (View.ld x4 rW3) (View.ld x5 rB3)⟩]

/-- The one store covers the tile. -/
theorem cover3_6 (p0 : Vec F S5000x64 .f32) (y : S5000x64.Idx) :
    ∃ pc ∈ ([⟨rT3, p0⟩] : List (View.Piece (Elt F) S5000x64 .f32)), y ∈ pc.1.set :=
  View.cover_of_tiled [⟨rT3, p0⟩] S5000x64.size (by rfl) y

set_option maxHeartbeats 4000000 in
/-- The body on whole staging buffers, the inputs' at given contents and the output's at anything, runs to the continuation
    holding the inputs' as they were and the output's at `out3_6` of the inputs'. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__mlp_kernel i arg1 harg1 arg2 harg2 arg3 harg3 arg4 harg4 arg5 harg5 arg6 harg6 arg7 harg7) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3 on core c: the arrays as the region finds them; after the body at point t each input's
    buffer at its block and the output's at `out3_6` of the input blocks; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 4000000 in
/-- The body at any point: the inputs' buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Mlp4.lean ====
/-
  Region 4 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.Kernel.Launch
import proofs.«419162_j62646392980003_1_alg».proof.Proof.Gen.Kernel.Skeleton
import proofs.«419162_j62646392980003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an unfetched point has the
    block index of the point before, and the body leaves the buffer as it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an unfetched point has the
    block index of the point before, and the body leaves the buffer as it found it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an unfetched point has the
    block index of the point before, and the body leaves the buffer as it found it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: an unfetched point has the
    block index of the point before, and the body leaves the buffer as it found it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: an unfetched point has the
    block index of the point before, and the body leaves the buffer as it found it. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not: an unfetched point has the
    block index of the point before, and the body leaves the buffer as it found it. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! The body's accesses: every load and the one store take a whole buffer. -/

abbrev rT4 : Rect S5000x64 := Rect.unit (s := S5000x64) ![0, 0] S5000x64.size inb_S5000x64_S5000x64_0_0
abbrev rW4 : Rect S64x64 := Rect.unit (s := S64x64) ![0, 0] S64x64.size inb_S64x64_S64x64_0_0
abbrev rB4 : Rect S64 := Rect.unit (s := S64) ![0] S64.size inb_S64_S64_0

/-- The output tile after the body, from the six input buffers: one whole-buffer store of the layer's arithmetic. -/
def out4_6 (x0 x1 : Vec F S5000x64 .f32) (x2 : Vec F S64x64 .f32) (x3 : Vec F S64 .f32) (x4 : Vec F S64x64 .f32) (x5 : Vec F S64 .f32) : Vec F S5000x64 .f32 :=
  View.canon [⟨rT4, k4_pay1 (View.ld x0 rT4) (View.ld x1 rT4) (View.ld x2 rW4) (View.ld x3 rB4) (View.ld x4 rW4) (View.ld x5 rB4)⟩]

/-- The one store covers the tile. -/
theorem cover4_6 (p0 : Vec F S5000x64 .f32) (y : S5000x64.Idx) :
    ∃ pc ∈ ([⟨rT4, p0⟩] : List (View.Piece (Elt F) S5000x64 .f32)), y ∈ pc.1.set :=
  View.cover_of_tiled [⟨rT4, p0⟩] S5000x64.size (by rfl) y

set_option maxHeartbeats 4000000 in
/-- The body on whole staging buffers, the inputs' at given contents and the output's at anything, runs to the continuation
    holding the inputs' as they were and the output's at `out4_6` of the inputs'. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of pipeline 4 on core c: the arrays as the region finds them; after the body at point t each input's
    buffer at its block and the output's at `out4_6` of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 4000000 in
/-- The body at any point: the inputs' buffers hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Pool.lean ====
/-
  Region 5 of the program: the mean of the node features over each of 256 groups, followed by a two-layer dense map of the
  256 group means. The grid has 13 points; point n stages tile n of the node features (8192 rows of 64) and the tile's 8192
  group ids. Two scratch buffers carry the running per-group feature sums (256 by 64) and the running per-group row counts
  (256 by 1) from point to point: the first point zeroes both, every point adds its tile's contribution, which is the
  product of the transposed one-hot matrix of the tile's group ids with the tile (for the sums) and with a column of ones
  (for the counts), and the last point divides the sums by the counts (at least one), applies the two dense layers and
  stores the result in the output buffer, which no other point touches. This module names what the two scratch buffers
  hold after each point as a recursion over the points, what the output buffer holds after the last point, and proves that
  the body run at each point does exactly that: the proof data the pipeline's launch theorem asks for.
-/
import proofs.«419162_j62646392980003_1_alg».proof.Proof.Gen.Kernel.Launch
import proofs.«419162_j62646392980003_1_alg».proof.Proof.Gen.Kernel.Skeleton
import proofs.«419162_j62646392980003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: an unfetched point has
    the block index of the point before, and the body leaves the buffer as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: an unfetched point has
    the block index of the point before, and the body leaves the buffer as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: an unfetched point has
    the block index of the point before, and the body leaves the buffer as it found it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: an unfetched point has
    the block index of the point before, and the body leaves the buffer as it found it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: an unfetched point has
    the block index of the point before, and the body leaves the buffer as it found it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not: an unfetched point has
    the block index of the point before, and the body leaves the buffer as it found it. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! The body's two branch conditions, from the grid coordinate: the first holds at the first point only, the second at the
    last point only. -/

/-- The condition under which the body zeroes the two scratch buffers. -/
abbrev cond5_1 (i : grid5.Coords) : Prop :=
  (Scalar.cmpi .ne (Scalar.extui (Scalar.cmpi .eq (BitVec.ofNat 32 (i 0).val) 0#32)) 0#32) = 1#1
theorem hcond5_1 : ∀ t : Fin cfg5.N, cond5_1 (grid5.coords t) ↔ t.val = 0 :=
  (by decide +kernel : ∀ t : Fin grid5.N, cond5_1 (grid5.coords t) ↔ t.val = 0)
/-- The condition under which the body stores the output buffer. -/
abbrev cond5_2 (i : grid5.Coords) : Prop := k5_cond2 i = 1#1
theorem hcond5_2 : ∀ t : Fin cfg5.N, cond5_2 (grid5.coords t) ↔ t.val = 12 :=
  (by decide +kernel : ∀ t : Fin grid5.N, cond5_2 (grid5.coords t) ↔ t.val = 12)

/-- The output window is idle, and not written back, at every point but the last; live at the last. -/
theorem idleAt5_6 : ∀ t : Fin cfg5.N, ¬t.val = 12 → cfg5.idle 6 (grid5.coords t) = true :=
  (by decide +kernel : ∀ t : Fin grid5.N, ¬t.val = 12 → cfg5.idle 6 (grid5.coords t) = true)
theorem noFlush5_6 : ∀ t : Fin cfg5.N, ¬t.val = 12 → (cfg5.win 6).flush t = false :=
  (by decide +kernel : ∀ t : Fin grid5.N, ¬t.val = 12 → win5_6.flush t = false)
theorem liveAt5_6 : ∀ t : Fin cfg5.N, t.val = 12 → cfg5.idle 6 (grid5.coords t) = false :=
  (by decide +kernel : ∀ t : Fin grid5.N, t.val = 12 → cfg5.idle 6 (grid5.coords t) = false)

/-! Whole-buffer accesses: a load through the whole-shape rectangle reads the contents, and a store through it, made last,
    leaves its payload whatever was stored before. -/

theorem hz2_5 : (![0, 0] : Fin 2 → Nat) = fun _ => 0 := by funext a; fin_cases a <;> rfl
theorem hz1_5 : (![0] : Fin 1 → Nat) = fun _ => 0 := by funext a; fin_cases a; rfl

/-- What a last store of the whole shape leaves, read back. -/
theorem read_store_whole5 {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- What a load of the whole shape reads. -/
theorem readAt_whole5 {S : Shape} {e : EltTy} (v : View sig .tc .vmem S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  (View.readAt_eq_ld v f _).trans (View.ld_unit_zero h inb _)

set_option maxHeartbeats 4000000 in
/-- A middle point: neither condition holds. On the tile, its group ids and the two running totals, the body leaves the totals
    each with the tile's contribution added. -/
theorem sound_kernel5_mid (c : Dev nD) (E : Set ℕ) (i : grid5.Coords) (arg1 : Memref sig .tc .vmem S8192x64 .f32) (harg1 : arg1.IsWhole) (arg2 : Memref sig .tc .vmem S8192 .i32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x1 .f32) (harg9 : arg9.IsWhole)
    (hc1 : ¬cond5_1 i) (hc2 : ¬cond5_2 i)
    (x0 : Vec F S8192x64 .f32) (x1 : Vec F S8192 .i32) (a : Vec F S256x64 .f32) (b : Vec F S256x1 .f32) (K : PUnit → sProp 𝕄) :
    iprop(owns (c : Thread nD τ) arg1 fullShare x0 ∗ owns (c : Thread nD τ) arg2 fullShare x1 ∗ owns (c : Thread nD τ) arg8 fullShare a ∗ owns (c : Thread nD τ) arg9 fullShare b
        ∗ (iprop(owns (c : Thread nD τ) arg1 fullShare x0 ∗ owns (c : Thread nD τ) arg2 fullShare x1 ∗ owns (c : Thread nD τ) arg8 fullShare (k5_pay4 x0 x1 a) ∗ owns (c : Thread nD τ) arg9 fullShare (k5_pay5 x1 b)) -∗ K ⟨⟩))
      ⊢ wp frame (wpE (defs₀ (F := F)) Variants.none c none) E (cc5__pool_kernel i arg1 harg1 arg2 harg2 arg3 harg3 arg4 harg4 arg5 harg5 arg6 harg6 arg7 harg7 arg8 harg8 arg9 harg9) K := by
  simp only [cc5__pool_kernel_eq_skeleton]; unfold cc5__pool_kernel_skel
  unfold owns
  iintro ⟨⟨%f0, %hf0, H0⟩, ⟨%f1, %hf1, H1⟩, ⟨%f8, %hf8, H8⟩, ⟨%f9, %hf9, H9⟩, Hk⟩
  subst hf0; subst hf1; subst hf8; subst hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H8]
  · iexists _; isplitr
    swap; · iexact H8
    ipureintro
    rw [read_store_whole5 _ _ hz2_5, readAt_whole5 _ _ hz2_5, readAt_whole5 _ _ hz1_5, readAt_whole5 _ _ hz2_5]
  iexists _; isplitr
  swap; · iexact H9
  ipureintro
  rw [read_store_whole5 _ _ hz2_5, readAt_whole5 _ _ hz1_5, readAt_whole5 _ _ hz2_5]

set_option maxHeartbeats 4000000 in
/-- The first point: the first condition holds, the second does not. Whatever the two scratch buffers held, the body zeroes them
    and leaves each at the tile's contribution added to zero. -/
theorem sound_kernel5_first (c : Dev nD) (E : Set ℕ) (i : grid5.Coords) (arg1 : Memref sig .tc .vmem S8192x64 .f32) (harg1 : arg1.IsWhole) (arg2 : Memref sig .tc .vmem S8192 .i32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x1 .f32) (harg9 : arg9.IsWhole)
    (hc1 : cond5_1 i) (hc2 : ¬cond5_2 i)
    (x0 : Vec F S8192x64 .f32) (x1 : Vec F S8192 .i32) (K : PUnit → sProp 𝕄) :
    iprop(owns (c : Thread nD τ) arg1 fullShare x0 ∗ owns (c : Thread nD τ) arg2 fullShare x1 ∗ (∃ a, owns (c : Thread nD τ) arg8 fullShare a) ∗ (∃ b, owns (c : Thread nD τ) arg9 fullShare b)
        ∗ (iprop(owns (c : Thread nD τ) arg1 fullShare x0 ∗ owns (c : Thread nD τ) arg2 fullShare x1 ∗ owns (c : Thread nD τ) arg8 fullShare (k5_pay4 x0 x1 k5_pay1) ∗ owns (c : Thread nD τ) arg9 fullShare (k5_pay5 x1 k5_pay2)) -∗ K ⟨⟩))
      ⊢ wp frame (wpE (defs₀ (F := F)) Variants.none c none) E (cc5__pool_kernel i arg1 harg1 arg2 harg2 arg3 harg3 arg4 harg4 arg5 harg5 arg6 harg6 arg7 harg7 arg8 harg8 arg9 harg9) K := by
  simp only [cc5__pool_kernel_eq_skeleton]; unfold cc5__pool_kernel_skel
  unfold owns
  iintro ⟨⟨%f0, %hf0, H0⟩, ⟨%f1, %hf1, H1⟩, ⟨%a, %f8, -, H8⟩, ⟨%b, %f9, -, H9⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H8]
  · iexists _; isplitr
    swap; · iexact H8
    ipureintro
    sl_unfold_words
    rw [read_store_whole5 _ _ hz2_5, readAt_whole5 _ _ hz2_5, readAt_whole5 _ _ hz1_5, View.readCov_unit_zero _ hz2_5]
  iexists _; isplitr
  swap; · iexact H9
  ipureintro
  sl_unfold_words
  rw [read_store_whole5 _ _ hz2_5, readAt_whole5 _ _ hz1_5, View.readCov_unit_zero _ hz2_5]

set_option maxHeartbeats 4000000 in
/-- The last point: the second condition holds, the first does not. The body adds the tile's contribution to the two running
    totals and stores the output buffer, whatever it held, at the dense map of the means. -/
theorem sound_kernel5_last (c : Dev nD) (E : Set ℕ) (i : grid5.Coords) (arg1 : Memref sig .tc .vmem S8192x64 .f32) (harg1 : arg1.IsWhole) (arg2 : Memref sig .tc .vmem S8192 .i32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x1 .f32) (harg9 : arg9.IsWhole)
    (hc1 : ¬cond5_1 i) (hc2 : cond5_2 i)
    (x0 : Vec F S8192x64 .f32) (x1 : Vec F S8192 .i32) (x2 : Vec F S64x64 .f32) (x3 : Vec F S64 .f32) (x4 : Vec F S64x64 .f32) (x5 : Vec F S64 .f32)
    (a : Vec F S256x64 .f32) (b : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ owns (c : Thread nD τ) arg8 fullShare a ∗ owns (c : Thread nD τ) arg9 fullShare b
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k5_pay6 (k5_pay4 x0 x1 a) (k5_pay5 x1 b) x2 x3 x4 x5)
            ∗ owns (c : Thread nD τ) arg8 fullShare (k5_pay4 x0 x1 a) ∗ owns (c : Thread nD τ) arg9 fullShare (k5_pay5 x1 b)) -∗ K ⟨⟩))
      ⊢ wp frame (wpE (defs₀ (F := F)) Variants.none c none) E (cc5__pool_kernel i arg1 harg1 arg2 harg2 arg3 harg3 arg4 harg4 arg5 harg5 arg6 harg6 arg7 harg7 arg8 harg8 arg9 harg9) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, ⟨%f9, %hf9, H9⟩, Hk⟩
  subst hf0; subst hf1; subst hf2; subst hf3; subst hf4; subst hf5; subst hf8; subst hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_words
    rw [read_store_whole5 _ _ hz2_5, View.readCov_unit_zero _ hz2_5, View.readCov_unit_zero _ hz2_5]
    rw [readAt_whole5 _ _ hz2_5, readAt_whole5 _ _ hz1_5, readAt_whole5 _ _ hz2_5, readAt_whole5 _ _ hz2_5, readAt_whole5 _ _ hz2_5,
      readAt_whole5 _ _ hz1_5, readAt_whole5 _ _ hz2_5, readAt_whole5 _ _ hz1_5]
  isplitl [H8]
  · iexists _; isplitr
    swap; · iexact H8
    ipureintro
    sl_unfold_words
    rw [read_store_whole5 _ _ hz2_5, readAt_whole5 _ _ hz2_5, readAt_whole5 _ _ hz1_5, readAt_whole5 _ _ hz2_5]
  iexists _; isplitr
  swap; · iexact H9
  ipureintro
  sl_unfold_words
  rw [read_store_whole5 _ _ hz2_5, readAt_whole5 _ _ hz1_5, readAt_whole5 _ _ hz2_5]

/-! ## What the two scratch buffers and the output buffer hold -/

/-- The running totals after the body at point n: the per-group feature sums and the per-group row counts over tiles 0 to n.
    Point 0 adds its tile's contribution to zero, every later point to what the point before left. -/
def accAt5 (c : Dev nD) : (n : ℕ) → n < cfg5.N → Vec F S256x64 .f32 × Vec F S256x1 .f32
  | 0, h => (k5_pay4 (iblk5 V c 0 ⟨0, h⟩) (iblk5 V c 1 ⟨0, h⟩) k5_pay1, k5_pay5 (iblk5 V c 1 ⟨0, h⟩) k5_pay2)
  | n + 1, h => (k5_pay4 (iblk5 V c 0 ⟨n + 1, h⟩) (iblk5 V c 1 ⟨n + 1, h⟩) (accAt5 c n (Nat.lt_of_succ_lt h)).1,
      k5_pay5 (iblk5 V c 1 ⟨n + 1, h⟩) (accAt5 c n (Nat.lt_of_succ_lt h)).2)

theorem accAt5_zero (c : Dev nD) (h : 0 < cfg5.N) :
    accAt5 V c 0 h = (k5_pay4 (iblk5 V c 0 ⟨0, h⟩) (iblk5 V c 1 ⟨0, h⟩) k5_pay1, k5_pay5 (iblk5 V c 1 ⟨0, h⟩) k5_pay2) := rfl

theorem accAt5_succ (c : Dev nD) (n : ℕ) (h : n + 1 < cfg5.N) :
    accAt5 V c (n + 1) h = (k5_pay4 (iblk5 V c 0 ⟨n + 1, h⟩) (iblk5 V c 1 ⟨n + 1, h⟩) (accAt5 V c n (Nat.lt_of_succ_lt h)).1,
      k5_pay5 (iblk5 V c 1 ⟨n + 1, h⟩) (accAt5 V c n (Nat.lt_of_succ_lt h)).2) := rfl

/-- The totals at the first point, stated at the point. -/
theorem accAt5_first (c : Dev nD) (t : Fin cfg5.N) (h0 : t.val = 0) :
    accAt5 V c t.val t.isLt = (k5_pay4 (iblk5 V c 0 t) (iblk5 V c 1 t) k5_pay1, k5_pay5 (iblk5 V c 1 t) k5_pay2) := by
  obtain ⟨n, hn⟩ := t
  cases n with
  | zero => rfl
  | succ n => exact absurd h0 (Nat.succ_ne_zero n)

/-- The totals at a later point, stated at the point, over what the point before left. -/
theorem accAt5_next (c : Dev nD) (t : Fin cfg5.N) (h0 : t.val ≠ 0) :
    accAt5 V c t.val t.isLt = (k5_pay4 (iblk5 V c 0 t) (iblk5 V c 1 t) (accAt5 V c (t.val - 1) (Nat.lt_of_le_of_lt (Nat.sub_le _ _) t.isLt)).1,
      k5_pay5 (iblk5 V c 1 t) (accAt5 V c (t.val - 1) (Nat.lt_of_le_of_lt (Nat.sub_le _ _) t.isLt)).2) := by
  obtain ⟨n, hn⟩ := t
  cases n with
  | zero => exact absurd rfl h0
  | succ n => rfl

theorem lt12_5 : 12 < cfg5.N := by rw [show cfg5.N = 13 from N_5]; decide

/-- The output buffer after the last point: the sums divided by the counts (at least one), through the two dense layers. -/
def out5 (c : Dev nD) : Vec F S256x64 .f32 :=
  k5_pay6 (accAt5 V c 12 lt12_5).1 (accAt5 V c 12 lt12_5).2 (iblk5 V c 2 t5_12) (iblk5 V c 3 t5_12) (iblk5 V c 4 t5_12) (iblk5 V c 5 t5_12)

theorem out5_eq (c : Dev nD) :
    out5 V c = k5_pay6 (accAt5 V c 12 (by rw [show cfg5.N = 13 from N_5]; decide)).1 (accAt5 V c 12 (by rw [show cfg5.N = 13 from N_5]; decide)).2
      (iblk5 V c 2 t5_12) (iblk5 V c 3 t5_12) (iblk5 V c 4 t5_12) (iblk5 V c 5 t5_12) := rfl

/-- The same stated at a point known to be the last. -/
theorem out5_at (c : Dev nD) (t : Fin cfg5.N) (ht : t.val = 12) :
    out5 V c = k5_pay6 (accAt5 V c t.val t.isLt).1 (accAt5 V c t.val t.isLt).2 (iblk5 V c 2 t) (iblk5 V c 3 t) (iblk5 V c 4 t) (iblk5 V c 5 t) := by
  obtain ⟨n, hn⟩ := t
  have hn' : n = 12 := ht
  subst hn'
  rfl

/-! ## The invariant: the two scratch buffers carried between points -/

/-- The two scratch operands: whole scoped buffers of the kernel's own, passed beside the windows. -/
abbrev scM5_0 : Memref sig .tc .vmem S256x64 .f32 := Memref.whole cc5_scratch0
abbrev scM5_1 : Memref sig .tc .vmem S256x1 .f32 := Memref.whole cc5_scratch1

/-- The core's other scoped buffers, which the body never touches. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The class invariant with the two scratch operands as memrefs owned at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 (F := F) c) ∗ (∃ r, prngReg c r)) := by
  unfold Pipeline.ΦA; rw [scopedRest5_split]; simp only [scM5_0, scM5_1, owns_whole]; try rfl

/-- The region invariant before position n: before the first point the class invariant, every scratch at anything;
    afterwards the two scratch buffers at the running totals the point before left, beside the untouched rest and the
    generator register. -/
def PhiS5 (c : Dev nD) : (n : ℕ) → n ≤ cfg5.N → sProp 𝕄
  | 0, _ => Pipeline.ΦA spec5 c
  | n + 1, hn => iprop(iprop(iprop(owns (c : Thread nD τ) scM5_0 fullShare (accAt5 V c n hn).1 ∗ owns (c : Thread nD τ) scM5_1 fullShare (accAt5 V c n hn).2) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (accAt5 V c n hn).1 ∗ owns (c : Thread nD τ) scM5_1 fullShare (accAt5 V c n hn).2) ∗ rest5 (F := F) c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (accAt5 V c (n - 1) (by omega)).1 ∗ owns (c : Thread nD τ) scM5_1 fullShare (accAt5 V c (n - 1) (by omega)).2) ∗ rest5 (F := F) c) ∗ (∃ r, prngReg c r)) := by
  cases n with
  | zero => exact absurd rfl hz
  | succ n => rfl

/-! ## The proof data -/

/-- The proof data of pipeline 5 on core c: the arrays as the region finds them; after the body at point t each input's
    buffer at its block and the output's at `out5` (stated at every point, read at the last only: elsewhere the window is
    idle); the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5 V c
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5 V c := by dsimp only [dat5]
theorem after5_6_last (c : Dev nD) (t : Fin cfg5.N) (ht : t.val = 12) : (dat5 V c).after 6 t = out5 V c := after5_6 V c t

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation -/

/-- Input window 0 is never idle: the body hands its buffer back at its block. -/
theorem leaves5_0 (c : Dev nD) (t : Fin cfg5.N) :
    (dat5 V c).leavesExact 0 t = owns (c : Thread nD τ) (st5_0 t) fullShare (iblk5 V c 0 t) := by
  unfold Dat.leavesExact; rw [show cfg5.idle 0 (cfg5.grid.coords t) = false from rfl, after5_0]
/-- Input window 1 is never idle: the body hands its buffer back at its block. -/
theorem leaves5_1 (c : Dev nD) (t : Fin cfg5.N) :
    (dat5 V c).leavesExact 1 t = owns (c : Thread nD τ) (st5_1 t) fullShare (iblk5 V c 1 t) := by
  unfold Dat.leavesExact; rw [show cfg5.idle 1 (cfg5.grid.coords t) = false from rfl, after5_1]
/-- Input window 2 is never idle: the body hands its buffer back at its block. -/
theorem leaves5_2 (c : Dev nD) (t : Fin cfg5.N) :
    (dat5 V c).leavesExact 2 t = owns (c : Thread nD τ) (st5_2 t) fullShare (iblk5 V c 2 t) := by
  unfold Dat.leavesExact; rw [show cfg5.idle 2 (cfg5.grid.coords t) = false from rfl, after5_2]
/-- Input window 3 is never idle: the body hands its buffer back at its block. -/
theorem leaves5_3 (c : Dev nD) (t : Fin cfg5.N) :
    (dat5 V c).leavesExact 3 t = owns (c : Thread nD τ) (st5_3 t) fullShare (iblk5 V c 3 t) := by
  unfold Dat.leavesExact; rw [show cfg5.idle 3 (cfg5.grid.coords t) = false from rfl, after5_3]
/-- Input window 4 is never idle: the body hands its buffer back at its block. -/
theorem leaves5_4 (c : Dev nD) (t : Fin cfg5.N) :
    (dat5 V c).leavesExact 4 t = owns (c : Thread nD τ) (st5_4 t) fullShare (iblk5 V c 4 t) := by
  unfold Dat.leavesExact; rw [show cfg5.idle 4 (cfg5.grid.coords t) = false from rfl, after5_4]
/-- Input window 5 is never idle: the body hands its buffer back at its block. -/
theorem leaves5_5 (c : Dev nD) (t : Fin cfg5.N) :
    (dat5 V c).leavesExact 5 t = owns (c : Thread nD τ) (st5_5 t) fullShare (iblk5 V c 5 t) := by
  unfold Dat.leavesExact; rw [show cfg5.idle 5 (cfg5.grid.coords t) = false from rfl, after5_5]

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4000000 in
/-- The body at any point. The inputs' buffers hold their blocks. At the first point the invariant hands the two scratch buffers
    at anything and takes them back at the first tile's contribution; at a later point it hands them at the totals the point
    before left and takes them back with this tile's contribution added; the output's buffer is handed back as found except at
    the last point, where it is stored at the dense map of the means. The rest of the invariant and what the core owes pass
    through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3, leaves5_4, leaves5_5]
  have hN : t.val < 13 := lt_of_lt_of_eq t.isLt (show cfg5.N = 13 from N_5)
  by_cases h0 : t.val = 0
  · have h12 : ¬t.val = 12 := by omega
    rw [Dat.leavesExact_idle (dat5 V c) 6 t (idleAt5_6 t h12) (noFlush5_6 t h12)]
    rw [accAt5_first V c t h0]
    (try dsimp only)
    rw [PhiS5_castSucc V c t, PhiS5_zero V c _ _ h0, PhiA5_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel5_first c Set.univ _ _ _ _ _ _ _ _ _ _ _ _ _ _ _ _ _ _ _ ((hcond5_1 t).mpr h0) (fun h => h12 ((hcond5_2 t).mp h)) (iblk5 V c 0 t) (iblk5 V c 1 t) _)
    isplitl [H0]; · iexact H0
    isplitl [H1]; · iexact H1
    isplitl [HS0]; · iexact HS0
    isplitl [HS1]; · iexact HS1
    iintro ⟨H0, H1, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h12 : t.val = 12
    · rw [show (dat5 V c).leavesExact 6 t = owns (c : Thread nD τ) (st5_6 t) fullShare ((dat5 V c).after 6 t) from by
        unfold Dat.leavesExact; rw [liveAt5_6 t h12], after5_6, out5_at V c t h12]
      rw [accAt5_next V c t h0]
      (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel5_last c Set.univ _ _ _ _ _ _ _ _ _ _ _ _ _ _ _ _ _ _ _ (fun h => h0 ((hcond5_1 t).mp h)) ((hcond5_2 t).mpr h12) (iblk5 V c 0 t) (iblk5 V c 1 t) (iblk5 V c 2 t) (iblk5 V c 3 t) (iblk5 V c 4 t) (iblk5 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat5 V c) 6 t (idleAt5_6 t h12) (noFlush5_6 t h12)]
      rw [accAt5_next V c t h0]
      (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel5_mid c Set.univ _ _ _ _ _ _ _ _ _ _ _ _ _ _ _ _ _ _ _ (fun h => h0 ((hcond5_1 t).mp h)) (fun h => h12 ((hcond5_2 t).mp h)) (iblk5 V c 0 t) (iblk5 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-! ## Entering and leaving the region -/

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class invariant back: what the two scratch buffers hold is forgotten. -/
theorem hout5 (c : Dev nD) : (dat5 V c).Φ (Fin.last cfg5.N) ⊢ Pipeline.ΦA spec5 c := by
  have hne : (Fin.last cfg5.N).val ≠ 0 := by rw [Fin.val_last]; have : cfg5.N = 13 := N_5; omega
  rw [show (dat5 V c).Φ (Fin.last cfg5.N) = PhiS5 V c (Fin.last cfg5.N).val (Nat.le_of_lt_succ (Fin.last cfg5.N).isLt) from rfl,
    PhiS5_pos V c _ _ hne, PhiA5_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.Kernel.Hand

end
-- ==== Proof.K.Run.lean ====
/-
  The run of the whole program: six kernel regions among host stretches. Between two items a core holds every unscoped
  buffer at a named valuation: the launch contents, carried through each host stretch by the stretch's action on valuations
  and through each region by updating the one array the region writes to the fold of its write-backs. Each region is given
  as a record that splits its seven arrays out of the unscoped buffers at entry and puts them back at exit; the launch over
  the fifteen items then says that every weakly fair execution terminates without a fault and that every final memory holds
  every unscoped buffer at the last valuation. The frame (the eleven argument arrays end as launched) and the value of the
  result array are read off that valuation.
-/
import proofs.«419162_j62646392980003_1_alg».proof.Proof.K.Mlp0
import proofs.«419162_j62646392980003_1_alg».proof.Proof.K.Mlp1
import proofs.«419162_j62646392980003_1_alg».proof.Proof.K.Mlp2
import proofs.«419162_j62646392980003_1_alg».proof.Proof.K.Mlp3
import proofs.«419162_j62646392980003_1_alg».proof.Proof.K.Mlp4
import proofs.«419162_j62646392980003_1_alg».proof.Proof.K.Pool
import proofs.«419162_j62646392980003_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items, region by region

Each region leaves its six input arrays as it found them and its output array at the fold of its write-backs; each host
stretch acts on the valuation by `StableHlo.after`. The valuations `WJ` below are built in program order, so that each
region's proof data is taken at contents that are already defined. -/

/-- After region 0: `main_v22` at the fold of region 0's write-backs over the contents it was entered from. -/
def W2 (c : Dev nD) : Valuation τ sig (Elt F) :=
  Function.update (Gen.V1 m c) main_v22 ((dat0 (fun c b => Gen.V1 m c b) c).arrAt 6 cfg0.N)
/-- After the host stretch that follows region 0. -/
def W3 (c : Dev nD) : Valuation τ sig (Elt F) := StableHlo.after hostOps1 (W2 m c)
/-- After region 1. -/
def W4 (c : Dev nD) : Valuation τ sig (Elt F) :=
  Function.update (W3 m c) main_v41 ((dat1 (fun c b => W3 m c b) c).arrAt 6 cfg1.N)
def W5 (c : Dev nD) : Valuation τ sig (Elt F) := StableHlo.after hostOps2 (W4 m c)
/-- After region 2. -/
def W6 (c : Dev nD) : Valuation τ sig (Elt F) :=
  Function.update (W5 m c) main_v60 ((dat2 (fun c b => W5 m c b) c).arrAt 6 cfg2.N)
def W7 (c : Dev nD) : Valuation τ sig (Elt F) := StableHlo.after hostOps3 (W6 m c)
/-- After region 3. -/
def W8 (c : Dev nD) : Valuation τ sig (Elt F) :=
  Function.update (W7 m c) main_v79 ((dat3 (fun c b => W7 m c b) c).arrAt 6 cfg3.N)
def W9 (c : Dev nD) : Valuation τ sig (Elt F) := StableHlo.after hostOps4 (W8 m c)
/-- After region 4. -/
def W10 (c : Dev nD) : Valuation τ sig (Elt F) :=
  Function.update (W9 m c) main_v98 ((dat4 (fun c b => W9 m c b) c).arrAt 6 cfg4.N)
/-- After the four host stretches between region 4 and region 5. -/
def W14 (c : Dev nD) : Valuation τ sig (Elt F) :=
  StableHlo.after hostOps5_3 (StableHlo.after hostOps5_2 (StableHlo.after hostOps5_1 (StableHlo.after hostOps5 (W10 m c))))
/-- After region 5: the end. -/
def W15 (c : Dev nD) : Valuation τ sig (Elt F) :=
  Function.update (W14 m c) main_v101 ((dat5 (fun c b => W14 m c b) c).arrAt 6 cfg5.N)

/-- What each region leaves in the array it writes: the valuation after it, read at that array. -/
def outs : Gen.Outs (F := F) := fun J r c =>
  match J with
  | 2 => W2 m c r
  | 4 => W4 m c r
  | 6 => W6 m c r
  | 8 => W8 m c r
  | 10 => W10 m c r
  | _ => W15 m c r

theorem V2_eq (c : Dev nD) : Gen.V2 m (outs m) c = W2 m c := by
  show Function.update (Gen.V1 m c) main_v22 (W2 m c main_v22) = W2 m c
  unfold W2; rw [Function.update_self]
theorem V3_eq (c : Dev nD) : Gen.V3 m (outs m) c = W3 m c := by
  show StableHlo.after hostOps1 (Gen.V2 m (outs m) c) = _; rw [V2_eq]; rfl
theorem V4_eq (c : Dev nD) : Gen.V4 m (outs m) c = W4 m c := by
  show Function.update (Gen.V3 m (outs m) c) main_v41 (W4 m c main_v41) = W4 m c
  rw [V3_eq]; unfold W4; rw [Function.update_self]
theorem V5_eq (c : Dev nD) : Gen.V5 m (outs m) c = W5 m c := by
  show StableHlo.after hostOps2 (Gen.V4 m (outs m) c) = _; rw [V4_eq]; rfl
theorem V6_eq (c : Dev nD) : Gen.V6 m (outs m) c = W6 m c := by
  show Function.update (Gen.V5 m (outs m) c) main_v60 (W6 m c main_v60) = W6 m c
  rw [V5_eq]; unfold W6; rw [Function.update_self]
theorem V7_eq (c : Dev nD) : Gen.V7 m (outs m) c = W7 m c := by
  show StableHlo.after hostOps3 (Gen.V6 m (outs m) c) = _; rw [V6_eq]; rfl
theorem V8_eq (c : Dev nD) : Gen.V8 m (outs m) c = W8 m c := by
  show Function.update (Gen.V7 m (outs m) c) main_v79 (W8 m c main_v79) = W8 m c
  rw [V7_eq]; unfold W8; rw [Function.update_self]
theorem V9_eq (c : Dev nD) : Gen.V9 m (outs m) c = W9 m c := by
  show StableHlo.after hostOps4 (Gen.V8 m (outs m) c) = _; rw [V8_eq]; rfl
theorem V10_eq (c : Dev nD) : Gen.V10 m (outs m) c = W10 m c := by
  show Function.update (Gen.V9 m (outs m) c) main_v98 (W10 m c main_v98) = W10 m c
  rw [V9_eq]; unfold W10; rw [Function.update_self]
theorem V14_eq (c : Dev nD) : Gen.V14 m (outs m) c = W14 m c := by
  show StableHlo.after hostOps5_3 (StableHlo.after hostOps5_2 (StableHlo.after hostOps5_1 (StableHlo.after hostOps5 (Gen.V10 m (outs m) c)))) = _
  rw [V10_eq]; rfl
theorem V15_eq (c : Dev nD) : Gen.V15 m (outs m) c = W15 m c := by
  show Function.update (Gen.V14 m (outs m) c) main_v101 (W15 m c main_v101) = W15 m c
  rw [V14_eq]; unfold W15; rw [Function.update_self]

/-! The entry contents of each region, as the generated valuations and as the fold above. -/

theorem in1_eq : (fun (c : Dev nD) (b : Ref sig .tc) => Gen.V3 m (outs m) c b) = fun (c : Dev nD) (b : Ref sig .tc) => W3 m c b := by
  funext c b; rw [V3_eq]
theorem in2_eq : (fun (c : Dev nD) (b : Ref sig .tc) => Gen.V5 m (outs m) c b) = fun (c : Dev nD) (b : Ref sig .tc) => W5 m c b := by
  funext c b; rw [V5_eq]
theorem in3_eq : (fun (c : Dev nD) (b : Ref sig .tc) => Gen.V7 m (outs m) c b) = fun (c : Dev nD) (b : Ref sig .tc) => W7 m c b := by
  funext c b; rw [V7_eq]
theorem in4_eq : (fun (c : Dev nD) (b : Ref sig .tc) => Gen.V9 m (outs m) c b) = fun (c : Dev nD) (b : Ref sig .tc) => W9 m c b := by
  funext c b; rw [V9_eq]
theorem in5_eq : (fun (c : Dev nD) (b : Ref sig .tc) => Gen.V14 m (outs m) c b) = fun (c : Dev nD) (b : Ref sig .tc) => W14 m c b := by
  funext c b; rw [V14_eq]

/-- Region 0 leaves `main_v22` at the fold of its write-backs over its entry contents; -/
theorem outs_eq_0 (c : Dev nD) :
    outs m 2 main_v22 c = (dat0 (fun c b => Gen.V1 m c b) c).arrAt 6 cfg0.N := by
  show W2 m c main_v22 = _; unfold W2; rw [Function.update_self]
/-- region 1 `main_v41`; -/
theorem outs_eq_1 (c : Dev nD) :
    outs m 4 main_v41 c = (dat1 (fun c b => Gen.V3 m (outs m) c b) c).arrAt 6 cfg1.N := by
  rw [in1_eq]; show W4 m c main_v41 = _; unfold W4; rw [Function.update_self]
/-- region 2 `main_v60`; -/
theorem outs_eq_2 (c : Dev nD) :
    outs m 6 main_v60 c = (dat2 (fun c b => Gen.V5 m (outs m) c b) c).arrAt 6 cfg2.N := by
  rw [in2_eq]; show W6 m c main_v60 = _; unfold W6; rw [Function.update_self]
/-- region 3 `main_v79`; -/
theorem outs_eq_3 (c : Dev nD) :
    outs m 8 main_v79 c = (dat3 (fun c b => Gen.V7 m (outs m) c b) c).arrAt 6 cfg3.N := by
  rw [in3_eq]; show W8 m c main_v79 = _; unfold W8; rw [Function.update_self]
/-- region 4 `main_v98`; -/
theorem outs_eq_4 (c : Dev nD) :
    outs m 10 main_v98 c = (dat4 (fun c b => Gen.V9 m (outs m) c b) c).arrAt 6 cfg4.N := by
  rw [in4_eq]; show W10 m c main_v98 = _; unfold W10; rw [Function.update_self]
/-- region 5 the result array `main_v101`. -/
theorem outs_eq_5 (c : Dev nD) :
    outs m 15 main_v101 c = (dat5 (fun c b => Gen.V14 m (outs m) c b) c).arrAt 6 cfg5.N := by
  rw [in5_eq]; show W15 m c main_v101 = _; unfold W15; rw [Function.update_self]

/-! ## The proof data family and the rest of the thread state -/

/-- Every pipeline's proof data, each at its region's entry contents. -/
def pdats : (p : Fin 6) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V3 m (outs m) c b) c
  | ⟨2, _⟩ => fun c => dat2 (fun c b => Gen.V5 m (outs m) c b) c
  | ⟨3, _⟩ => fun c => dat3 (fun c b => Gen.V7 m (outs m) c b) c
  | ⟨4, _⟩ => fun c => dat4 (fun c b => Gen.V9 m (outs m) c b) c
  | ⟨5, _⟩ => fun c => dat5 (fun c b => Gen.V14 m (outs m) c b) c

/-- No core owes another anything: no level is assigned. -/
abbrev Lz : GSem nD τ sig → Finset Unit := fun _ => ∅
abbrev lvz : GSem nD τ sig → Unit → ℕ := fun _ _ => 0
/-- What rides beside the unscoped buffers through every item: the core's generator register at some state (a region's
    invariant takes it in and gives it back) and what the core owes, which is nothing. -/
abbrev Rst (c : Dev nD) : sProp 𝕄 := iprop((∃ r, prngReg c r) ∗ ∃ W, owes (c : Thread nD τ) (0 : CellTallies nD τ sig Unit) W)

/-! ## The regions as segments -/

/-! ### Region 0 -/

/-- Region 0's windows other than the last are inputs. -/
theorem isIn0 : ∀ w : Fin cfg0.W, w ≠ 6 → (cfg0.win w).isOut = false := by decide
/-- At region 0's exit each of its arrays holds what the pipeline leaves: an input array what it held at entry (no
    write-back touches it, and the valuation after the region differs from the one before only at `main_v22`, which
    is another array because distinct windows have distinct arrays), the output array `main_v22` the fold of the
    write-backs. -/
theorem hF0 (c : Dev nD) (w : Fin cfg0.W) :
    (dat0 (fun c b => Gen.V1 m c b) c).arrAt w cfg0.N = (fun b : Ref sig .tc => Gen.V2 m (outs m) c b) (Pipeline.arrRef spec0 w) := by
  by_cases hw : w = 6
  · subst hw
    refine (outs_eq_0 m c).symm.trans ?_
    show _ = Function.update (Gen.V1 m c) (Proc.devRef .tc main_v22) (outs m 2 main_v22 c) (Proc.devRef .tc main_v22)
    rw [Function.update_self]
  · refine ((dat0 (fun c b => Gen.V1 m c b) c).arrAt_in w (isIn0 w hw) _).trans ((A_eq0 (fun c b => Gen.V1 m c b) c w).trans ?_)
    exact (Gen.V2_of m (outs m) c (Pipeline.arrRef spec0 w) fun h => by
      rw [List.mem_singleton] at h
      exact hw (launch0.win.arr_inj (h.trans (rfl : main_v22 = Pipeline.arrRef spec0 6)))).symm
/-- Every other unscoped buffer holds at region 0's exit what it held at entry. -/
theorem hrest0 (c : Dev nD) : ∀ b : Ref sig .tc, b ∉ Finset.univ.image (Pipeline.arrRef spec0) →
    (fun b : Ref sig .tc => Gen.V2 m (outs m) c b) b = (fun b : Ref sig .tc => Gen.V1 m c b) b :=
  fun b hb => Gen.V2_of m (outs m) c b fun h => by
    rw [List.mem_singleton] at h; subst h
    exact hb (Finset.mem_image.mpr ⟨6, Finset.mem_univ _, rfl⟩)

set_option backward.isDefEq.respectTransparency.types false in
/-- REGION 0 over the thread state: entered from every unscoped buffer at the contents before it, left at the contents
    after it. Its seven arrays are split out of the unscoped buffers and put back at the exit contents; the generator
    register goes into the region's invariant and comes back; nothing is owed; the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ Lz lvz 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V1 m c b) fun w => A_eq0 (fun c b => Gen.V1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

/-- Region 1's windows other than the last are inputs. -/
theorem isIn1 : ∀ w : Fin cfg1.W, w ≠ 6 → (cfg1.win w).isOut = false := by decide
/-- At region 1's exit each of its arrays holds what the pipeline leaves: an input array what it held at entry (no
    write-back touches it, and the valuation after the region differs from the one before only at `main_v41`, which
    is another array because distinct windows have distinct arrays), the output array `main_v41` the fold of the
    write-backs. -/
theorem hF1 (c : Dev nD) (w : Fin cfg1.W) :
    (dat1 (fun c b => Gen.V3 m (outs m) c b) c).arrAt w cfg1.N = (fun b : Ref sig .tc => Gen.V4 m (outs m) c b) (Pipeline.arrRef spec1 w) := by
  by_cases hw : w = 6
  · subst hw
    refine (outs_eq_1 m c).symm.trans ?_
    show _ = Function.update (Gen.V3 m (outs m) c) (Proc.devRef .tc main_v41) (outs m 4 main_v41 c) (Proc.devRef .tc main_v41)
    rw [Function.update_self]
  · refine ((dat1 (fun c b => Gen.V3 m (outs m) c b) c).arrAt_in w (isIn1 w hw) _).trans ((A_eq1 (fun c b => Gen.V3 m (outs m) c b) c w).trans ?_)
    exact (Gen.V4_of m (outs m) c (Pipeline.arrRef spec1 w) fun h => by
      rw [List.mem_singleton] at h
      exact hw (launch1.win.arr_inj (h.trans (rfl : main_v41 = Pipeline.arrRef spec1 6)))).symm
/-- Every other unscoped buffer holds at region 1's exit what it held at entry. -/
theorem hrest1 (c : Dev nD) : ∀ b : Ref sig .tc, b ∉ Finset.univ.image (Pipeline.arrRef spec1) →
    (fun b : Ref sig .tc => Gen.V4 m (outs m) c b) b = (fun b : Ref sig .tc => Gen.V3 m (outs m) c b) b :=
  fun b hb => Gen.V4_of m (outs m) c b fun h => by
    rw [List.mem_singleton] at h; subst h
    exact hb (Finset.mem_image.mpr ⟨6, Finset.mem_univ _, rfl⟩)

set_option backward.isDefEq.respectTransparency.types false in
/-- REGION 1 over the thread state: entered from every unscoped buffer at the contents before it, left at the contents
    after it. Its seven arrays are split out of the unscoped buffers and put back at the exit contents; the generator
    register goes into the region's invariant and comes back; nothing is owed; the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => Gen.V3 m (outs m) c b) c).loose
  hwaits := Pipeline.hwaits_of_owed_zero _ _ _ _ Lz lvz 1 fun _ _ => rfl
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => Gen.V3 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V3 m (outs m) c b) fun w => A_eq1 (fun c b => Gen.V3 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V3 m (outs m) c b) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

/-- Region 2's windows other than the last are inputs. -/
theorem isIn2 : ∀ w : Fin cfg2.W, w ≠ 6 → (cfg2.win w).isOut = false := by decide
/-- At region 2's exit each of its arrays holds what the pipeline leaves: an input array what it held at entry (no
    write-back touches it, and the valuation after the region differs from the one before only at `main_v60`, which
    is another array because distinct windows have distinct arrays), the output array `main_v60` the fold of the
    write-backs. -/
theorem hF2 (c : Dev nD) (w : Fin cfg2.W) :
    (dat2 (fun c b => Gen.V5 m (outs m) c b) c).arrAt w cfg2.N = (fun b : Ref sig .tc => Gen.V6 m (outs m) c b) (Pipeline.arrRef spec2 w) := by
  by_cases hw : w = 6
  · subst hw
    refine (outs_eq_2 m c).symm.trans ?_
    show _ = Function.update (Gen.V5 m (outs m) c) (Proc.devRef .tc main_v60) (outs m 6 main_v60 c) (Proc.devRef .tc main_v60)
    rw [Function.update_self]
  · refine ((dat2 (fun c b => Gen.V5 m (outs m) c b) c).arrAt_in w (isIn2 w hw) _).trans ((A_eq2 (fun c b => Gen.V5 m (outs m) c b) c w).trans ?_)
    exact (Gen.V6_of m (outs m) c (Pipeline.arrRef spec2 w) fun h => by
      rw [List.mem_singleton] at h
      exact hw (launch2.win.arr_inj (h.trans (rfl : main_v60 = Pipeline.arrRef spec2 6)))).symm
/-- Every other unscoped buffer holds at region 2's exit what it held at entry. -/
theorem hrest2 (c : Dev nD) : ∀ b : Ref sig .tc, b ∉ Finset.univ.image (Pipeline.arrRef spec2) →
    (fun b : Ref sig .tc => Gen.V6 m (outs m) c b) b = (fun b : Ref sig .tc => Gen.V5 m (outs m) c b) b :=
  fun b hb => Gen.V6_of m (outs m) c b fun h => by
    rw [List.mem_singleton] at h; subst h
    exact hb (Finset.mem_image.mpr ⟨6, Finset.mem_univ _, rfl⟩)

set_option backward.isDefEq.respectTransparency.types false in
/-- REGION 2 over the thread state: entered from every unscoped buffer at the contents before it, left at the contents
    after it. Its seven arrays are split out of the unscoped buffers and put back at the exit contents; the generator
    register goes into the region's invariant and comes back; nothing is owed; the kernel has no semaphore of its own. -/
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (fun c b => Gen.V5 m (outs m) c b) c).loose
  hwaits := Pipeline.hwaits_of_owed_zero _ _ _ _ Lz lvz 2 fun _ _ => rfl
  pre c := iprop(StableHlo.held (c : Thread nD τ) (Pipeline.ucRefs τ sig) (Gen.V5 m (outs m) c) ∗ Rst c)
  post c := iprop(StableHlo.held (c : Thread nD τ) (Pipeline.ucRefs τ sig) (Gen.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (fun b => Gen.V5 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => Gen.V5 m (outs m) c b) fun w => A_eq2 (fun c b => Gen.V5 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => Gen.V5 m (outs m) c b) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

/-- Region 3's windows other than the last are inputs. -/
theorem isIn3 : ∀ w : Fin cfg3.W, w ≠ 6 → (cfg3.win w).isOut = false := by decide
/-- At region 3's exit each of its arrays holds what the pipeline leaves: an input array what it held at entry (no
    write-back touches it, and the valuation after the region differs from the one before only at `main_v79`, which
    is another array because distinct windows have distinct arrays), the output array `main_v79` the fold of the
    write-backs. -/
theorem hF3 (c : Dev nD) (w : Fin cfg3.W) :
    (dat3 (fun c b => Gen.V7 m (outs m) c b) c).arrAt w cfg3.N = (fun b : Ref sig .tc => Gen.V8 m (outs m) c b) (Pipeline.arrRef spec3 w) := by
  by_cases hw : w = 6
  · subst hw
    refine (outs_eq_3 m c).symm.trans ?_
    show _ = Function.update (Gen.V7 m (outs m) c) (Proc.devRef .tc main_v79) (outs m 8 main_v79 c) (Proc.devRef .tc main_v79)
    rw [Function.update_self]
  · refine ((dat3 (fun c b => Gen.V7 m (outs m) c b) c).arrAt_in w (isIn3 w hw) _).trans ((A_eq3 (fun c b => Gen.V7 m (outs m) c b) c w).trans ?_)
    exact (Gen.V8_of m (outs m) c (Pipeline.arrRef spec3 w) fun h => by
      rw [List.mem_singleton] at h
      exact hw (launch3.win.arr_inj (h.trans (rfl : main_v79 = Pipeline.arrRef spec3 6)))).symm
/-- Every other unscoped buffer holds at region 3's exit what it held at entry. -/
theorem hrest3 (c : Dev nD) : ∀ b : Ref sig .tc, b ∉ Finset.univ.image (Pipeline.arrRef spec3) →
    (fun b : Ref sig .tc => Gen.V8 m (outs m) c b) b = (fun b : Ref sig .tc => Gen.V7 m (outs m) c b) b :=
  fun b hb => Gen.V8_of m (outs m) c b fun h => by
    rw [List.mem_singleton] at h; subst h
    exact hb (Finset.mem_image.mpr ⟨6, Finset.mem_univ _, rfl⟩)

set_option backward.isDefEq.respectTransparency.types false in
/-- REGION 3 over the thread state: entered from every unscoped buffer at the contents before it, left at the contents
    after it. Its seven arrays are split out of the unscoped buffers and put back at the exit contents; the generator
    register goes into the region's invariant and comes back; nothing is owed; the kernel has no semaphore of its own. -/
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (fun c b => Gen.V7 m (outs m) c b) c).loose
  hwaits := Pipeline.hwaits_of_owed_zero _ _ _ _ Lz lvz 3 fun _ _ => rfl
  pre c := iprop(StableHlo.held (c : Thread nD τ) (Pipeline.ucRefs τ sig) (Gen.V7 m (outs m) c) ∗ Rst c)
  post c := iprop(StableHlo.held (c : Thread nD τ) (Pipeline.ucRefs τ sig) (Gen.V8 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (fun b => Gen.V7 m (outs m) c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => Gen.V7 m (outs m) c b) fun w => A_eq3 (fun c b => Gen.V7 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => Gen.V7 m (outs m) c b) (fun b => Gen.V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

/-- Region 4's windows other than the last are inputs. -/
theorem isIn4 : ∀ w : Fin cfg4.W, w ≠ 6 → (cfg4.win w).isOut = false := by decide
/-- At region 4's exit each of its arrays holds what the pipeline leaves: an input array what it held at entry (no
    write-back touches it, and the valuation after the region differs from the one before only at `main_v98`, which
    is another array because distinct windows have distinct arrays), the output array `main_v98` the fold of the
    write-backs. -/
theorem hF4 (c : Dev nD) (w : Fin cfg4.W) :
    (dat4 (fun c b => Gen.V9 m (outs m) c b) c).arrAt w cfg4.N = (fun b : Ref sig .tc => Gen.V10 m (outs m) c b) (Pipeline.arrRef spec4 w) := by
  by_cases hw : w = 6
  · subst hw
    refine (outs_eq_4 m c).symm.trans ?_
    show _ = Function.update (Gen.V9 m (outs m) c) (Proc.devRef .tc main_v98) (outs m 10 main_v98 c) (Proc.devRef .tc main_v98)
    rw [Function.update_self]
  · refine ((dat4 (fun c b => Gen.V9 m (outs m) c b) c).arrAt_in w (isIn4 w hw) _).trans ((A_eq4 (fun c b => Gen.V9 m (outs m) c b) c w).trans ?_)
    exact (Gen.V10_of m (outs m) c (Pipeline.arrRef spec4 w) fun h => by
      rw [List.mem_singleton] at h
      exact hw (launch4.win.arr_inj (h.trans (rfl : main_v98 = Pipeline.arrRef spec4 6)))).symm
/-- Every other unscoped buffer holds at region 4's exit what it held at entry. -/
theorem hrest4 (c : Dev nD) : ∀ b : Ref sig .tc, b ∉ Finset.univ.image (Pipeline.arrRef spec4) →
    (fun b : Ref sig .tc => Gen.V10 m (outs m) c b) b = (fun b : Ref sig .tc => Gen.V9 m (outs m) c b) b :=
  fun b hb => Gen.V10_of m (outs m) c b fun h => by
    rw [List.mem_singleton] at h; subst h
    exact hb (Finset.mem_image.mpr ⟨6, Finset.mem_univ _, rfl⟩)

set_option backward.isDefEq.respectTransparency.types false in
/-- REGION 4 over the thread state: entered from every unscoped buffer at the contents before it, left at the contents
    after it. Its seven arrays are split out of the unscoped buffers and put back at the exit contents; the generator
    register goes into the region's invariant and comes back; nothing is owed; the kernel has no semaphore of its own. -/
def reg4 : Pipeline.RegionSeg (pcfgs (F := F)) Gen.adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (fun c b => Gen.V9 m (outs m) c b) c).loose
  hwaits := Pipeline.hwaits_of_owed_zero _ _ _ _ Lz lvz 4 fun _ _ => rfl
  pre c := iprop(StableHlo.held (c : Thread nD τ) (Pipeline.ucRefs τ sig) (Gen.V9 m (outs m) c) ∗ Rst c)
  post c := iprop(StableHlo.held (c : Thread nD τ) (Pipeline.ucRefs τ sig) (Gen.V10 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (fun b => Gen.V9 m (outs m) c b)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (fun b => Gen.V9 m (outs m) c b) fun w => A_eq4 (fun c b => Gen.V9 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (fun b => Gen.V9 m (outs m) c b) (fun b => Gen.V10 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 5 -/

/-- Region 5's windows other than the last are inputs. -/
theorem isIn5 : ∀ w : Fin cfg5.W, w ≠ 6 → (cfg5.win w).isOut = false := by decide
/-- At region 5's exit each of its arrays holds what the pipeline leaves: an input array what it held at entry (no
    write-back touches it, and the valuation after the region differs from the one before only at `main_v101`, which
    is another array because distinct windows have distinct arrays), the output array `main_v101` the fold of the
    write-backs. -/
theorem hF5 (c : Dev nD) (w : Fin cfg5.W) :
    (dat5 (fun c b => Gen.V14 m (outs m) c b) c).arrAt w cfg5.N = (fun b : Ref sig .tc => Gen.V15 m (outs m) c b) (Pipeline.arrRef spec5 w) := by
  by_cases hw : w = 6
  · subst hw
    refine (outs_eq_5 m c).symm.trans ?_
    show _ = Function.update (Gen.V14 m (outs m) c) (Proc.devRef .tc main_v101) (outs m 15 main_v101 c) (Proc.devRef .tc main_v101)
    rw [Function.update_self]
  · refine ((dat5 (fun c b => Gen.V14 m (outs m) c b) c).arrAt_in w (isIn5 w hw) _).trans ((A_eq5 (fun c b => Gen.V14 m (outs m) c b) c w).trans ?_)
    exact (Gen.V15_of m (outs m) c (Pipeline.arrRef spec5 w) fun h => by
      rw [List.mem_singleton] at h
      exact hw (launch5.win.arr_inj (h.trans (rfl : main_v101 = Pipeline.arrRef spec5 6)))).symm
/-- Every other unscoped buffer holds at region 5's exit what it held at entry. -/
theorem hrest5 (c : Dev nD) : ∀ b : Ref sig .tc, b ∉ Finset.univ.image (Pipeline.arrRef spec5) →
    (fun b : Ref sig .tc => Gen.V15 m (outs m) c b) b = (fun b : Ref sig .tc => Gen.V14 m (outs m) c b) b :=
  fun b hb => Gen.V15_of m (outs m) c b fun h => by
    rw [List.mem_singleton] at h; subst h
    exact hb (Finset.mem_image.mpr ⟨6, Finset.mem_univ _, rfl⟩)

set_option backward.isDefEq.respectTransparency.types false in
/-- REGION 5 over the thread state: entered from every unscoped buffer at the contents before it, left at the contents
    after it. Its seven arrays are split out of the unscoped buffers and put back at the exit contents; the generator
    register goes into the region's invariant and comes back; nothing is owed; the kernel has no semaphore of its own. -/
def reg5 : Pipeline.RegionSeg (pcfgs (F := F)) Gen.adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (fun c b => Gen.V14 m (outs m) c b) c).loose
  hwaits := Pipeline.hwaits_of_owed_zero _ _ _ _ Lz lvz 5 fun _ _ => rfl
  pre c := iprop(StableHlo.held (c : Thread nD τ) (Pipeline.ucRefs τ sig) (Gen.V14 m (outs m) c) ∗ Rst c)
  post c := iprop(StableHlo.held (c : Thread nD τ) (Pipeline.ucRefs τ sig) (Gen.V15 m (outs m) c) ∗ Rst c)
  X c := iprop(∃ r, prngReg c r)
  Y c := iprop(∃ r, prngReg c r)
  Z c := Pipeline.unscopedRest (Ix := Unit) (Name := ℕ) (U := UR sig nD τ) (Lvl := ℕ) spec5 c (fun b => Gen.V14 m (outs m) c b)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (fun b => Gen.V14 m (outs m) c b) fun w => A_eq5 (fun c b => Gen.V14 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (fun c b => Gen.V14 m (outs m) c b) c).Φ 0 from rfl]
    iintro ⟨Hp, -, Hr⟩
    iapply (hin5 (fun c b => Gen.V14 m (outs m) c b) c)
    unfold Pipeline.ΦA
    isplitl [Hr]; · iexact Hr
    iexact Hp
  hout c := by
    refine (hout5 (fun c b => Gen.V14 m (outs m) c b) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (fun b => Gen.V14 m (outs m) c b) (fun b => Gen.V15 m (outs m) c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and
    every final memory holds every unscoped buffer at the last valuation: the launch over @main's fifteen items, the host
    stretches carrying the valuation forward by `StableHlo.after`, each region by its record above, the last thread
    state read against the final state buffer by buffer. -/
theorem run (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V15 m (outs m) c b) := by
  refine Pipeline.θ_run_regions_kit_dev (pcfgs (F := F)) Gen.adm (pdats m) () cellOf_inj emb₁ defs₀ Variants.none Lz lvz m ρ main
    (Gen.segs m (outs m) Variants.none Lz lvz (fun _ => Rst (F := F)) () (pdats m) (reg0 m) (reg1 m) (reg2 m) (reg3 m) (reg4 m) (reg5 m))
    (fun c Q => by
      rewrite [main_chain c, Seg.run_eq_chain,
        show (Gen.segs m (outs m) Variants.none Lz lvz (fun _ => Rst (F := F)) () (pdats m) (reg0 m) (reg1 m) (reg2 m) (reg3 m) (reg4 m) (reg5 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          Prog.lift (.customCall (Pipeline.entry 5) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V15 m (outs m) c))
    (hch := fun c => ⟨.rfl, .rfl, .rfl, .rfl, .rfl, .rfl, .rfl, .rfl, .rfl, .rfl, .rfl, .rfl, .rfl, .rfl, .rfl, by
      show iprop(StableHlo.held (c : Thread nD τ) (Pipeline.ucRefs τ sig) (Gen.V15 m (outs m) c) ∗ Rst c) ⊢ _
      iintro ⟨Hh, -, HO⟩
      isplitl [Hh] <;> iassumption⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V15 m (outs m) c b)
    (hfin := fun c s' => by
      iintro ⟨Hh, HSI⟩
      unfold StableHlo.held
      imodintro
      iapply (pointsTo_read_all (Pipeline.ucRefs τ sig) (fun b => ((c : Thread nD τ).1, b)) (Gen.V15 m (outs m) c) s')
      isplitl [Hh] <;> iassumption)
    (hQ := fun _ h => h)

/-- THE FRAME: the eleven argument arrays end as launched, no host stretch writing one and no region's output array being
    one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (Gen.V15_main_arg0 m (outs m) c),
     (h c _ (mem_uc main_arg1 (by decide))).trans (Gen.V15_main_arg1 m (outs m) c),
     (h c _ (mem_uc main_arg2 (by decide))).trans (Gen.V15_main_arg2 m (outs m) c),
     (h c _ (mem_uc main_arg3 (by decide))).trans (Gen.V15_main_arg3 m (outs m) c),
     (h c _ (mem_uc main_arg4 (by decide))).trans (Gen.V15_main_arg4 m (outs m) c),
     (h c _ (mem_uc main_arg5 (by decide))).trans (Gen.V15_main_arg5 m (outs m) c),
     (h c _ (mem_uc main_arg6 (by decide))).trans (Gen.V15_main_arg6 m (outs m) c),
     (h c _ (mem_uc main_arg7 (by decide))).trans (Gen.V15_main_arg7 m (outs m) c),
     (h c _ (mem_uc main_arg8 (by decide))).trans (Gen.V15_main_arg8 m (outs m) c),
     (h c _ (mem_uc main_arg9 (by decide))).trans (Gen.V15_main_arg9 m (outs m) c),
     (h c _ (mem_uc main_arg10 (by decide))).trans (Gen.V15_main_arg10 m (outs m) c)⟩) (run m ρ)

/-- THE RESULT: the result array `main_v101` ends at the fold of region 5's write-backs over the contents region 5 was
    entered from, beside the frame. -/
theorem result_eq (ρ : Dev nD → PrngReg) :
    θ_run defs (onTc (τ := τ) (main (F := F))) ⟨m, fun _ => 0, ρ⟩ (fun r => ∀ c : Dev nD,
      r.2.mem ((c.tc : Thread nD τ).loc main_v101) = (dat5 (fun c b => Gen.V14 m (outs m) c b) c).arrAt 6 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v101 (by decide))).trans
      ((show Gen.V15 m (outs m) c (Proc.devRef .tc main_v101) = outs m 15 main_v101 c from by
        show Function.update _ _ _ _ = _; rw [Function.update_self]).trans (outs_eq_5 m c)),
     (h c _ (mem_uc main_arg0 (by decide))).trans (Gen.V15_main_arg0 m (outs m) c),
     (h c _ (mem_uc main_arg1 (by decide))).trans (Gen.V15_main_arg1 m (outs m) c),
     (h c _ (mem_uc main_arg2 (by decide))).trans (Gen.V15_main_arg2 m (outs m) c),
     (h c _ (mem_uc main_arg3 (by decide))).trans (Gen.V15_main_arg3 m (outs m) c),
     (h c _ (mem_uc main_arg4 (by decide))).trans (Gen.V15_main_arg4 m (outs m) c),
     (h c _ (mem_uc main_arg5 (by decide))).trans (Gen.V15_main_arg5 m (outs m) c),
     (h c _ (mem_uc main_arg6 (by decide))).trans (Gen.V15_main_arg6 m (outs m) c),
     (h c _ (mem_uc main_arg7 (by decide))).trans (Gen.V15_main_arg7 m (outs m) c),
     (h c _ (mem_uc main_arg8 (by decide))).trans (Gen.V15_main_arg8 m (outs m) c),
     (h c _ (mem_uc main_arg9 (by decide))).trans (Gen.V15_main_arg9 m (outs m) c),
     (h c _ (mem_uc main_arg10 (by decide))).trans (Gen.V15_main_arg10 m (outs m) c)⟩) (run m ρ)

end Cert.Kernel.Hand

end
-- ==== Proof.KI.Mlp0.lean ====
/-
  Region 0 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.KernelIdeal.Launch
import proofs.«419162_j62646392980003_1_alg».proof.Proof.Gen.KernelIdeal.Skeleton
import proofs.«419162_j62646392980003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched point has the
    block index of the point before, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched point has the
    block index of the point before, and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched point has the
    block index of the point before, and the body leaves the buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched point has the
    block index of the point before, and the body leaves the buffer as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: an unfetched point has the
    block index of the point before, and the body leaves the buffer as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: an unfetched point has the
    block index of the point before, and the body leaves the buffer as it found it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! The body's accesses: every load and the one store take a whole buffer. -/

abbrev rT0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S64 := Rect.unit (s := S64) ![0] S64.size inb_S64_S64_0

/-- The output tile after the body, from the six input buffers: one whole-buffer store of the layer's arithmetic. -/
def out0_6 (x0 x1 : Vec F S5000x64 .f32) (x2 : Vec F S64x64 .f32) (x3 : Vec F S64 .f32) (x4 : Vec F S64x64 .f32) (x5 : Vec F S64 .f32) : Vec F S5000x64 .f32 :=
  View.canon [⟨rT0, k0_pay1 (View.ld x0 rT0) (View.ld x1 rT0) (View.ld x2 rW0) (View.ld x3 rB0) (View.ld x4 rW0) (View.ld x5 rB0)⟩]

/-- The one store covers the tile. -/
theorem cover0_6 (p0 : Vec F S5000x64 .f32) (y : S5000x64.Idx) :
    ∃ pc ∈ ([⟨rT0, p0⟩] : List (View.Piece (Elt F) S5000x64 .f32)), y ∈ pc.1.set :=
  View.cover_of_tiled [⟨rT0, p0⟩] S5000x64.size (by rfl) y

set_option maxHeartbeats 4000000 in
/-- The body on whole staging buffers, the inputs' at given contents and the output's at anything, runs to the continuation
    holding the inputs' as they were and the output's at `out0_6` of the inputs'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of pipeline 0 on core c: the arrays as the region finds them; after the body at point t each input's
    buffer at its block and the output's at `out0_6` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Mlp1.lean ====
/-
  Region 1 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.KernelIdeal.Launch
import proofs.«419162_j62646392980003_1_alg».proof.Proof.Gen.KernelIdeal.Skeleton
import proofs.«419162_j62646392980003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched point has the
    block index of the point before, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched point has the
    block index of the point before, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched point has the
    block index of the point before, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched point has the
    block index of the point before, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: an unfetched point has the
    block index of the point before, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: an unfetched point has the
    block index of the point before, and the body leaves the buffer as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! The body's accesses: every load and the one store take a whole buffer. -/

abbrev rT1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S64 := Rect.unit (s := S64) ![0] S64.size inb_S64_S64_0

/-- The output tile after the body, from the six input buffers: one whole-buffer store of the layer's arithmetic. -/
def out1_6 (x0 x1 : Vec F S5000x64 .f32) (x2 : Vec F S64x64 .f32) (x3 : Vec F S64 .f32) (x4 : Vec F S64x64 .f32) (x5 : Vec F S64 .f32) : Vec F S5000x64 .f32 :=
  View.canon [⟨rT1, k1_pay1 (View.ld x0 rT1) (View.ld x1 rT1) (View.ld x2 rW1) (View.ld x3 rB1) (View.ld x4 rW1) (View.ld x5 rB1)⟩]

/-- The one store covers the tile. -/
theorem cover1_6 (p0 : Vec F S5000x64 .f32) (y : S5000x64.Idx) :
    ∃ pc ∈ ([⟨rT1, p0⟩] : List (View.Piece (Elt F) S5000x64 .f32)), y ∈ pc.1.set :=
  View.cover_of_tiled [⟨rT1, p0⟩] S5000x64.size (by rfl) y

set_option maxHeartbeats 4000000 in
/-- The body on whole staging buffers, the inputs' at given contents and the output's at anything, runs to the continuation
    holding the inputs' as they were and the output's at `out1_6` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp_kernel i arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of pipeline 1 on core c: the arrays as the region finds them; after the body at point t each input's
    buffer at its block and the output's at `out1_6` of the input blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Mlp2.lean ====
/-
  Region 2 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.KernelIdeal.Launch
import proofs.«419162_j62646392980003_1_alg».proof.Proof.Gen.KernelIdeal.Skeleton
import proofs.«419162_j62646392980003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched point has the
    block index of the point before, and the body leaves the buffer as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: an unfetched point has the
    block index of the point before, and the body leaves the buffer as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: an unfetched point has the
    block index of the point before, and the body leaves the buffer as it found it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: an unfetched point has the
    block index of the point before, and the body leaves the buffer as it found it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: an unfetched point has the
    block index of the point before, and the body leaves the buffer as it found it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: an unfetched point has the
    block index of the point before, and the body leaves the buffer as it found it. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! The body's accesses: every load and the one store take a whole buffer. -/

abbrev rT2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S64 := Rect.unit (s := S64) ![0] S64.size inb_S64_S64_0

/-- The output tile after the body, from the six input buffers: one whole-buffer store of the layer's arithmetic. -/
def out2_6 (x0 x1 : Vec F S5000x64 .f32) (x2 : Vec F S64x64 .f32) (x3 : Vec F S64 .f32) (x4 : Vec F S64x64 .f32) (x5 : Vec F S64 .f32) : Vec F S5000x64 .f32 :=
  View.canon [⟨rT2, k2_pay1 (View.ld x0 rT2) (View.ld x1 rT2) (View.ld x2 rW2) (View.ld x3 rB2) (View.ld x4 rW2) (View.ld x5 rB2)⟩]

/-- The one store covers the tile. -/
theorem cover2_6 (p0 : Vec F S5000x64 .f32) (y : S5000x64.Idx) :
    ∃ pc ∈ ([⟨rT2, p0⟩] : List (View.Piece (Elt F) S5000x64 .f32)), y ∈ pc.1.set :=
  View.cover_of_tiled [⟨rT2, p0⟩] S5000x64.size (by rfl) y

set_option maxHeartbeats 4000000 in
/-- The body on whole staging buffers, the inputs' at given contents and the output's at anything, runs to the continuation
    holding the inputs' as they were and the output's at `out2_6` of the inputs'. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core c: the arrays as the region finds them; after the body at point t each input's
    buffer at its block and the output's at `out2_6` of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 4000000 in
/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Mlp3.lean ====
/-
  Region 3 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.KernelIdeal.Launch
import proofs.«419162_j62646392980003_1_alg».proof.Proof.Gen.KernelIdeal.Skeleton
import proofs.«419162_j62646392980003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: an unfetched point has the
    block index of the point before, and the body leaves the buffer as it found it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not: an unfetched point has the
    block index of the point before, and the body leaves the buffer as it found it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not: an unfetched point has the
    block index of the point before, and the body leaves the buffer as it found it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not: an unfetched point has the
    block index of the point before, and the body leaves the buffer as it found it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not: an unfetched point has the
    block index of the point before, and the body leaves the buffer as it found it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not: an unfetched point has the
    block index of the point before, and the body leaves the buffer as it found it. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! The body's accesses: every load and the one store take a whole buffer. -/

abbrev rT3 : Rect S5000x64 := Rect.unit (s := S5000x64) ![0, 0] S5000x64.size inb_S5000x64_S5000x64_0_0
abbrev rW3 : Rect S64x64 := Rect.unit (s := S64x64) ![0, 0] S64x64.size inb_S64x64_S64x64_0_0
abbrev rB3 : Rect S64 := Rect.unit (s := S64) ![0] S64.size inb_S64_S64_0

/-- The output tile after the body, from the six input buffers: one whole-buffer store of the layer's arithmetic. -/
def out3_6 (x0 x1 : Vec F S5000x64 .f32) (x2 : Vec F S64x64 .f32) (x3 : Vec F S64 .f32) (x4 : Vec F S64x64 .f32) (x5 : Vec F S64 .f32) : Vec F S5000x64 .f32 :=
  View.canon [⟨rT3, k3_pay1 (View.ld x0 rT3) (View.ld x1 rT3) (View.ld x2 rW3) (View.ld x3 rB3) (View.ld x4 rW3) (View.ld x5 rB3)⟩]

/-- The one store covers the tile. -/
theorem cover3_6 (p0 : Vec F S5000x64 .f32) (y : S5000x64.Idx) :
    ∃ pc ∈ ([⟨rT3, p0⟩] : List (View.Piece (Elt F) S5000x64 .f32)), y ∈ pc.1.set :=
  View.cover_of_tiled [⟨rT3, p0⟩] S5000x64.size (by rfl) y

set_option maxHeartbeats 4000000 in
/-- The body on whole staging buffers, the inputs' at given contents and the output's at anything, runs to the continuation
    holding the inputs' as they were and the output's at `out3_6` of the inputs'. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__mlp_kernel i arg1 harg1 arg2 harg2 arg3 harg3 arg4 harg4 arg5 harg5 arg6 harg6 arg7 harg7) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3 on core c: the arrays as the region finds them; after the body at point t each input's
    buffer at its block and the output's at `out3_6` of the input blocks; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 4000000 in
/-- The body at any point: the inputs' buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Mlp4.lean ====
/-
  Region 4 of the program: one layer's dense update on a tile of 5000 node rows. The pipeline stages the tile of the node
  features and the tile of the summed neighbour features, the layer's two weight matrices and its two bias vectors; the body
  reads the six buffers whole and stores the tile of updated features whole. This module says what each staging buffer holds
  at a grid point and proves that the body, run on those buffers, leaves the output tile at the body's arithmetic of the six
  inputs, which is the proof data the pipeline's launch theorem asks for.
-/
import proofs.«419162_j62646392980003_1_alg».proof.Proof.Gen.KernelIdeal.Launch
import proofs.«419162_j62646392980003_1_alg».proof.Proof.Gen.KernelIdeal.Skeleton
import proofs.«419162_j62646392980003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: an unfetched point has the
    block index of the point before, and the body leaves the buffer as it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: an unfetched point has the
    block index of the point before, and the body leaves the buffer as it found it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: an unfetched point has the
    block index of the point before, and the body leaves the buffer as it found it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: an unfetched point has the
    block index of the point before, and the body leaves the buffer as it found it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: an unfetched point has the
    block index of the point before, and the body leaves the buffer as it found it. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not: an unfetched point has the
    block index of the point before, and the body leaves the buffer as it found it. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! The body's accesses: every load and the one store take a whole buffer. -/

abbrev rT4 : Rect S5000x64 := Rect.unit (s := S5000x64) ![0, 0] S5000x64.size inb_S5000x64_S5000x64_0_0
abbrev rW4 : Rect S64x64 := Rect.unit (s := S64x64) ![0, 0] S64x64.size inb_S64x64_S64x64_0_0
abbrev rB4 : Rect S64 := Rect.unit (s := S64) ![0] S64.size inb_S64_S64_0

/-- The output tile after the body, from the six input buffers: one whole-buffer store of the layer's arithmetic. -/
def out4_6 (x0 x1 : Vec F S5000x64 .f32) (x2 : Vec F S64x64 .f32) (x3 : Vec F S64 .f32) (x4 : Vec F S64x64 .f32) (x5 : Vec F S64 .f32) : Vec F S5000x64 .f32 :=
  View.canon [⟨rT4, k4_pay1 (View.ld x0 rT4) (View.ld x1 rT4) (View.ld x2 rW4) (View.ld x3 rB4) (View.ld x4 rW4) (View.ld x5 rB4)⟩]

/-- The one store covers the tile. -/
theorem cover4_6 (p0 : Vec F S5000x64 .f32) (y : S5000x64.Idx) :
    ∃ pc ∈ ([⟨rT4, p0⟩] : List (View.Piece (Elt F) S5000x64 .f32)), y ∈ pc.1.set :=
  View.cover_of_tiled [⟨rT4, p0⟩] S5000x64.size (by rfl) y

set_option maxHeartbeats 4000000 in
/-- The body on whole staging buffers, the inputs' at given contents and the output's at anything, runs to the continuation
    holding the inputs' as they were and the output's at `out4_6` of the inputs'. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S5000x64 .f32) (harg7 : arg7.IsWhole)
    (x0 x1 : Vec F S5000x64 .f32) (x2 : Vec F S64x64 .f32) (x3 : Vec F S64 .f32) (x4 : Vec F S64x64 .f32) (x5 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of pipeline 4 on core c: the arrays as the region finds them; after the body at point t each input's
    buffer at its block and the output's at `out4_6` of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 4000000 in
/-- The body at any point: the inputs' buffers hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Pool.lean ====
/-
  Region 5 of the program: the mean of the node features over each of 256 groups, followed by a two-layer dense map of the
  256 group means. The grid has 13 points; point n stages tile n of the node features (8192 rows of 64) and the tile's 8192
  group ids. Two scratch buffers carry the running per-group feature sums (256 by 64) and the running per-group row counts
  (256 by 1) from point to point: the first point zeroes both, every point adds its tile's contribution, which is the
  product of the transposed one-hot matrix of the tile's group ids with the tile (for the sums) and with a column of ones
  (for the counts), and the last point divides the sums by the counts (at least one), applies the two dense layers and
  stores the result in the output buffer, which no other point touches. This module names what the two scratch buffers
  hold after each point as a recursion over the points, what the output buffer holds after the last point, and proves that
  the body run at each point does exactly that: the proof data the pipeline's launch theorem asks for.
-/
import proofs.«419162_j62646392980003_1_alg».proof.Proof.Gen.KernelIdeal.Launch
import proofs.«419162_j62646392980003_1_alg».proof.Proof.Gen.KernelIdeal.Skeleton
import proofs.«419162_j62646392980003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not: an unfetched point has
    the block index of the point before, and the body leaves the buffer as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not: an unfetched point has
    the block index of the point before, and the body leaves the buffer as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not: an unfetched point has
    the block index of the point before, and the body leaves the buffer as it found it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not: an unfetched point has
    the block index of the point before, and the body leaves the buffer as it found it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not: an unfetched point has
    the block index of the point before, and the body leaves the buffer as it found it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not: an unfetched point has
    the block index of the point before, and the body leaves the buffer as it found it. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! The body's two branch conditions, from the grid coordinate: the first holds at the first point only, the second at the
    last point only. -/

/-- The condition under which the body zeroes the two scratch buffers. -/
abbrev cond5_1 (i : grid5.Coords) : Prop :=
  (Scalar.cmpi .ne (Scalar.extui (Scalar.cmpi .eq (BitVec.ofNat 32 (i 0).val) 0#32)) 0#32) = 1#1
theorem hcond5_1 : ∀ t : Fin cfg5.N, cond5_1 (grid5.coords t) ↔ t.val = 0 :=
  (by decide +kernel : ∀ t : Fin grid5.N, cond5_1 (grid5.coords t) ↔ t.val = 0)
/-- The condition under which the body stores the output buffer. -/
abbrev cond5_2 (i : grid5.Coords) : Prop := k5_cond2 i = 1#1
theorem hcond5_2 : ∀ t : Fin cfg5.N, cond5_2 (grid5.coords t) ↔ t.val = 12 :=
  (by decide +kernel : ∀ t : Fin grid5.N, cond5_2 (grid5.coords t) ↔ t.val = 12)

/-- The output window is idle, and not written back, at every point but the last; live at the last. -/
theorem idleAt5_6 : ∀ t : Fin cfg5.N, ¬t.val = 12 → cfg5.idle 6 (grid5.coords t) = true :=
  (by decide +kernel : ∀ t : Fin grid5.N, ¬t.val = 12 → cfg5.idle 6 (grid5.coords t) = true)
theorem noFlush5_6 : ∀ t : Fin cfg5.N, ¬t.val = 12 → (cfg5.win 6).flush t = false :=
  (by decide +kernel : ∀ t : Fin grid5.N, ¬t.val = 12 → win5_6.flush t = false)
theorem liveAt5_6 : ∀ t : Fin cfg5.N, t.val = 12 → cfg5.idle 6 (grid5.coords t) = false :=
  (by decide +kernel : ∀ t : Fin grid5.N, t.val = 12 → cfg5.idle 6 (grid5.coords t) = false)

/-! Whole-buffer accesses: a load through the whole-shape rectangle reads the contents, and a store through it, made last,
    leaves its payload whatever was stored before. -/

theorem hz2_5 : (![0, 0] : Fin 2 → Nat) = fun _ => 0 := by funext a; fin_cases a <;> rfl
theorem hz1_5 : (![0] : Fin 1 → Nat) = fun _ => 0 := by funext a; fin_cases a; rfl

/-- What a last store of the whole shape leaves, read back. -/
theorem read_store_whole5 {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- What a load of the whole shape reads. -/
theorem readAt_whole5 {S : Shape} {e : EltTy} (v : View sig .tc .vmem S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  (View.readAt_eq_ld v f _).trans (View.ld_unit_zero h inb _)

set_option maxHeartbeats 4000000 in
/-- A middle point: neither condition holds. On the tile, its group ids and the two running totals, the body leaves the totals
    each with the tile's contribution added. -/
theorem sound_kernel5_mid (c : Dev nD) (E : Set ℕ) (i : grid5.Coords) (arg1 : Memref sig .tc .vmem S8192x64 .f32) (harg1 : arg1.IsWhole) (arg2 : Memref sig .tc .vmem S8192 .i32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x1 .f32) (harg9 : arg9.IsWhole)
    (hc1 : ¬cond5_1 i) (hc2 : ¬cond5_2 i)
    (x0 : Vec F S8192x64 .f32) (x1 : Vec F S8192 .i32) (a : Vec F S256x64 .f32) (b : Vec F S256x1 .f32) (K : PUnit → sProp 𝕄) :
    iprop(owns (c : Thread nD τ) arg1 fullShare x0 ∗ owns (c : Thread nD τ) arg2 fullShare x1 ∗ owns (c : Thread nD τ) arg8 fullShare a ∗ owns (c : Thread nD τ) arg9 fullShare b
        ∗ (iprop(owns (c : Thread nD τ) arg1 fullShare x0 ∗ owns (c : Thread nD τ) arg2 fullShare x1 ∗ owns (c : Thread nD τ) arg8 fullShare (k5_pay4 x0 x1 a) ∗ owns (c : Thread nD τ) arg9 fullShare (k5_pay5 x1 b)) -∗ K ⟨⟩))
      ⊢ wp frame (wpE (defs₀ (F := F)) Variants.none c none) E (cc5__pool_kernel i arg1 harg1 arg2 harg2 arg3 harg3 arg4 harg4 arg5 harg5 arg6 harg6 arg7 harg7 arg8 harg8 arg9 harg9) K := by
  simp only [cc5__pool_kernel_eq_skeleton]; unfold cc5__pool_kernel_skel
  unfold owns
  iintro ⟨⟨%f0, %hf0, H0⟩, ⟨%f1, %hf1, H1⟩, ⟨%f8, %hf8, H8⟩, ⟨%f9, %hf9, H9⟩, Hk⟩
  subst hf0; subst hf1; subst hf8; subst hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H8]
  · iexists _; isplitr
    swap; · iexact H8
    ipureintro
    rw [read_store_whole5 _ _ hz2_5, readAt_whole5 _ _ hz2_5, readAt_whole5 _ _ hz1_5, readAt_whole5 _ _ hz2_5]
  iexists _; isplitr
  swap; · iexact H9
  ipureintro
  rw [read_store_whole5 _ _ hz2_5, readAt_whole5 _ _ hz1_5, readAt_whole5 _ _ hz2_5]

set_option maxHeartbeats 4000000 in
/-- The first point: the first condition holds, the second does not. Whatever the two scratch buffers held, the body zeroes them
    and leaves each at the tile's contribution added to zero. -/
theorem sound_kernel5_first (c : Dev nD) (E : Set ℕ) (i : grid5.Coords) (arg1 : Memref sig .tc .vmem S8192x64 .f32) (harg1 : arg1.IsWhole) (arg2 : Memref sig .tc .vmem S8192 .i32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x1 .f32) (harg9 : arg9.IsWhole)
    (hc1 : cond5_1 i) (hc2 : ¬cond5_2 i)
    (x0 : Vec F S8192x64 .f32) (x1 : Vec F S8192 .i32) (K : PUnit → sProp 𝕄) :
    iprop(owns (c : Thread nD τ) arg1 fullShare x0 ∗ owns (c : Thread nD τ) arg2 fullShare x1 ∗ (∃ a, owns (c : Thread nD τ) arg8 fullShare a) ∗ (∃ b, owns (c : Thread nD τ) arg9 fullShare b)
        ∗ (iprop(owns (c : Thread nD τ) arg1 fullShare x0 ∗ owns (c : Thread nD τ) arg2 fullShare x1 ∗ owns (c : Thread nD τ) arg8 fullShare (k5_pay4 x0 x1 k5_pay1) ∗ owns (c : Thread nD τ) arg9 fullShare (k5_pay5 x1 k5_pay2)) -∗ K ⟨⟩))
      ⊢ wp frame (wpE (defs₀ (F := F)) Variants.none c none) E (cc5__pool_kernel i arg1 harg1 arg2 harg2 arg3 harg3 arg4 harg4 arg5 harg5 arg6 harg6 arg7 harg7 arg8 harg8 arg9 harg9) K := by
  simp only [cc5__pool_kernel_eq_skeleton]; unfold cc5__pool_kernel_skel
  unfold owns
  iintro ⟨⟨%f0, %hf0, H0⟩, ⟨%f1, %hf1, H1⟩, ⟨%a, %f8, -, H8⟩, ⟨%b, %f9, -, H9⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H8]
  · iexists _; isplitr
    swap; · iexact H8
    ipureintro
    sl_unfold_words
    rw [read_store_whole5 _ _ hz2_5, readAt_whole5 _ _ hz2_5, readAt_whole5 _ _ hz1_5, View.readCov_unit_zero _ hz2_5]
  iexists _; isplitr
  swap; · iexact H9
  ipureintro
  sl_unfold_words
  rw [read_store_whole5 _ _ hz2_5, readAt_whole5 _ _ hz1_5, View.readCov_unit_zero _ hz2_5]

set_option maxHeartbeats 4000000 in
/-- The last point: the second condition holds, the first does not. The body adds the tile's contribution to the two running
    totals and stores the output buffer, whatever it held, at the dense map of the means. -/
theorem sound_kernel5_last (c : Dev nD) (E : Set ℕ) (i : grid5.Coords) (arg1 : Memref sig .tc .vmem S8192x64 .f32) (harg1 : arg1.IsWhole) (arg2 : Memref sig .tc .vmem S8192 .i32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x1 .f32) (harg9 : arg9.IsWhole)
    (hc1 : ¬cond5_1 i) (hc2 : cond5_2 i)
    (x0 : Vec F S8192x64 .f32) (x1 : Vec F S8192 .i32) (x2 : Vec F S64x64 .f32) (x3 : Vec F S64 .f32) (x4 : Vec F S64x64 .f32) (x5 : Vec F S64 .f32)
    (a : Vec F S256x64 .f32) (b : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ owns (c : Thread nD τ) arg8 fullShare a ∗ owns (c : Thread nD τ) arg9 fullShare b
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k5_pay6 (k5_pay4 x0 x1 a) (k5_pay5 x1 b) x2 x3 x4 x5)
            ∗ owns (c : Thread nD τ) arg8 fullShare (k5_pay4 x0 x1 a) ∗ owns (c : Thread nD τ) arg9 fullShare (k5_pay5 x1 b)) -∗ K ⟨⟩))
      ⊢ wp frame (wpE (defs₀ (F := F)) Variants.none c none) E (cc5__pool_kernel i arg1 harg1 arg2 harg2 arg3 harg3 arg4 harg4 arg5 harg5 arg6 harg6 arg7 harg7 arg8 harg8 arg9 harg9) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, ⟨%f9, %hf9, H9⟩, Hk⟩
  subst hf0; subst hf1; subst hf2; subst hf3; subst hf4; subst hf5; subst hf8; subst hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_words
    rw [read_store_whole5 _ _ hz2_5, View.readCov_unit_zero _ hz2_5, View.readCov_unit_zero _ hz2_5]
    rw [readAt_whole5 _ _ hz2_5, readAt_whole5 _ _ hz1_5, readAt_whole5 _ _ hz2_5, readAt_whole5 _ _ hz2_5, readAt_whole5 _ _ hz2_5,
      readAt_whole5 _ _ hz1_5, readAt_whole5 _ _ hz2_5, readAt_whole5 _ _ hz1_5]
  isplitl [H8]
  · iexists _; isplitr
    swap; · iexact H8
    ipureintro
    sl_unfold_words
    rw [read_store_whole5 _ _ hz2_5, readAt_whole5 _ _ hz2_5, readAt_whole5 _ _ hz1_5, readAt_whole5 _ _ hz2_5]
  iexists _; isplitr
  swap; · iexact H9
  ipureintro
  sl_unfold_words
  rw [read_store_whole5 _ _ hz2_5, readAt_whole5 _ _ hz1_5, readAt_whole5 _ _ hz2_5]

/-! ## What the two scratch buffers and the output buffer hold -/

/-- The running totals after the body at point n: the per-group feature sums and the per-group row counts over tiles 0 to n.
    Point 0 adds its tile's contribution to zero, every later point to what the point before left. -/
def accAt5 (c : Dev nD) : (n : ℕ) → n < cfg5.N → Vec F S256x64 .f32 × Vec F S256x1 .f32
  | 0, h => (k5_pay4 (iblk5 V c 0 ⟨0, h⟩) (iblk5 V c 1 ⟨0, h⟩) k5_pay1, k5_pay5 (iblk5 V c 1 ⟨0, h⟩) k5_pay2)
  | n + 1, h => (k5_pay4 (iblk5 V c 0 ⟨n + 1, h⟩) (iblk5 V c 1 ⟨n + 1, h⟩) (accAt5 c n (Nat.lt_of_succ_lt h)).1,
      k5_pay5 (iblk5 V c 1 ⟨n + 1, h⟩) (accAt5 c n (Nat.lt_of_succ_lt h)).2)

theorem accAt5_zero (c : Dev nD) (h : 0 < cfg5.N) :
    accAt5 V c 0 h = (k5_pay4 (iblk5 V c 0 ⟨0, h⟩) (iblk5 V c 1 ⟨0, h⟩) k5_pay1, k5_pay5 (iblk5 V c 1 ⟨0, h⟩) k5_pay2) := rfl

theorem accAt5_succ (c : Dev nD) (n : ℕ) (h : n + 1 < cfg5.N) :
    accAt5 V c (n + 1) h = (k5_pay4 (iblk5 V c 0 ⟨n + 1, h⟩) (iblk5 V c 1 ⟨n + 1, h⟩) (accAt5 V c n (Nat.lt_of_succ_lt h)).1,
      k5_pay5 (iblk5 V c 1 ⟨n + 1, h⟩) (accAt5 V c n (Nat.lt_of_succ_lt h)).2) := rfl

/-- The totals at the first point, stated at the point. -/
theorem accAt5_first (c : Dev nD) (t : Fin cfg5.N) (h0 : t.val = 0) :
    accAt5 V c t.val t.isLt = (k5_pay4 (iblk5 V c 0 t) (iblk5 V c 1 t) k5_pay1, k5_pay5 (iblk5 V c 1 t) k5_pay2) := by
  obtain ⟨n, hn⟩ := t
  cases n with
  | zero => rfl
  | succ n => exact absurd h0 (Nat.succ_ne_zero n)

/-- The totals at a later point, stated at the point, over what the point before left. -/
theorem accAt5_next (c : Dev nD) (t : Fin cfg5.N) (h0 : t.val ≠ 0) :
    accAt5 V c t.val t.isLt = (k5_pay4 (iblk5 V c 0 t) (iblk5 V c 1 t) (accAt5 V c (t.val - 1) (Nat.lt_of_le_of_lt (Nat.sub_le _ _) t.isLt)).1,
      k5_pay5 (iblk5 V c 1 t) (accAt5 V c (t.val - 1) (Nat.lt_of_le_of_lt (Nat.sub_le _ _) t.isLt)).2) := by
  obtain ⟨n, hn⟩ := t
  cases n with
  | zero => exact absurd rfl h0
  | succ n => rfl

theorem lt12_5 : 12 < cfg5.N := by rw [show cfg5.N = 13 from N_5]; decide

/-- The output buffer after the last point: the sums divided by the counts (at least one), through the two dense layers. -/
def out5 (c : Dev nD) : Vec F S256x64 .f32 :=
  k5_pay6 (accAt5 V c 12 lt12_5).1 (accAt5 V c 12 lt12_5).2 (iblk5 V c 2 t5_12) (iblk5 V c 3 t5_12) (iblk5 V c 4 t5_12) (iblk5 V c 5 t5_12)

theorem out5_eq (c : Dev nD) :
    out5 V c = k5_pay6 (accAt5 V c 12 (by rw [show cfg5.N = 13 from N_5]; decide)).1 (accAt5 V c 12 (by rw [show cfg5.N = 13 from N_5]; decide)).2
      (iblk5 V c 2 t5_12) (iblk5 V c 3 t5_12) (iblk5 V c 4 t5_12) (iblk5 V c 5 t5_12) := rfl

/-- The same stated at a point known to be the last. -/
theorem out5_at (c : Dev nD) (t : Fin cfg5.N) (ht : t.val = 12) :
    out5 V c = k5_pay6 (accAt5 V c t.val t.isLt).1 (accAt5 V c t.val t.isLt).2 (iblk5 V c 2 t) (iblk5 V c 3 t) (iblk5 V c 4 t) (iblk5 V c 5 t) := by
  obtain ⟨n, hn⟩ := t
  have hn' : n = 12 := ht
  subst hn'
  rfl

/-! ## The invariant: the two scratch buffers carried between points -/

/-- The two scratch operands: whole scoped buffers of the kernel's own, passed beside the windows. -/
abbrev scM5_0 : Memref sig .tc .vmem S256x64 .f32 := Memref.whole cc5_scratch0
abbrev scM5_1 : Memref sig .tc .vmem S256x1 .f32 := Memref.whole cc5_scratch1

/-- The core's other scoped buffers, which the body never touches. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The class invariant with the two scratch operands as memrefs owned at some contents. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 (F := F) c) ∗ (∃ r, prngReg c r)) := by
  unfold Pipeline.ΦA; rw [scopedRest5_split]; simp only [scM5_0, scM5_1, owns_whole]; try rfl

/-- The region invariant before position n: before the first point the class invariant, every scratch at anything;
    afterwards the two scratch buffers at the running totals the point before left, beside the untouched rest and the
    generator register. -/
def PhiS5 (c : Dev nD) : (n : ℕ) → n ≤ cfg5.N → sProp 𝕄
  | 0, _ => Pipeline.ΦA spec5 c
  | n + 1, hn => iprop(iprop(iprop(owns (c : Thread nD τ) scM5_0 fullShare (accAt5 V c n hn).1 ∗ owns (c : Thread nD τ) scM5_1 fullShare (accAt5 V c n hn).2) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (accAt5 V c n hn).1 ∗ owns (c : Thread nD τ) scM5_1 fullShare (accAt5 V c n hn).2) ∗ rest5 (F := F) c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (accAt5 V c (n - 1) (by omega)).1 ∗ owns (c : Thread nD τ) scM5_1 fullShare (accAt5 V c (n - 1) (by omega)).2) ∗ rest5 (F := F) c) ∗ (∃ r, prngReg c r)) := by
  cases n with
  | zero => exact absurd rfl hz
  | succ n => rfl

/-! ## The proof data -/

/-- The proof data of pipeline 5 on core c: the arrays as the region finds them; after the body at point t each input's
    buffer at its block and the output's at `out5` (stated at every point, read at the last only: elsewhere the window is
    idle); the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5 V c
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5 V c := by dsimp only [dat5]
theorem after5_6_last (c : Dev nD) (t : Fin cfg5.N) (ht : t.val = 12) : (dat5 V c).after 6 t = out5 V c := after5_6 V c t

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation -/

/-- Input window 0 is never idle: the body hands its buffer back at its block. -/
theorem leaves5_0 (c : Dev nD) (t : Fin cfg5.N) :
    (dat5 V c).leavesExact 0 t = owns (c : Thread nD τ) (st5_0 t) fullShare (iblk5 V c 0 t) := by
  unfold Dat.leavesExact; rw [show cfg5.idle 0 (cfg5.grid.coords t) = false from rfl, after5_0]
/-- Input window 1 is never idle: the body hands its buffer back at its block. -/
theorem leaves5_1 (c : Dev nD) (t : Fin cfg5.N) :
    (dat5 V c).leavesExact 1 t = owns (c : Thread nD τ) (st5_1 t) fullShare (iblk5 V c 1 t) := by
  unfold Dat.leavesExact; rw [show cfg5.idle 1 (cfg5.grid.coords t) = false from rfl, after5_1]
/-- Input window 2 is never idle: the body hands its buffer back at its block. -/
theorem leaves5_2 (c : Dev nD) (t : Fin cfg5.N) :
    (dat5 V c).leavesExact 2 t = owns (c : Thread nD τ) (st5_2 t) fullShare (iblk5 V c 2 t) := by
  unfold Dat.leavesExact; rw [show cfg5.idle 2 (cfg5.grid.coords t) = false from rfl, after5_2]
/-- Input window 3 is never idle: the body hands its buffer back at its block. -/
theorem leaves5_3 (c : Dev nD) (t : Fin cfg5.N) :
    (dat5 V c).leavesExact 3 t = owns (c : Thread nD τ) (st5_3 t) fullShare (iblk5 V c 3 t) := by
  unfold Dat.leavesExact; rw [show cfg5.idle 3 (cfg5.grid.coords t) = false from rfl, after5_3]
/-- Input window 4 is never idle: the body hands its buffer back at its block. -/
theorem leaves5_4 (c : Dev nD) (t : Fin cfg5.N) :
    (dat5 V c).leavesExact 4 t = owns (c : Thread nD τ) (st5_4 t) fullShare (iblk5 V c 4 t) := by
  unfold Dat.leavesExact; rw [show cfg5.idle 4 (cfg5.grid.coords t) = false from rfl, after5_4]
/-- Input window 5 is never idle: the body hands its buffer back at its block. -/
theorem leaves5_5 (c : Dev nD) (t : Fin cfg5.N) :
    (dat5 V c).leavesExact 5 t = owns (c : Thread nD τ) (st5_5 t) fullShare (iblk5 V c 5 t) := by
  unfold Dat.leavesExact; rw [show cfg5.idle 5 (cfg5.grid.coords t) = false from rfl, after5_5]

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4000000 in
/-- The body at any point. The inputs' buffers hold their blocks. At the first point the invariant hands the two scratch buffers
    at anything and takes them back at the first tile's contribution; at a later point it hands them at the totals the point
    before left and takes them back with this tile's contribution added; the output's buffer is handed back as found except at
    the last point, where it is stored at the dense map of the means. The rest of the invariant and what the core owes pass
    through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3, leaves5_4, leaves5_5]
  have hN : t.val < 13 := lt_of_lt_of_eq t.isLt (show cfg5.N = 13 from N_5)
  by_cases h0 : t.val = 0
  · have h12 : ¬t.val = 12 := by omega
    rw [Dat.leavesExact_idle (dat5 V c) 6 t (idleAt5_6 t h12) (noFlush5_6 t h12)]
    rw [accAt5_first V c t h0]
    (try dsimp only)
    rw [PhiS5_castSucc V c t, PhiS5_zero V c _ _ h0, PhiA5_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel5_first c Set.univ _ _ _ _ _ _ _ _ _ _ _ _ _ _ _ _ _ _ _ ((hcond5_1 t).mpr h0) (fun h => h12 ((hcond5_2 t).mp h)) (iblk5 V c 0 t) (iblk5 V c 1 t) _)
    isplitl [H0]; · iexact H0
    isplitl [H1]; · iexact H1
    isplitl [HS0]; · iexact HS0
    isplitl [HS1]; · iexact HS1
    iintro ⟨H0, H1, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h12 : t.val = 12
    · rw [show (dat5 V c).leavesExact 6 t = owns (c : Thread nD τ) (st5_6 t) fullShare ((dat5 V c).after 6 t) from by
        unfold Dat.leavesExact; rw [liveAt5_6 t h12], after5_6, out5_at V c t h12]
      rw [accAt5_next V c t h0]
      (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel5_last c Set.univ _ _ _ _ _ _ _ _ _ _ _ _ _ _ _ _ _ _ _ (fun h => h0 ((hcond5_1 t).mp h)) ((hcond5_2 t).mpr h12) (iblk5 V c 0 t) (iblk5 V c 1 t) (iblk5 V c 2 t) (iblk5 V c 3 t) (iblk5 V c 4 t) (iblk5 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat5 V c) 6 t (idleAt5_6 t h12) (noFlush5_6 t h12)]
      rw [accAt5_next V c t h0]
      (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel5_mid c Set.univ _ _ _ _ _ _ _ _ _ _ _ _ _ _ _ _ _ _ _ (fun h => h0 ((hcond5_1 t).mp h)) (fun h => h12 ((hcond5_2 t).mp h)) (iblk5 V c 0 t) (iblk5 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

/-! ## Entering and leaving the region -/

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class invariant back: what the two scratch buffers hold is forgotten. -/
theorem hout5 (c : Dev nD) : (dat5 V c).Φ (Fin.last cfg5.N) ⊢ Pipeline.ΦA spec5 c := by
  have hne : (Fin.last cfg5.N).val ≠ 0 := by rw [Fin.val_last]; have : cfg5.N = 13 := N_5; omega
  rw [show (dat5 V c).Φ (Fin.last cfg5.N) = PhiS5 V c (Fin.last cfg5.N).val (Nat.le_of_lt_succ (Fin.last cfg5.N).isLt) from rfl,
    PhiS5_pos V c _ _ hne, PhiA5_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

end Cert.KernelIdeal.Hand

end
-- ==== Proof.KI.Run.lean ====
/-
  The run of the whole program: six kernel regions among host stretches. Between two items a core holds every unscoped
  buffer at a named valuation: the launch contents, carried through each host stretch by the stretch's action on valuations
  and through each region by updating the one array the region writes to the fold of its write-backs. Each region is given
  as a record that splits its seven arrays out of the unscoped buffers at entry and puts them back at exit; the launch over
  the fifteen items then says that every weakly fair execution terminates without a fault and that every final memory holds
  every unscoped buffer at the last valuation. The frame (the eleven argument arrays end as launched) and the value of the
  result array are read off that valuation.
-/
import proofs.«419162_j62646392980003_1_alg».proof.Proof.KI.Mlp0
import proofs.«419162_j62646392980003_1_alg».proof.Proof.KI.Mlp1
import proofs.«419162_j62646392980003_1_alg».proof.Proof.KI.Mlp2
import proofs.«419162_j62646392980003_1_alg».proof.Proof.KI.Mlp3
import proofs.«419162_j62646392980003_1_alg».proof.Proof.KI.Mlp4
import proofs.«419162_j62646392980003_1_alg».proof.Proof.KI.Pool
import proofs.«419162_j62646392980003_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items, region by region

Each region leaves its six input arrays as it found them and its output array at the fold of its write-backs; each host
stretch acts on the valuation by `StableHlo.after`. The valuations `WJ` below are built in program order, so that each
region's proof data is taken at contents that are already defined. -/

/-- After region 0: `main_v22` at the fold of region 0's write-backs over the contents it was entered from. -/
def W2 (c : Dev nD) : Valuation τ sig (Elt F) :=
  Function.update (Gen.V1 m c) main_v22 ((dat0 (fun c b => Gen.V1 m c b) c).arrAt 6 cfg0.N)
/-- After the host stretch that follows region 0. -/
def W3 (c : Dev nD) : Valuation τ sig (Elt F) := StableHlo.after hostOps1 (W2 m c)
/-- After region 1. -/
def W4 (c : Dev nD) : Valuation τ sig (Elt F) :=
  Function.update (W3 m c) main_v41 ((dat1 (fun c b => W3 m c b) c).arrAt 6 cfg1.N)
def W5 (c : Dev nD) : Valuation τ sig (Elt F) := StableHlo.after hostOps2 (W4 m c)
/-- After region 2. -/
def W6 (c : Dev nD) : Valuation τ sig (Elt F) :=
  Function.update (W5 m c) main_v60 ((dat2 (fun c b => W5 m c b) c).arrAt 6 cfg2.N)
def W7 (c : Dev nD) : Valuation τ sig (Elt F) := StableHlo.after hostOps3 (W6 m c)
/-- After region 3. -/
def W8 (c : Dev nD) : Valuation τ sig (Elt F) :=
  Function.update (W7 m c) main_v79 ((dat3 (fun c b => W7 m c b) c).arrAt 6 cfg3.N)
def W9 (c : Dev nD) : Valuation τ sig (Elt F) := StableHlo.after hostOps4 (W8 m c)
/-- After region 4. -/
def W10 (c : Dev nD) : Valuation τ sig (Elt F) :=
  Function.update (W9 m c) main_v98 ((dat4 (fun c b => W9 m c b) c).arrAt 6 cfg4.N)
/-- After the four host stretches between region 4 and region 5. -/
def W14 (c : Dev nD) : Valuation τ sig (Elt F) :=
  StableHlo.after hostOps5_3 (StableHlo.after hostOps5_2 (StableHlo.after hostOps5_1 (StableHlo.after hostOps5 (W10 m c))))
/-- After region 5: the end. -/
def W15 (c : Dev nD) : Valuation τ sig (Elt F) :=
  Function.update (W14 m c) main_v101 ((dat5 (fun c b => W14 m c b) c).arrAt 6 cfg5.N)

/-- What each region leaves in the array it writes: the valuation after it, read at that array. -/
def outs : Gen.Outs (F := F) := fun J r c =>
  match J with
  | 2 => W2 m c r
  | 4 => W4 m c r
  | 6 => W6 m c r
  | 8 => W8 m c r
  | 10 => W10 m c r
  | _ => W15 m c r

theorem V2_eq (c : Dev nD) : Gen.V2 m (outs m) c = W2 m c := by
  show Function.update (Gen.V1 m c) main_v22 (W2 m c main_v22) = W2 m c
  unfold W2; rw [Function.update_self]
theorem V3_eq (c : Dev nD) : Gen.V3 m (outs m) c = W3 m c := by
  show StableHlo.after hostOps1 (Gen.V2 m (outs m) c) = _; rw [V2_eq]; rfl
theorem V4_eq (c : Dev nD) : Gen.V4 m (outs m) c = W4 m c := by
  show Function.update (Gen.V3 m (outs m) c) main_v41 (W4 m c main_v41) = W4 m c
  rw [V3_eq]; unfold W4; rw [Function.update_self]
theorem V5_eq (c : Dev nD) : Gen.V5 m (outs m) c = W5 m c := by
  show StableHlo.after hostOps2 (Gen.V4 m (outs m) c) = _; rw [V4_eq]; rfl
theorem V6_eq (c : Dev nD) : Gen.V6 m (outs m) c = W6 m c := by
  show Function.update (Gen.V5 m (outs m) c) main_v60 (W6 m c main_v60) = W6 m c
  rw [V5_eq]; unfold W6; rw [Function.update_self]
theorem V7_eq (c : Dev nD) : Gen.V7 m (outs m) c = W7 m c := by
  show StableHlo.after hostOps3 (Gen.V6 m (outs m) c) = _; rw [V6_eq]; rfl
theorem V8_eq (c : Dev nD) : Gen.V8 m (outs m) c = W8 m c := by
  show Function.update (Gen.V7 m (outs m) c) main_v79 (W8 m c main_v79) = W8 m c
  rw [V7_eq]; unfold W8; rw [Function.update_self]
theorem V9_eq (c : Dev nD) : Gen.V9 m (outs m) c = W9 m c := by
  show StableHlo.after hostOps4 (Gen.V8 m (outs m) c) = _; rw [V8_eq]; rfl
theorem V10_eq (c : Dev nD) : Gen.V10 m (outs m) c = W10 m c := by
  show Function.update (Gen.V9 m (outs m) c) main_v98 (W10 m c main_v98) = W10 m c
  rw [V9_eq]; unfold W10; rw [Function.update_self]
theorem V14_eq (c : Dev nD) : Gen.V14 m (outs m) c = W14 m c := by
  show StableHlo.after hostOps5_3 (StableHlo.after hostOps5_2 (StableHlo.after hostOps5_1 (StableHlo.after hostOps5 (Gen.V10 m (outs m) c)))) = _
  rw [V10_eq]; rfl
theorem V15_eq (c : Dev nD) : Gen.V15 m (outs m) c = W15 m c := by
  show Function.update (Gen.V14 m (outs m) c) main_v101 (W15 m c main_v101) = W15 m c
  rw [V14_eq]; unfold W15; rw [Function.update_self]

/-! The entry contents of each region, as the generated valuations and as the fold above. -/

theorem in1_eq : (fun (c : Dev nD) (b : Ref sig .tc) => Gen.V3 m (outs m) c b) = fun (c : Dev nD) (b : Ref sig .tc) => W3 m c b := by
  funext c b; rw [V3_eq]
theorem in2_eq : (fun (c : Dev nD) (b : Ref sig .tc) => Gen.V5 m (outs m) c b) = fun (c : Dev nD) (b : Ref sig .tc) => W5 m c b := by
  funext c b; rw [V5_eq]
theorem in3_eq : (fun (c : Dev nD) (b : Ref sig .tc) => Gen.V7 m (outs m) c b) = fun (c : Dev nD) (b : Ref sig .tc) => W7 m c b := by
  funext c b; rw [V7_eq]
theorem in4_eq : (fun (c : Dev nD) (b : Ref sig .tc) => Gen.V9 m (outs m) c b) = fun (c : Dev nD) (b : Ref sig .tc) => W9 m c b := by
  funext c b; rw [V9_eq]
theorem in5_eq : (fun (c : Dev nD) (b : Ref sig .tc) => Gen.V14 m (outs m) c b) = fun (c : Dev nD) (b : Ref sig .tc) => W14 m c b := by
  funext c b; rw [V14_eq]

/-- Region 0 leaves `main_v22` at the fold of its write-backs over its entry contents; -/
theorem outs_eq_0 (c : Dev nD) :
    outs m 2 main_v22 c = (dat0 (fun c b => Gen.V1 m c b) c).arrAt 6 cfg0.N := by
  show W2 m c main_v22 = _; unfold W2; rw [Function.update_self]
/-- region 1 `main_v41`; -/
theorem outs_eq_1 (c : Dev nD) :
    outs m 4 main_v41 c = (dat1 (fun c b => Gen.V3 m (outs m) c b) c).arrAt 6 cfg1.N := by
  rw [in1_eq]; show W4 m c main_v41 = _; unfold W4; rw [Function.update_self]
/-- region 2 `main_v60`; -/
theorem outs_eq_2 (c : Dev nD) :
    outs m 6 main_v60 c = (dat2 (fun c b => Gen.V5 m (outs m) c b) c).arrAt 6 cfg2.N := by
  rw [in2_eq]; show W6 m c main_v60 = _; unfold W6; rw [Function.update_self]
/-- region 3 `main_v79`; -/
theorem outs_eq_3 (c : Dev nD) :
    outs m 8 main_v79 c = (dat3 (fun c b => Gen.V7 m (outs m) c b) c).arrAt 6 cfg3.N := by
  rw [in3_eq]; show W8 m c main_v79 = _; unfold W8; rw [Function.update_self]
/-- region 4 `main_v98`; -/
theorem outs_eq_4 (c : Dev nD) :
    outs m 10 main_v98 c = (dat4 (fun c b => Gen.V9 m (outs m) c b) c).arrAt 6 cfg4.N := by
  rw [in4_eq]; show W10 m c main_v98 = _; unfold W10; rw [Function.update_self]
/-- region 5 the result array `main_v101`. -/
theorem outs_eq_5 (c : Dev nD) :
    outs m 15 main_v101 c = (dat5 (fun c b => Gen.V14 m (outs m) c b) c).arrAt 6 cfg5.N := by
  rw [in5_eq]; show W15 m c main_v101 = _; unfold W15; rw [Function.update_self]

/-! ## The proof data family and the rest of the thread state -/

/-- Every pipeline's proof data, each at its region's entry contents. -/
def pdats : (p : Fin 6) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V3 m (outs m) c b) c
  | ⟨2, _⟩ => fun c => dat2 (fun c b => Gen.V5 m (outs m) c b) c
  | ⟨3, _⟩ => fun c => dat3 (fun c b => Gen.V7 m (outs m) c b) c
  | ⟨4, _⟩ => fun c => dat4 (fun c b => Gen.V9 m (outs m) c b) c
  | ⟨5, _⟩ => fun c => dat5 (fun c b => Gen.V14 m (outs m) c b) c

/-- No core owes another anything: no level is assigned. -/
abbrev Lz : GSem nD τ sig → Finset Unit := fun _ => ∅
abbrev lvz : GSem nD τ sig → Unit → ℕ := fun _ _ => 0
/-- What rides beside the unscoped buffers through every item: the core's generator register at some state (a region's
    invariant takes it in and gives it back) and what the core owes, which is nothing. -/
abbrev Rst (c : Dev nD) : sProp 𝕄 := iprop((∃ r, prngReg c r) ∗ ∃ W, owes (c : Thread nD τ) (0 : CellTallies nD τ sig Unit) W)

/-! ## The regions as segments -/

/-! ### Region 0 -/

/-- Region 0's windows other than the last are inputs. -/
theorem isIn0 : ∀ w : Fin cfg0.W, w ≠ 6 → (cfg0.win w).isOut = false := by decide
/-- At region 0's exit each of its arrays holds what the pipeline leaves: an input array what it held at entry (no
    write-back touches it, and the valuation after the region differs from the one before only at `main_v22`, which
    is another array because distinct windows have distinct arrays), the output array `main_v22` the fold of the
    write-backs. -/
theorem hF0 (c : Dev nD) (w : Fin cfg0.W) :
    (dat0 (fun c b => Gen.V1 m c b) c).arrAt w cfg0.N = (fun b : Ref sig .tc => Gen.V2 m (outs m) c b) (Pipeline.arrRef spec0 w) := by
  by_cases hw : w = 6
  · subst hw
    refine (outs_eq_0 m c).symm.trans ?_
    show _ = Function.update (Gen.V1 m c) (Proc.devRef .tc main_v22) (outs m 2 main_v22 c) (Proc.devRef .tc main_v22)
    rw [Function.update_self]
  · refine ((dat0 (fun c b => Gen.V1 m c b) c).arrAt_in w (isIn0 w hw) _).trans ((A_eq0 (fun c b => Gen.V1 m c b) c w).trans ?_)
    exact (Gen.V2_of m (outs m) c (Pipeline.arrRef spec0 w) fun h => by
      rw [List.mem_singleton] at h
      exact hw (launch0.win.arr_inj (h.trans (rfl : main_v22 = Pipeline.arrRef spec0 6)))).symm
/-- Every other unscoped buffer holds at region 0's exit what it held at entry. -/
theorem hrest0 (c : Dev nD) : ∀ b : Ref sig .tc, b ∉ Finset.univ.image (Pipeline.arrRef spec0) →
    (fun b : Ref sig .tc => Gen.V2 m (outs m) c b) b = (fun b : Ref sig .tc => Gen.V1 m c b) b :=
  fun b hb => Gen.V2_of m (outs m) c b fun h => by
    rw [List.mem_singleton] at h; subst h
    exact hb (Finset.mem_image.mpr ⟨6, Finset.mem_univ _, rfl⟩)

set_option backward.isDefEq.respectTransparency.types false in
/-- REGION 0 over the thread state: entered from every unscoped buffer at the contents before it, left at the contents
    after it. Its seven arrays are split out of the unscoped buffers and put back at the exit contents; the generator
    register goes into the region's invariant and comes back; nothing is owed; the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ Lz lvz 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V1 m c b) fun w => A_eq0 (fun c b => Gen.V1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V1 m c b) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1 -/

/-- Region 1's windows other than the last are inputs. -/
theorem isIn1 : ∀ w : Fin cfg1.W, w ≠ 6 → (cfg1.win w).isOut = false := by decide
/-- At region 1's exit each of its arrays holds what the pipeline leaves: an input array what it held at entry (no
    write-back touches it, and the valuation after the region differs from the one before only at `main_v41`, which
    is another array because distinct windows have distinct arrays), the output array `main_v41` the fold of the
    write-backs. -/
theorem hF1 (c : Dev nD) (w : Fin cfg1.W) :
    (dat1 (fun c b => Gen.V3 m (outs m) c b) c).arrAt w cfg1.N = (fun b : Ref sig .tc => Gen.V4 m (outs m) c b) (Pipeline.arrRef spec1 w) := by
  by_cases hw : w = 6
  · subst hw
    refine (outs_eq_1 m c).symm.trans ?_
    show _ = Function.update (Gen.V3 m (outs m) c) (Proc.devRef .tc main_v41) (outs m 4 main_v41 c) (Proc.devRef .tc main_v41)
    rw [Function.update_self]
  · refine ((dat1 (fun c b => Gen.V3 m (outs m) c b) c).arrAt_in w (isIn1 w hw) _).trans ((A_eq1 (fun c b => Gen.V3 m (outs m) c b) c w).trans ?_)
    exact (Gen.V4_of m (outs m) c (Pipeline.arrRef spec1 w) fun h => by
      rw [List.mem_singleton] at h
      exact hw (launch1.win.arr_inj (h.trans (rfl : main_v41 = Pipeline.arrRef spec1 6)))).symm
/-- Every other unscoped buffer holds at region 1's exit what it held at entry. -/
theorem hrest1 (c : Dev nD) : ∀ b : Ref sig .tc, b ∉ Finset.univ.image (Pipeline.arrRef spec1) →
    (fun b : Ref sig .tc => Gen.V4 m (outs m) c b) b = (fun b : Ref sig .tc => Gen.V3 m (outs m) c b) b :=
  fun b hb => Gen.V4_of m (outs m) c b fun h => by
    rw [List.mem_singleton] at h; subst h
    exact hb (Finset.mem_image.mpr ⟨6, Finset.mem_univ _, rfl⟩)

set_option backward.isDefEq.respectTransparency.types false in
/-- REGION 1 over the thread state: entered from every unscoped buffer at the contents before it, left at the contents
    after it. Its seven arrays are split out of the unscoped buffers and put back at the exit contents; the generator
    register goes into the region's invariant and comes back; nothing is owed; the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (fun c b => Gen.V3 m (outs m) c b) c).loose
  hwaits := Pipeline.hwaits_of_owed_zero _ _ _ _ Lz lvz 1 fun _ _ => rfl
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => Gen.V3 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V3 m (outs m) c b) fun w => A_eq1 (fun c b => Gen.V3 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V3 m (outs m) c b) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2 -/

/-- Region 2's windows other than the last are inputs. -/
theorem isIn2 : ∀ w : Fin cfg2.W, w ≠ 6 → (cfg2.win w).isOut = false := by decide
/-- At region 2's exit each of its arrays holds what the pipeline leaves: an input array what it held at entry (no
    write-back touches it, and the valuation after the region differs from the one before only at `main_v60`, which
    is another array because distinct windows have distinct arrays), the output array `main_v60` the fold of the
    write-backs. -/
theorem hF2 (c : Dev nD) (w : Fin cfg2.W) :
    (dat2 (fun c b => Gen.V5 m (outs m) c b) c).arrAt w cfg2.N = (fun b : Ref sig .tc => Gen.V6 m (outs m) c b) (Pipeline.arrRef spec2 w) := by
  by_cases hw : w = 6
  · subst hw
    refine (outs_eq_2 m c).symm.trans ?_
    show _ = Function.update (Gen.V5 m (outs m) c) (Proc.devRef .tc main_v60) (outs m 6 main_v60 c) (Proc.devRef .tc main_v60)
    rw [Function.update_self]
  · refine ((dat2 (fun c b => Gen.V5 m (outs m) c b) c).arrAt_in w (isIn2 w hw) _).trans ((A_eq2 (fun c b => Gen.V5 m (outs m) c b) c w).trans ?_)
    exact (Gen.V6_of m (outs m) c (Pipeline.arrRef spec2 w) fun h => by
      rw [List.mem_singleton] at h
      exact hw (launch2.win.arr_inj (h.trans (rfl : main_v60 = Pipeline.arrRef spec2 6)))).symm
/-- Every other unscoped buffer holds at region 2's exit what it held at entry. -/
theorem hrest2 (c : Dev nD) : ∀ b : Ref sig .tc, b ∉ Finset.univ.image (Pipeline.arrRef spec2) →
    (fun b : Ref sig .tc => Gen.V6 m (outs m) c b) b = (fun b : Ref sig .tc => Gen.V5 m (outs m) c b) b :=
  fun b hb => Gen.V6_of m (outs m) c b fun h => by
    rw [List.mem_singleton] at h; subst h
    exact hb (Finset.mem_image.mpr ⟨6, Finset.mem_univ _, rfl⟩)

set_option backward.isDefEq.respectTransparency.types false in
/-- REGION 2 over the thread state: entered from every unscoped buffer at the contents before it, left at the contents
    after it. Its seven arrays are split out of the unscoped buffers and put back at the exit contents; the generator
    register goes into the region's invariant and comes back; nothing is owed; the kernel has no semaphore of its own. -/
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (fun c b => Gen.V5 m (outs m) c b) c).loose
  hwaits := Pipeline.hwaits_of_owed_zero _ _ _ _ Lz lvz 2 fun _ _ => rfl
  pre c := iprop(StableHlo.held (c : Thread nD τ) (Pipeline.ucRefs τ sig) (Gen.V5 m (outs m) c) ∗ Rst c)
  post c := iprop(StableHlo.held (c : Thread nD τ) (Pipeline.ucRefs τ sig) (Gen.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (fun b => Gen.V5 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => Gen.V5 m (outs m) c b) fun w => A_eq2 (fun c b => Gen.V5 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => Gen.V5 m (outs m) c b) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3 -/

/-- Region 3's windows other than the last are inputs. -/
theorem isIn3 : ∀ w : Fin cfg3.W, w ≠ 6 → (cfg3.win w).isOut = false := by decide
/-- At region 3's exit each of its arrays holds what the pipeline leaves: an input array what it held at entry (no
    write-back touches it, and the valuation after the region differs from the one before only at `main_v79`, which
    is another array because distinct windows have distinct arrays), the output array `main_v79` the fold of the
    write-backs. -/
theorem hF3 (c : Dev nD) (w : Fin cfg3.W) :
    (dat3 (fun c b => Gen.V7 m (outs m) c b) c).arrAt w cfg3.N = (fun b : Ref sig .tc => Gen.V8 m (outs m) c b) (Pipeline.arrRef spec3 w) := by
  by_cases hw : w = 6
  · subst hw
    refine (outs_eq_3 m c).symm.trans ?_
    show _ = Function.update (Gen.V7 m (outs m) c) (Proc.devRef .tc main_v79) (outs m 8 main_v79 c) (Proc.devRef .tc main_v79)
    rw [Function.update_self]
  · refine ((dat3 (fun c b => Gen.V7 m (outs m) c b) c).arrAt_in w (isIn3 w hw) _).trans ((A_eq3 (fun c b => Gen.V7 m (outs m) c b) c w).trans ?_)
    exact (Gen.V8_of m (outs m) c (Pipeline.arrRef spec3 w) fun h => by
      rw [List.mem_singleton] at h
      exact hw (launch3.win.arr_inj (h.trans (rfl : main_v79 = Pipeline.arrRef spec3 6)))).symm
/-- Every other unscoped buffer holds at region 3's exit what it held at entry. -/
theorem hrest3 (c : Dev nD) : ∀ b : Ref sig .tc, b ∉ Finset.univ.image (Pipeline.arrRef spec3) →
    (fun b : Ref sig .tc => Gen.V8 m (outs m) c b) b = (fun b : Ref sig .tc => Gen.V7 m (outs m) c b) b :=
  fun b hb => Gen.V8_of m (outs m) c b fun h => by
    rw [List.mem_singleton] at h; subst h
    exact hb (Finset.mem_image.mpr ⟨6, Finset.mem_univ _, rfl⟩)

set_option backward.isDefEq.respectTransparency.types false in
/-- REGION 3 over the thread state: entered from every unscoped buffer at the contents before it, left at the contents
    after it. Its seven arrays are split out of the unscoped buffers and put back at the exit contents; the generator
    register goes into the region's invariant and comes back; nothing is owed; the kernel has no semaphore of its own. -/
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (fun c b => Gen.V7 m (outs m) c b) c).loose
  hwaits := Pipeline.hwaits_of_owed_zero _ _ _ _ Lz lvz 3 fun _ _ => rfl
  pre c := iprop(StableHlo.held (c : Thread nD τ) (Pipeline.ucRefs τ sig) (Gen.V7 m (outs m) c) ∗ Rst c)
  post c := iprop(StableHlo.held (c : Thread nD τ) (Pipeline.ucRefs τ sig) (Gen.V8 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (fun b => Gen.V7 m (outs m) c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => Gen.V7 m (outs m) c b) fun w => A_eq3 (fun c b => Gen.V7 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => Gen.V7 m (outs m) c b) (fun b => Gen.V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4 -/

/-- Region 4's windows other than the last are inputs. -/
theorem isIn4 : ∀ w : Fin cfg4.W, w ≠ 6 → (cfg4.win w).isOut = false := by decide
/-- At region 4's exit each of its arrays holds what the pipeline leaves: an input array what it held at entry (no
    write-back touches it, and the valuation after the region differs from the one before only at `main_v98`, which
    is another array because distinct windows have distinct arrays), the output array `main_v98` the fold of the
    write-backs. -/
theorem hF4 (c : Dev nD) (w : Fin cfg4.W) :
    (dat4 (fun c b => Gen.V9 m (outs m) c b) c).arrAt w cfg4.N = (fun b : Ref sig .tc => Gen.V10 m (outs m) c b) (Pipeline.arrRef spec4 w) := by
  by_cases hw : w = 6
  · subst hw
    refine (outs_eq_4 m c).symm.trans ?_
    show _ = Function.update (Gen.V9 m (outs m) c) (Proc.devRef .tc main_v98) (outs m 10 main_v98 c) (Proc.devRef .tc main_v98)
    rw [Function.update_self]
  · refine ((dat4 (fun c b => Gen.V9 m (outs m) c b) c).arrAt_in w (isIn4 w hw) _).trans ((A_eq4 (fun c b => Gen.V9 m (outs m) c b) c w).trans ?_)
    exact (Gen.V10_of m (outs m) c (Pipeline.arrRef spec4 w) fun h => by
      rw [List.mem_singleton] at h
      exact hw (launch4.win.arr_inj (h.trans (rfl : main_v98 = Pipeline.arrRef spec4 6)))).symm
/-- Every other unscoped buffer holds at region 4's exit what it held at entry. -/
theorem hrest4 (c : Dev nD) : ∀ b : Ref sig .tc, b ∉ Finset.univ.image (Pipeline.arrRef spec4) →
    (fun b : Ref sig .tc => Gen.V10 m (outs m) c b) b = (fun b : Ref sig .tc => Gen.V9 m (outs m) c b) b :=
  fun b hb => Gen.V10_of m (outs m) c b fun h => by
    rw [List.mem_singleton] at h; subst h
    exact hb (Finset.mem_image.mpr ⟨6, Finset.mem_univ _, rfl⟩)

set_option backward.isDefEq.respectTransparency.types false in
/-- REGION 4 over the thread state: entered from every unscoped buffer at the contents before it, left at the contents
    after it. Its seven arrays are split out of the unscoped buffers and put back at the exit contents; the generator
    register goes into the region's invariant and comes back; nothing is owed; the kernel has no semaphore of its own. -/
def reg4 : Pipeline.RegionSeg (pcfgs (F := F)) Gen.adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (fun c b => Gen.V9 m (outs m) c b) c).loose
  hwaits := Pipeline.hwaits_of_owed_zero _ _ _ _ Lz lvz 4 fun _ _ => rfl
  pre c := iprop(StableHlo.held (c : Thread nD τ) (Pipeline.ucRefs τ sig) (Gen.V9 m (outs m) c) ∗ Rst c)
  post c := iprop(StableHlo.held (c : Thread nD τ) (Pipeline.ucRefs τ sig) (Gen.V10 m (outs m) c) ∗ Rst c)
  X c := iprop(∃ r, prngReg c r)
  Y c := iprop(∃ r, prngReg c r)
  Z c := Pipeline.unscopedRest (Ix := Unit) (Name := ℕ) (U := UR sig nD τ) (Lvl := ℕ) spec4 c (fun b => Gen.V9 m (outs m) c b)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (fun b => Gen.V9 m (outs m) c b) fun w => A_eq4 (fun c b => Gen.V9 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (fun b => Gen.V9 m (outs m) c b) (fun b => Gen.V10 m (outs m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 5 -/

/-- Region 5's windows other than the last are inputs. -/
theorem isIn5 : ∀ w : Fin cfg5.W, w ≠ 6 → (cfg5.win w).isOut = false := by decide
/-- At region 5's exit each of its arrays holds what the pipeline leaves: an input array what it held at entry (no
    write-back touches it, and the valuation after the region differs from the one before only at `main_v101`, which
    is another array because distinct windows have distinct arrays), the output array `main_v101` the fold of the
    write-backs. -/
theorem hF5 (c : Dev nD) (w : Fin cfg5.W) :
    (dat5 (fun c b => Gen.V14 m (outs m) c b) c).arrAt w cfg5.N = (fun b : Ref sig .tc => Gen.V15 m (outs m) c b) (Pipeline.arrRef spec5 w) := by
  by_cases hw : w = 6
  · subst hw
    refine (outs_eq_5 m c).symm.trans ?_
    show _ = Function.update (Gen.V14 m (outs m) c) (Proc.devRef .tc main_v101) (outs m 15 main_v101 c) (Proc.devRef .tc main_v101)
    rw [Function.update_self]
  · refine ((dat5 (fun c b => Gen.V14 m (outs m) c b) c).arrAt_in w (isIn5 w hw) _).trans ((A_eq5 (fun c b => Gen.V14 m (outs m) c b) c w).trans ?_)
    exact (Gen.V15_of m (outs m) c (Pipeline.arrRef spec5 w) fun h => by
      rw [List.mem_singleton] at h
      exact hw (launch5.win.arr_inj (h.trans (rfl : main_v101 = Pipeline.arrRef spec5 6)))).symm
/-- Every other unscoped buffer holds at region 5's exit what it held at entry. -/
theorem hrest5 (c : Dev nD) : ∀ b : Ref sig .tc, b ∉ Finset.univ.image (Pipeline.arrRef spec5) →
    (fun b : Ref sig .tc => Gen.V15 m (outs m) c b) b = (fun b : Ref sig .tc => Gen.V14 m (outs m) c b) b :=
  fun b hb => Gen.V15_of m (outs m) c b fun h => by
    rw [List.mem_singleton] at h; subst h
    exact hb (Finset.mem_image.mpr ⟨6, Finset.mem_univ _, rfl⟩)

set_option backward.isDefEq.respectTransparency.types false in
/-- REGION 5 over the thread state: entered from every unscoped buffer at the contents before it, left at the contents
    after it. Its seven arrays are split out of the unscoped buffers and put back at the exit contents; the generator
    register goes into the region's invariant and comes back; nothing is owed; the kernel has no semaphore of its own. -/
def reg5 : Pipeline.RegionSeg (pcfgs (F := F)) Gen.adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (fun c b => Gen.V14 m (outs m) c b) c).loose
  hwaits := Pipeline.hwaits_of_owed_zero _ _ _ _ Lz lvz 5 fun _ _ => rfl
  pre c := iprop(StableHlo.held (c : Thread nD τ) (Pipeline.ucRefs τ sig) (Gen.V14 m (outs m) c) ∗ Rst c)
  post c := iprop(StableHlo.held (c : Thread nD τ) (Pipeline.ucRefs τ sig) (Gen.V15 m (outs m) c) ∗ Rst c)
  X c := iprop(∃ r, prngReg c r)
  Y c := iprop(∃ r, prngReg c r)
  Z c := Pipeline.unscopedRest (Ix := Unit) (Name := ℕ) (U := UR sig nD τ) (Lvl := ℕ) spec5 c (fun b => Gen.V14 m (outs m) c b)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (fun b => Gen.V14 m (outs m) c b) fun w => A_eq5 (fun c b => Gen.V14 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (fun c b => Gen.V14 m (outs m) c b) c).Φ 0 from rfl]
    iintro ⟨Hp, -, Hr⟩
    iapply (hin5 (fun c b => Gen.V14 m (outs m) c b) c)
    unfold Pipeline.ΦA
    isplitl [Hr]; · iexact Hr
    iexact Hp
  hout c := by
    refine (hout5 (fun c b => Gen.V14 m (outs m) c b) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (fun b => Gen.V14 m (outs m) c b) (fun b => Gen.V15 m (outs m) c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and
    every final memory holds every unscoped buffer at the last valuation: the launch over @main's fifteen items, the host
    stretches carrying the valuation forward by `StableHlo.after`, each region by its record above, the last thread
    state read against the final state buffer by buffer. -/
theorem run (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V15 m (outs m) c b) := by
  refine Pipeline.θ_run_regions_kit_dev (pcfgs (F := F)) Gen.adm (pdats m) () cellOf_inj emb₁ defs₀ Variants.none Lz lvz m ρ main
    (Gen.segs m (outs m) Variants.none Lz lvz (fun _ => Rst (F := F)) () (pdats m) (reg0 m) (reg1 m) (reg2 m) (reg3 m) (reg4 m) (reg5 m))
    (fun c Q => by
      rewrite [main_chain c, Seg.run_eq_chain,
        show (Gen.segs m (outs m) Variants.none Lz lvz (fun _ => Rst (F := F)) () (pdats m) (reg0 m) (reg1 m) (reg2 m) (reg3 m) (reg4 m) (reg5 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          StableHlo.seq hostOps5_1,
          StableHlo.seq hostOps5_2,
          StableHlo.seq hostOps5_3,
          Prog.lift (.customCall (Pipeline.entry 5) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V15 m (outs m) c))
    (hch := fun c => ⟨.rfl, .rfl, .rfl, .rfl, .rfl, .rfl, .rfl, .rfl, .rfl, .rfl, .rfl, .rfl, .rfl, .rfl, .rfl, by
      show iprop(StableHlo.held (c : Thread nD τ) (Pipeline.ucRefs τ sig) (Gen.V15 m (outs m) c) ∗ Rst c) ⊢ _
      iintro ⟨Hh, -, HO⟩
      isplitl [Hh] <;> iassumption⟩)
    (hinit := by
      refine Pipeline.initEach Lz lvz fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V15 m (outs m) c b)
    (hfin := fun c s' => by
      iintro ⟨Hh, HSI⟩
      unfold StableHlo.held
      imodintro
      iapply (pointsTo_read_all (Pipeline.ucRefs τ sig) (fun b => ((c : Thread nD τ).1, b)) (Gen.V15 m (outs m) c) s')
      isplitl [Hh] <;> iassumption)
    (hQ := fun _ h => h)

/-- THE FRAME: the eleven argument arrays end as launched, no host stretch writing one and no region's output array being
    one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (Gen.V15_main_arg0 m (outs m) c),
     (h c _ (mem_uc main_arg1 (by decide))).trans (Gen.V15_main_arg1 m (outs m) c),
     (h c _ (mem_uc main_arg2 (by decide))).trans (Gen.V15_main_arg2 m (outs m) c),
     (h c _ (mem_uc main_arg3 (by decide))).trans (Gen.V15_main_arg3 m (outs m) c),
     (h c _ (mem_uc main_arg4 (by decide))).trans (Gen.V15_main_arg4 m (outs m) c),
     (h c _ (mem_uc main_arg5 (by decide))).trans (Gen.V15_main_arg5 m (outs m) c),
     (h c _ (mem_uc main_arg6 (by decide))).trans (Gen.V15_main_arg6 m (outs m) c),
     (h c _ (mem_uc main_arg7 (by decide))).trans (Gen.V15_main_arg7 m (outs m) c),
     (h c _ (mem_uc main_arg8 (by decide))).trans (Gen.V15_main_arg8 m (outs m) c),
     (h c _ (mem_uc main_arg9 (by decide))).trans (Gen.V15_main_arg9 m (outs m) c),
     (h c _ (mem_uc main_arg10 (by decide))).trans (Gen.V15_main_arg10 m (outs m) c)⟩) (run m ρ)

/-- THE RESULT: the result array `main_v101` ends at the fold of region 5's write-backs over the contents region 5 was
    entered from, beside the frame. -/
theorem result_eq (ρ : Dev nD → PrngReg) :
    θ_run defs (onTc (τ := τ) (main (F := F))) ⟨m, fun _ => 0, ρ⟩ (fun r => ∀ c : Dev nD,
      r.2.mem ((c.tc : Thread nD τ).loc main_v101) = (dat5 (fun c b => Gen.V14 m (outs m) c b) c).arrAt 6 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v101 (by decide))).trans
      ((show Gen.V15 m (outs m) c (Proc.devRef .tc main_v101) = outs m 15 main_v101 c from by
        show Function.update _ _ _ _ = _; rw [Function.update_self]).trans (outs_eq_5 m c)),
     (h c _ (mem_uc main_arg0 (by decide))).trans (Gen.V15_main_arg0 m (outs m) c),
     (h c _ (mem_uc main_arg1 (by decide))).trans (Gen.V15_main_arg1 m (outs m) c),
     (h c _ (mem_uc main_arg2 (by decide))).trans (Gen.V15_main_arg2 m (outs m) c),
     (h c _ (mem_uc main_arg3 (by decide))).trans (Gen.V15_main_arg3 m (outs m) c),
     (h c _ (mem_uc main_arg4 (by decide))).trans (Gen.V15_main_arg4 m (outs m) c),
     (h c _ (mem_uc main_arg5 (by decide))).trans (Gen.V15_main_arg5 m (outs m) c),
     (h c _ (mem_uc main_arg6 (by decide))).trans (Gen.V15_main_arg6 m (outs m) c),
     (h c _ (mem_uc main_arg7 (by decide))).trans (Gen.V15_main_arg7 m (outs m) c),
     (h c _ (mem_uc main_arg8 (by decide))).trans (Gen.V15_main_arg8 m (outs m) c),
     (h c _ (mem_uc main_arg9 (by decide))).trans (Gen.V15_main_arg9 m (outs m) c),
     (h c _ (mem_uc main_arg10 (by decide))).trans (Gen.V15_main_arg10 m (outs m) c)⟩) (run m ρ)

end Cert.KernelIdeal.Hand

end
-- ==== Proof.KI.HostVal.lean ====
/-
  What the host lines between the kernel regions leave in the buffers each region reads, for the idealized program.

  Before layer l's region the host slices the layer's two weight matrices and two bias vectors out of the stacked parameters and
  aggregates the features entering the layer over the edges: a gather of rows by the (wrapped) source index followed by an
  accumulating scatter by the destination index. The slices are the very terms the reference program computes for the same
  layer; the aggregation is one function `aggT` of the features entering the layer and the two index vectors, the same in every
  layer. Before the pooling region the host pads the features with zero rows and the segment ids with -1.
-/
import proofs.«419162_j62646392980003_1_alg».proof.Proof.Gen.KernelIdeal.Regions
import proofs.«419162_j62646392980003_1_alg».proof.Proof.Gen.ReferenceIdeal.Read
import Idealize.ShloMosaic.Lib.StableHlo.Run
import Idealize.ShloMosaic.Lib.KernelVsHost

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (outs : Outs (F := Ideal))

/-- The features h summed over the edges: row r collects the rows h[s e] of the edges e whose destination d e is r. -/
def aggT (h : (⟨S100000x64, .f32⟩ : BufTy).Contents (Elt Ideal)) (s d : (⟨S1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-! The two index vectors are computed once, before the first region, and no later line writes them. -/

theorem src1 (c : Dev nD) : V1 m c main_v1 = Cert.ReferenceIdeal.Read.val_main_v1 (F := Ideal) (m ((c.tc : Thread nD τ).loc main_arg1)) := by
  show StableHlo.after hostOps0 (V0 m c) (Proc.devRef .tc main_v1) = _
  after_results
  rfl
theorem dst1 (c : Dev nD) : V1 m c main_v3 = Cert.ReferenceIdeal.Read.val_main_v3 (F := Ideal) (m ((c.tc : Thread nD τ).loc main_arg1)) := by
  show StableHlo.after hostOps0 (V0 m c) (Proc.devRef .tc main_v3) = _
  after_results
  rfl
theorem keep2_main_v1 (c : Dev nD) : V2 m outs c main_v1 = V1 m c main_v1 :=
  (V2_of m outs c main_v1 (by decide))
theorem keep3_main_v1 (c : Dev nD) : V3 m outs c main_v1 = V1 m c main_v1 :=
  (V3_of m outs c main_v1 (by decide)).trans (keep2_main_v1 m outs c)
theorem keep4_main_v1 (c : Dev nD) : V4 m outs c main_v1 = V1 m c main_v1 :=
  (V4_of m outs c main_v1 (by decide)).trans (keep3_main_v1 m outs c)
theorem keep5_main_v1 (c : Dev nD) : V5 m outs c main_v1 = V1 m c main_v1 :=
  (V5_of m outs c main_v1 (by decide)).trans (keep4_main_v1 m outs c)
theorem keep6_main_v1 (c : Dev nD) : V6 m outs c main_v1 = V1 m c main_v1 :=
  (V6_of m outs c main_v1 (by decide)).trans (keep5_main_v1 m outs c)
theorem keep7_main_v1 (c : Dev nD) : V7 m outs c main_v1 = V1 m c main_v1 :=
  (V7_of m outs c main_v1 (by decide)).trans (keep6_main_v1 m outs c)
theorem keep8_main_v1 (c : Dev nD) : V8 m outs c main_v1 = V1 m c main_v1 :=
  (V8_of m outs c main_v1 (by decide)).trans (keep7_main_v1 m outs c)
theorem keep2_main_v3 (c : Dev nD) : V2 m outs c main_v3 = V1 m c main_v3 :=
  (V2_of m outs c main_v3 (by decide))
theorem keep3_main_v3 (c : Dev nD) : V3 m outs c main_v3 = V1 m c main_v3 :=
  (V3_of m outs c main_v3 (by decide)).trans (keep2_main_v3 m outs c)
theorem keep4_main_v3 (c : Dev nD) : V4 m outs c main_v3 = V1 m c main_v3 :=
  (V4_of m outs c main_v3 (by decide)).trans (keep3_main_v3 m outs c)
theorem keep5_main_v3 (c : Dev nD) : V5 m outs c main_v3 = V1 m c main_v3 :=
  (V5_of m outs c main_v3 (by decide)).trans (keep4_main_v3 m outs c)
theorem keep6_main_v3 (c : Dev nD) : V6 m outs c main_v3 = V1 m c main_v3 :=
  (V6_of m outs c main_v3 (by decide)).trans (keep5_main_v3 m outs c)
theorem keep7_main_v3 (c : Dev nD) : V7 m outs c main_v3 = V1 m c main_v3 :=
  (V7_of m outs c main_v3 (by decide)).trans (keep6_main_v3 m outs c)
theorem keep8_main_v3 (c : Dev nD) : V8 m outs c main_v3 = V1 m c main_v3 :=
  (V8_of m outs c main_v3 (by decide)).trans (keep7_main_v3 m outs c)

/-! Layer 0. -/

set_option maxHeartbeats 4000000 in
theorem agg0 (c : Dev nD) : V1 m c main_v13 = aggT (V0 m c main_arg0) (V1 m c main_v1) (V1 m c main_v3) := by
  rw [src1, dst1]
  show StableHlo.after hostOps0 (V0 m c) (Proc.devRef .tc main_v13) = _
  after_results_simp
  rfl
theorem W1_0 (c : Dev nD) : V1 m c main_v15 = Cert.ReferenceIdeal.Read.val_main_v16 (F := Ideal) (m ((c.tc : Thread nD τ).loc main_arg3)) := by
  show StableHlo.after hostOps0 (V0 m c) (Proc.devRef .tc main_v15) = _
  after_results
  rfl
theorem b1_0 (c : Dev nD) : V1 m c main_v17 = Cert.ReferenceIdeal.Read.val_main_v19 (F := Ideal) (m ((c.tc : Thread nD τ).loc main_arg4)) := by
  show StableHlo.after hostOps0 (V0 m c) (Proc.devRef .tc main_v17) = _
  after_results
  rfl
theorem W2_0 (c : Dev nD) : V1 m c main_v19 = Cert.ReferenceIdeal.Read.val_main_v25 (F := Ideal) (m ((c.tc : Thread nD τ).loc main_arg5)) := by
  show StableHlo.after hostOps0 (V0 m c) (Proc.devRef .tc main_v19) = _
  after_results
  rfl
theorem b2_0 (c : Dev nD) : V1 m c main_v21 = Cert.ReferenceIdeal.Read.val_main_v28 (F := Ideal) (m ((c.tc : Thread nD τ).loc main_arg6)) := by
  show StableHlo.after hostOps0 (V0 m c) (Proc.devRef .tc main_v21) = _
  after_results
  rfl

/-! Layer 1. -/

set_option maxHeartbeats 4000000 in
theorem agg1 (c : Dev nD) : V3 m outs c main_v32 = aggT (V2 m outs c main_v22) (V2 m outs c main_v1) (V2 m outs c main_v3) := by
  show StableHlo.after hostOps1 (V2 m outs c) (Proc.devRef .tc main_v32) = _
  after_results_simp
  rfl
theorem W1_1 (c : Dev nD) : V3 m outs c main_v34 = Cert.ReferenceIdeal.Read.val_main_v44 (F := Ideal) (m ((c.tc : Thread nD τ).loc main_arg3)) := by
  show StableHlo.after hostOps1 (V2 m outs c) (Proc.devRef .tc main_v34) = _
  after_results
  rfl
theorem b1_1 (c : Dev nD) : V3 m outs c main_v36 = Cert.ReferenceIdeal.Read.val_main_v47 (F := Ideal) (m ((c.tc : Thread nD τ).loc main_arg4)) := by
  show StableHlo.after hostOps1 (V2 m outs c) (Proc.devRef .tc main_v36) = _
  after_results
  rfl
theorem W2_1 (c : Dev nD) : V3 m outs c main_v38 = Cert.ReferenceIdeal.Read.val_main_v53 (F := Ideal) (m ((c.tc : Thread nD τ).loc main_arg5)) := by
  show StableHlo.after hostOps1 (V2 m outs c) (Proc.devRef .tc main_v38) = _
  after_results
  rfl
theorem b2_1 (c : Dev nD) : V3 m outs c main_v40 = Cert.ReferenceIdeal.Read.val_main_v56 (F := Ideal) (m ((c.tc : Thread nD τ).loc main_arg6)) := by
  show StableHlo.after hostOps1 (V2 m outs c) (Proc.devRef .tc main_v40) = _
  after_results
  rfl

/-! Layer 2. -/

set_option maxHeartbeats 4000000 in
theorem agg2 (c : Dev nD) : V5 m outs c main_v51 = aggT (V4 m outs c main_v41) (V4 m outs c main_v1) (V4 m outs c main_v3) := by
  show StableHlo.after hostOps2 (V4 m outs c) (Proc.devRef .tc main_v51) = _
  after_results_simp
  rfl
theorem W1_2 (c : Dev nD) : V5 m outs c main_v53 = Cert.ReferenceIdeal.Read.val_main_v72 (F := Ideal) (m ((c.tc : Thread nD τ).loc main_arg3)) := by
  show StableHlo.after hostOps2 (V4 m outs c) (Proc.devRef .tc main_v53) = _
  after_results
  rfl
theorem b1_2 (c : Dev nD) : V5 m outs c main_v55 = Cert.ReferenceIdeal.Read.val_main_v75 (F := Ideal) (m ((c.tc : Thread nD τ).loc main_arg4)) := by
  show StableHlo.after hostOps2 (V4 m outs c) (Proc.devRef .tc main_v55) = _
  after_results
  rfl
theorem W2_2 (c : Dev nD) : V5 m outs c main_v57 = Cert.ReferenceIdeal.Read.val_main_v81 (F := Ideal) (m ((c.tc : Thread nD τ).loc main_arg5)) := by
  show StableHlo.after hostOps2 (V4 m outs c) (Proc.devRef .tc main_v57) = _
  after_results
  rfl
theorem b2_2 (c : Dev nD) : V5 m outs c main_v59 = Cert.ReferenceIdeal.Read.val_main_v84 (F := Ideal) (m ((c.tc : Thread nD τ).loc main_arg6)) := by
  show StableHlo.after hostOps2 (V4 m outs c) (Proc.devRef .tc main_v59) = _
  after_results
  rfl

/-! Layer 3. -/

set_option maxHeartbeats 4000000 in
theorem agg3 (c : Dev nD) : V7 m outs c main_v70 = aggT (V6 m outs c main_v60) (V6 m outs c main_v1) (V6 m outs c main_v3) := by
  show StableHlo.after hostOps3 (V6 m outs c) (Proc.devRef .tc main_v70) = _
  after_results_simp
  rfl
theorem W1_3 (c : Dev nD) : V7 m outs c main_v72 = Cert.ReferenceIdeal.Read.val_main_v100 (F := Ideal) (m ((c.tc : Thread nD τ).loc main_arg3)) := by
  show StableHlo.after hostOps3 (V6 m outs c) (Proc.devRef .tc main_v72) = _
  after_results
  rfl
theorem b1_3 (c : Dev nD) : V7 m outs c main_v74 = Cert.ReferenceIdeal.Read.val_main_v103 (F := Ideal) (m ((c.tc : Thread nD τ).loc main_arg4)) := by
  show StableHlo.after hostOps3 (V6 m outs c) (Proc.devRef .tc main_v74) = _
  after_results
  rfl
theorem W2_3 (c : Dev nD) : V7 m outs c main_v76 = Cert.ReferenceIdeal.Read.val_main_v109 (F := Ideal) (m ((c.tc : Thread nD τ).loc main_arg5)) := by
  show StableHlo.after hostOps3 (V6 m outs c) (Proc.devRef .tc main_v76) = _
  after_results
  rfl
theorem b2_3 (c : Dev nD) : V7 m outs c main_v78 = Cert.ReferenceIdeal.Read.val_main_v112 (F := Ideal) (m ((c.tc : Thread nD τ).loc main_arg6)) := by
  show StableHlo.after hostOps3 (V6 m outs c) (Proc.devRef .tc main_v78) = _
  after_results
  rfl

/-! Layer 4. -/

set_option maxHeartbeats 4000000 in
theorem agg4 (c : Dev nD) : V9 m outs c main_v89 = aggT (V8 m outs c main_v79) (V8 m outs c main_v1) (V8 m outs c main_v3) := by
  show StableHlo.after hostOps4 (V8 m outs c) (Proc.devRef .tc main_v89) = _
  after_results_simp
  rfl
theorem W1_4 (c : Dev nD) : V9 m outs c main_v91 = Cert.ReferenceIdeal.Read.val_main_v128 (F := Ideal) (m ((c.tc : Thread nD τ).loc main_arg3)) := by
  show StableHlo.after hostOps4 (V8 m outs c) (Proc.devRef .tc main_v91) = _
  after_results
  rfl
theorem b1_4 (c : Dev nD) : V9 m outs c main_v93 = Cert.ReferenceIdeal.Read.val_main_v131 (F := Ideal) (m ((c.tc : Thread nD τ).loc main_arg4)) := by
  show StableHlo.after hostOps4 (V8 m outs c) (Proc.devRef .tc main_v93) = _
  after_results
  rfl
theorem W2_4 (c : Dev nD) : V9 m outs c main_v95 = Cert.ReferenceIdeal.Read.val_main_v137 (F := Ideal) (m ((c.tc : Thread nD τ).loc main_arg5)) := by
  show StableHlo.after hostOps4 (V8 m outs c) (Proc.devRef .tc main_v95) = _
  after_results
  rfl
theorem b2_4 (c : Dev nD) : V9 m outs c main_v97 = Cert.ReferenceIdeal.Read.val_main_v140 (F := Ideal) (m ((c.tc : Thread nD τ).loc main_arg6)) := by
  show StableHlo.after hostOps4 (V8 m outs c) (Proc.devRef .tc main_v97) = _
  after_results
  rfl

/-! The pooling region's two padded inputs. -/

theorem pad_feat (c : Dev nD) : V14 m outs c main_v99
    = pad S106496x64 ![0, 0] ![6496, 0] ![0, 0] (V10 m outs c main_v98) (sitofp (F := Ideal) .f32 (constantI S_ 32 0#32)) pads_S100000x64_S106496x64_064960_000 h_S_ := by
  rw [V14_of m outs c main_v99 (by decide), V13_of m outs c main_v99 (by decide)]
  show StableHlo.after hostOps5_1 (V11 m outs c) (Proc.devRef .tc main_v99) = _
  after_results
  rfl

theorem pad_ids (c : Dev nD) : V14 m outs c main_v100
    = pad S106496 ![0] ![6496] ![0] (m ((c.tc : Thread nD τ).loc main_arg2)) (constantI S_ 32 4294967295#32) pads_S100000_S106496_064960 h_S_ := by
  show StableHlo.after hostOps5_3 (V13 m outs c) (Proc.devRef .tc main_v100) = _
  after_results
  rfl

end Cert.KernelIdeal.Hand

end
-- ==== Proof.Spec.lean ====
/-
  The arithmetic both programs compute, over the extended reals.

  A two-layer perceptron on one row: the row z (64 entries) goes to  q ↦ (∑ k, max (∑ j, z j · W₁ j k + b₁ k) 0 · W₂ k q) + b₂ q.
  Every layer's node update applies it to the row "features plus summed neighbour features"; the readout applies it to a
  graph's pooled row "feature sums divided by max(count, 1)".

  A segment sum: the sum of the rows whose segment id, read as a signed integer, is g; an id outside the table names no
  segment and contributes nowhere.
-/
import Idealize.ShloMosaic.PureOps.Ideal
import Idealize.ShloMosaic.Lib.ValueIdx

noncomputable section

namespace Gin.Spec

open Idealize.ShloMosaic

/-- The two-layer perceptron on one row. -/
def mlpRow (z : Fin 64 → EReal) (W1 : Fin 64 → Fin 64 → EReal) (b1 : Fin 64 → EReal) (W2 : Fin 64 → Fin 64 → EReal)
    (b2 : Fin 64 → EReal) (q : Fin 64) : EReal :=
  (∑ k : Fin 64, max (∑ j : Fin 64, z j * W1 j k + b1 k) 0 * W2 k q) + b2 q

/-- The sum of the entries x n over the rows n whose segment id is g. -/
def segSum {N : ℕ} (id : Fin N → BitVec 32) (x : Fin N → EReal) (g : ℕ) : EReal :=
  ∑ n : Fin N, if (id n).toInt = (g : ℤ) then x n else 0

/-- The number of rows whose segment id is g, as an extended real. -/
def segCount {N : ℕ} (id : Fin N → BitVec 32) (g : ℕ) : EReal :=
  ∑ n : Fin N, if (id n).toInt = (g : ℤ) then (1 : EReal) else 0

/-- A graph's pooled row: the feature sums over the count, the count raised to at least one. -/
def pooledRow {N : ℕ} (id : Fin N → BitVec 32) (h : Fin N → Fin 64 → EReal) (g : ℕ) (j : Fin 64) : EReal :=
  Ideal.div (segSum id (fun n => h n j) g) (max (segCount id g) 1)

end Gin.Spec

end
-- ==== Proof.PadSum.lean ====
/-
  Padding a segment sum. If a longer family of rows agrees with the given one on the first N rows and every further row
  carries a segment id that is not g, the sum over the rows with id g is the same for both: the further rows add nothing.
-/
import proofs.«419162_j62646392980003_1_alg».proof.Proof.Spec

noncomputable section

namespace Gin.Spec

open Idealize.ShloMosaic

/-- A sum over Fin M of terms that vanish from N on is the sum over Fin N. -/
theorem sum_fin_of_vanish {N M : ℕ} (hNM : N ≤ M) (T : ℕ → EReal) (hT : ∀ i, N ≤ i → T i = 0) :
    ∑ n : Fin M, T n.val = ∑ n : Fin N, T n.val := by
  rw [Fin.sum_univ_eq_sum_range (fun i => T i) M, Fin.sum_univ_eq_sum_range (fun i => T i) N]
  symm
  refine Finset.sum_subset (Finset.range_subset_range.mpr hNM) fun i _ hi => ?_
  exact hT i (by simpa using hi)

theorem segSum_padded {N M : ℕ} (hNM : N ≤ M) (id : Fin N → BitVec 32) (x : Fin N → EReal) (idp : Fin M → BitVec 32)
    (xp : Fin M → EReal) (g : ℕ)
    (hin : ∀ (n : Fin M) (h : n.val < N), idp n = id ⟨n.val, h⟩ ∧ xp n = x ⟨n.val, h⟩)
    (hout : ∀ n : Fin M, N ≤ n.val → (idp n).toInt ≠ (g : ℤ)) :
    segSum idp xp g = segSum id x g := by
  unfold segSum
  -- one total function of the row number serves both sums
  let T : ℕ → EReal := fun i => if h : i < N then (if (id ⟨i, h⟩).toInt = (g : ℤ) then x ⟨i, h⟩ else 0) else 0
  have hL : ∀ n : Fin M, (if (idp n).toInt = (g : ℤ) then xp n else 0) = T n.val := by
    intro n
    by_cases h : n.val < N
    · obtain ⟨h1, h2⟩ := hin n h
      simp only [T, dif_pos h, h1, h2]
    · have := hout n (Nat.le_of_not_lt h)
      simp only [T, dif_neg h, if_neg this]
  have hR : ∀ n : Fin N, (if (id n).toInt = (g : ℤ) then x n else 0) = T n.val := by
    intro n
    simp only [T, dif_pos n.isLt]
  rw [Finset.sum_congr rfl fun n _ => hL n, Finset.sum_congr rfl fun n _ => hR n]
  exact sum_fin_of_vanish hNM T fun i hi => by simp only [T, dif_neg (Nat.not_lt.mpr hi)]

theorem segCount_padded {N M : ℕ} (hNM : N ≤ M) (id : Fin N → BitVec 32) (idp : Fin M → BitVec 32) (g : ℕ)
    (hin : ∀ (n : Fin M) (h : n.val < N), idp n = id ⟨n.val, h⟩)
    (hout : ∀ n : Fin M, N ≤ n.val → (idp n).toInt ≠ (g : ℤ)) :
    segCount idp g = segCount id g := by
  have := segSum_padded hNM id (fun _ => (1 : EReal)) idp (fun _ => (1 : EReal)) g (fun n h => ⟨hin n h, rfl⟩) hout
  simpa [segSum, segCount] using this

theorem pooledRow_padded {N M : ℕ} (hNM : N ≤ M) (id : Fin N → BitVec 32) (h : Fin N → Fin 64 → EReal) (idp : Fin M → BitVec 32)
    (hp : Fin M → Fin 64 → EReal) (g : ℕ)
    (hin : ∀ (n : Fin M) (hn : n.val < N), idp n = id ⟨n.val, hn⟩ ∧ ∀ j, hp n j = h ⟨n.val, hn⟩ j)
    (hout : ∀ n : Fin M, N ≤ n.val → (idp n).toInt ≠ (g : ℤ)) :
    pooledRow idp hp g = pooledRow id h g := by
  funext j
  unfold pooledRow
  rw [segSum_padded hNM id (fun n => h n j) idp (fun n => hp n j) g (fun n hn => ⟨(hin n hn).1, (hin n hn).2 j⟩) hout,
    segCount_padded hNM id idp g (fun n hn => (hin n hn).1) hout]

end Gin.Spec

end
-- ==== Proof.KI.PadVal.lean ====
/-
  The pooling region reads the last layer's features padded with 6496 zero rows and the segment ids padded with -1. A padded
  row's id, -1, is no graph's number, so each graph's pooled row over the 106496 padded rows is its pooled row over the
  100000 rows there are.
-/
import proofs.«419162_j62646392980003_1_alg».proof.Proof.KI.HostVal
import proofs.«419162_j62646392980003_1_alg».proof.Proof.PadSum
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx Gin.Spec
open Cert.KernelIdeal Cert.KernelIdeal.Gen

variable (m : (ℓ : Loc nD τ sig) → Buf (Elt Ideal) ℓ) (outs : Outs (F := Ideal))

/-- A row below 100000 of the padded ids is the id there. -/
theorem padIds_inside (x : S100000.Idx → BitVec 32) (v : S_.Idx → BitVec 32) (n : Fin 106496) (h : n.val < 100000) :
    pad S106496 ![0] ![6496] ![0] x v pads_S100000_S106496_064960 h_S_ (ix1 n) = x (ix1 (⟨n.val, h⟩ : Fin 100000)) :=
  pad_apply_of_inside _ _ _ x v _ _ (ix1 n) (ix1 (⟨n.val, h⟩ : Fin 100000)) (fun a => by
    match a with
    | ⟨0, _⟩ => show n.val = 0 + n.val * (0 + 1); omega)

/-- A row from 100000 on of the padded ids is the padding value. -/
theorem padIds_outside (x : S100000.Idx → BitVec 32) (v : S_.Idx → BitVec 32) (n : Fin 106496) (h : 100000 ≤ n.val) :
    pad S106496 ![0] ![6496] ![0] x v pads_S100000_S106496_064960 h_S_ (ix1 n) = v (Shape.Idx.first h_S_) :=
  pad_apply_of_not_inside _ _ _ x v _ _ (ix1 n) 0 (by
    show ¬(0 ≤ n.val ∧ (n.val - 0) % (0 + 1) = 0 ∧ (n.val - 0) / (0 + 1) < 100000)
    omega)

/-- A row below 100000 of the padded features is the row there. -/
theorem padFeat_inside (x : S100000x64.Idx → EReal) (v : S_.Idx → EReal) (n : Fin 106496) (h : n.val < 100000) (j : Fin 64) :
    pad S106496x64 ![0, 0] ![6496, 0] ![0, 0] x v pads_S100000x64_S106496x64_064960_000 h_S_ (ix2 n j)
      = x (ix2 (⟨n.val, h⟩ : Fin 100000) j) :=
  pad_apply_of_inside _ _ _ x v _ _ (ix2 n j) (ix2 (⟨n.val, h⟩ : Fin 100000) j) (fun a => by
    match a with
    | ⟨0, _⟩ => show n.val = 0 + n.val * (0 + 1); omega
    | ⟨1, _⟩ => show j.val = 0 + j.val * (0 + 1); omega)

/-- Each graph's pooled row over the padded arrays is its pooled row over the unpadded ones. -/
theorem pooled_pad (c : Dev nD) (g : Fin 256) :
    pooledRow (fun n : Fin 106496 => (V14 m outs c main_v100 : S106496.Idx → BitVec 32) (ix1 n))
        (fun n j => (V14 m outs c main_v99 : S106496x64.Idx → EReal) (ix2 n j)) g.val
      = pooledRow (fun n : Fin 100000 => (m ((c.tc : Thread nD τ).loc main_arg2) : S100000.Idx → BitVec 32) (ix1 n))
        (fun n j => (V10 m outs c main_v98 : S100000x64.Idx → EReal) (ix2 n j)) g.val := by
  rw [pad_feat, pad_ids]
  refine pooledRow_padded (by decide) _ _ _ _ g.val (fun n hn => ⟨padIds_inside _ _ n hn, fun j => padFeat_inside _ _ n hn j⟩)
    (fun n hn => ?_)
  rw [padIds_outside _ _ n hn]
  show (4294967295#32 : BitVec 32).toInt ≠ (g.val : ℤ)
  have := g.isLt
  have h1 : (4294967295#32 : BitVec 32).toInt = -1 := by decide
  omega

end Cert.KernelIdeal.Hand

end
-- ==== Proof.KI.MlpPay.lean ====
/-
  The arithmetic of the kernel bodies, read at an index.

  Each of the five layer bodies takes a tile of 5000 rows of node features and the tile of summed neighbour features, adds
  them, multiplies the sum by a 64 × 64 matrix, adds a bias row, clamps at zero from below, multiplies by a second 64 × 64
  matrix and adds a second bias row. Over the extended reals a change of float format is the identity and a matrix product
  into a zero accumulator is the plain sum of products, so entry (p, q) of the body's result is the two-layer perceptron
  `mlpRow` of row p of the sum, read at q. The readout body does the same to the pooled rows: feature sums divided by the
  count raised to at least one.

  The matrix product is read through the contraction index: the one contracted axis has extent 64, so the sum over the
  contraction shape's indices is a sum over Fin 64, the left operand read at (p, k) and the right at (k, q). A bias vector
  cast to one row and broadcast over the rows reads its entry q at every (p, q).
-/
import proofs.«419162_j62646392980003_1_alg».proof.Proof.Gen.KernelIdeal.Skeleton
import proofs.«419162_j62646392980003_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen Gin.Spec Idealize.ShloMosaic Idealize.ShloMosaic.ValueIdx

/-! ## A tile of 5000 rows times a 64 × 64 matrix -/

/-- The left operand's row coordinate is the output's row. -/
theorem lhs_tile_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the contraction index. -/
theorem lhs_tile_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the contraction index. -/
theorem rhs_tile_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the output's column. -/
theorem rhs_tile_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator, at (p, q): the sum over k of the left operand at (p, k) times the right at (k, q). -/
theorem matmul_tile_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_tile_0 _ _).trans hk
    | ⟨1, _⟩ => exact rhs_tile_1 _ _)
  rw [el, er]

/-! ## The 256 pooled rows times a 64 × 64 matrix -/

/-- The left operand's row coordinate is the output's row. -/
theorem lhs_pool_0 (i : S256x64.Idx) (q : dot_S256x64_S64x64_S256x64_1_0_0_1_n_n.contr.Idx) :
    (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
/-- The left operand's column coordinate is the contraction index. -/
theorem lhs_pool_1 (i : S256x64.Idx) (q : dot_S256x64_S64x64_S256x64_1_0_0_1_n_n.contr.Idx) :
    (dot_S256x64_S64x64_S256x64_1_0_0_1_n_n.lhsIdx i q 1).val = (q ⟨0, by decide⟩).val :=
  dot_S256x64_S64x64_S256x64_1_0_0_1_n_n.lhsIdx_val_of_single rfl i q
/-- The right operand's row coordinate is the contraction index. -/
theorem rhs_pool_0 (i : S256x64.Idx) (q : dot_S256x64_S64x64_S256x64_1_0_0_1_n_n.contr.Idx) :
    (dot_S256x64_S64x64_S256x64_1_0_0_1_n_n.rhsIdx i q 0).val = (q ⟨0, by decide⟩).val :=
  dot_S256x64_S64x64_S256x64_1_0_0_1_n_n.rhsIdx_val_of_single rfl i q
/-- The right operand's column coordinate is the output's column. -/
theorem rhs_pool_1 (i : S256x64.Idx) (q : dot_S256x64_S64x64_S256x64_1_0_0_1_n_n.contr.Idx) :
    (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

/-- The product into a zero accumulator, at (p, q): the sum over k of the left operand at (p, k) times the right at (k, q). -/
theorem matmul_pool_apply (l : FVec Ideal S256x64 .bf16) (r : FVec Ideal S64x64 .bf16) (p : Fin 256) (q : Fin 64) :
    matmul dot_S256x64_S64x64_S256x64_1_0_0_1_n_n none l r (constant (F := Ideal) S256x64 .f32 0x00000000#32) (ix2 p q)
      = ∑ k : Fin 64, l (ix2 p k) * r (ix2 k q) := by
  simp only [matmul]
  rw [Ideal.matmul_constant_zero_apply, ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 p q) ((contrEquiv1 dot_S256x64_S64x64_S256x64_1_0_0_1_n_n 64 rfl rfl).symm k) = ix2 p k := funext fun a => Fin.ext (by
    match a with
    | ⟨0, _⟩ => exact lhs_pool_0 _ _
    | ⟨1, _⟩ => exact (lhs_pool_1 _ _).trans hk)
  have er : dot_S256x64_S64x64_S256x64_1_0_0_1_n_n.rhsIdx (ix2 p q) ((contrEquiv1 dot_S256x64_S64x64_S256x64_1_0_0_1_n_n 64 rfl rfl).symm k) = ix2 k q := funext fun a => Fin.ext (by
    match a with
    | ⟨0, _⟩ => exact (rhs_pool_0 _ _).trans hk
    | ⟨1, _⟩ => exact rhs_pool_1 _ _)
  rw [el, er]

/-! ## A bias vector spread over the rows -/

/-- A 64-vector cast to one row and broadcast over 5000 rows reads, at (p, q), its entry q. -/
theorem bias_tile_apply (b : FVec Ideal S64 .f32) (p : Fin 5000) (q : Fin 64) :
    broadcastTo S5000x64 (shapeCast S1x64 b shapeCasts_S64_S1x64) broadcasts_S1x64_S5000x64 (ix2 p q) = b (ix1 q) := by
  rw [broadcastTo_1b_ab_apply, shapeCast_a_1a_apply]

/-- The same over the 256 pooled rows. -/
theorem bias_pool_apply (b : FVec Ideal S64 .f32) (g : Fin 256) (q : Fin 64) :
    broadcastTo S256x64 (shapeCast S1x64 b shapeCasts_S64_S1x64) broadcasts_S1x64_S256x64 (ix2 g q) = b (ix1 q) := by
  rw [broadcastTo_1b_ab_apply, shapeCast_a_1a_apply]

/-! ## The counts' column spread over the features -/

/-- A 256 × 1 column broadcast over 64 columns reads, at (g, j), its entry (g, 0). -/
theorem count_col_apply (c : FVec Ideal S256x1 .f32) (g : Fin 256) (j : Fin 64) :
    broadcastTo S256x64 c broadcasts_S256x1_S256x64 (ix2 g j) = c (ix2 g (0 : Fin 1)) := by
  refine broadcastTo_apply c broadcasts_S256x1_S256x64 (ix2 g j) (ix2 g (0 : Fin 1)) fun ax => ?_
  match ax with
  | ⟨0, _⟩ => rfl
  | ⟨1, _⟩ => rfl

/-! ## The five layer bodies -/

/-- Layer 1's body at (p, q). -/
theorem k1_pay1_apply (x0 x1 : Vec Ideal S5000x64 .f32) (W1 : Vec Ideal S64x64 .f32) (b1 : Vec Ideal S64 .f32) (W2 : Vec Ideal S64x64 .f32) (b2 : Vec Ideal S64 .f32) (p : Fin 5000) (q : Fin 64) :
    k1_pay1 (F := Ideal) x0 x1 W1 b1 W2 b2 (ix2 p q) = mlpRow (fun j => x0 (ix2 p j) + x1 (ix2 p j)) (fun j k => W1 (ix2 j k)) (fun k => b1 (ix1 k)) (fun k q' => W2 (ix2 k q')) (fun q' => b2 (ix1 q')) q := by
  unfold k1_pay1 mlpRow
  simp only [shapeCast_self]
  rw [addf_apply, matmul_tile_apply, bias_tile_apply]
  refine congrArg (· + b2 (ix1 q)) (Finset.sum_congr rfl fun k _ => ?_)
  rw [truncf_apply, truncf_apply, maximumf_apply, addf_apply, matmul_tile_apply, bias_tile_apply, broadcast_apply,
    Ideal.ofBits_def, Ideal.ofBits_zero_f32]
  refine congrArg (fun s => max (s + b1 (ix1 k)) 0 * W2 (ix2 k q)) (Finset.sum_congr rfl fun j _ => ?_)
  rw [truncf_apply, truncf_apply, addf_apply]

/-- Layer 0's body (its first operand arrives without a cast) at (p, q). -/
theorem k0_pay1_apply (x0 x1 : Vec Ideal S5000x64 .f32) (W1 : Vec Ideal S64x64 .f32) (b1 : Vec Ideal S64 .f32) (W2 : Vec Ideal S64x64 .f32) (b2 : Vec Ideal S64 .f32) (p : Fin 5000) (q : Fin 64) :
    k0_pay1 (F := Ideal) x0 x1 W1 b1 W2 b2 (ix2 p q) = mlpRow (fun j => x0 (ix2 p j) + x1 (ix2 p j)) (fun j k => W1 (ix2 j k)) (fun k => b1 (ix1 k)) (fun k q' => W2 (ix2 k q')) (fun q' => b2 (ix1 q')) q := by
  unfold k0_pay1 mlpRow
  simp only [shapeCast_self]
  rw [addf_apply, matmul_tile_apply, bias_tile_apply]
  refine congrArg (· + b2 (ix1 q)) (Finset.sum_congr rfl fun k _ => ?_)
  rw [truncf_apply, truncf_apply, maximumf_apply, addf_apply, matmul_tile_apply, bias_tile_apply, broadcast_apply,
    Ideal.ofBits_def, Ideal.ofBits_zero_f32]
  refine congrArg (fun s => max (s + b1 (ix1 k)) 0 * W2 (ix2 k q)) (Finset.sum_congr rfl fun j _ => ?_)
  rw [truncf_apply, truncf_apply, addf_apply]

/-- Layer 2's body at (p, q). -/
theorem k2_pay1_apply (x0 x1 : Vec Ideal S5000x64 .f32) (W1 : Vec Ideal S64x64 .f32) (b1 : Vec Ideal S64 .f32) (W2 : Vec Ideal S64x64 .f32) (b2 : Vec Ideal S64 .f32) (p : Fin 5000) (q : Fin 64) :
    k2_pay1 (F := Ideal) x0 x1 W1 b1 W2 b2 (ix2 p q) = mlpRow (fun j => x0 (ix2 p j) + x1 (ix2 p j)) (fun j k => W1 (ix2 j k)) (fun k => b1 (ix1 k)) (fun k q' => W2 (ix2 k q')) (fun q' => b2 (ix1 q')) q := by
  unfold k2_pay1 mlpRow
  simp only [shapeCast_self]
  rw [addf_apply, matmul_tile_apply, bias_tile_apply]
  refine congrArg (· + b2 (ix1 q)) (Finset.sum_congr rfl fun k _ => ?_)
  rw [truncf_apply, truncf_apply, maximumf_apply, addf_apply, matmul_tile_apply, bias_tile_apply, broadcast_apply,
    Ideal.ofBits_def, Ideal.ofBits_zero_f32]
  refine congrArg (fun s => max (s + b1 (ix1 k)) 0 * W2 (ix2 k q)) (Finset.sum_congr rfl fun j _ => ?_)
  rw [truncf_apply, truncf_apply, addf_apply]

/-- Layer 3's body at (p, q). -/
theorem k3_pay1_apply (x0 x1 : Vec Ideal S5000x64 .f32) (W1 : Vec Ideal S64x64 .f32) (b1 : Vec Ideal S64 .f32) (W2 : Vec Ideal S64x64 .f32) (b2 : Vec Ideal S64 .f32) (p : Fin 5000) (q : Fin 64) :
    k3_pay1 (F := Ideal) x0 x1 W1 b1 W2 b2 (ix2 p q) = mlpRow (fun j => x0 (ix2 p j) + x1 (ix2 p j)) (fun j k => W1 (ix2 j k)) (fun k => b1 (ix1 k)) (fun k q' => W2 (ix2 k q')) (fun q' => b2 (ix1 q')) q := by
  unfold k3_pay1 mlpRow
  simp only [shapeCast_self]
  rw [addf_apply, matmul_tile_apply, bias_tile_apply]
  refine congrArg (· + b2 (ix1 q)) (Finset.sum_congr rfl fun k _ => ?_)
  rw [truncf_apply, truncf_apply, maximumf_apply, addf_apply, matmul_tile_apply, bias_tile_apply, broadcast_apply,
    Ideal.ofBits_def, Ideal.ofBits_zero_f32]
  refine congrArg (fun s => max (s + b1 (ix1 k)) 0 * W2 (ix2 k q)) (Finset.sum_congr rfl fun j _ => ?_)
  rw [truncf_apply, truncf_apply, addf_apply]

/-- Layer 4's body at (p, q). -/
theorem k4_pay1_apply (x0 x1 : Vec Ideal S5000x64 .f32) (W1 : Vec Ideal S64x64 .f32) (b1 : Vec Ideal S64 .f32) (W2 : Vec Ideal S64x64 .f32) (b2 : Vec Ideal S64 .f32) (p : Fin 5000) (q : Fin 64) :
    k4_pay1 (F := Ideal) x0 x1 W1 b1 W2 b2 (ix2 p q) = mlpRow (fun j => x0 (ix2 p j) + x1 (ix2 p j)) (fun j k => W1 (ix2 j k)) (fun k => b1 (ix1 k)) (fun k q' => W2 (ix2 k q')) (fun q' => b2 (ix1 q')) q := by
  unfold k4_pay1 mlpRow
  simp only [shapeCast_self]
  rw [addf_apply, matmul_tile_apply, bias_tile_apply]
  refine congrArg (· + b2 (ix1 q)) (Finset.sum_congr rfl fun k _ => ?_)
  rw [truncf_apply, truncf_apply, maximumf_apply, addf_apply, matmul_tile_apply, bias_tile_apply, broadcast_apply,
    Ideal.ofBits_def, Ideal.ofBits_zero_f32]
  refine congrArg (fun s => max (s + b1 (ix1 k)) 0 * W2 (ix2 k q)) (Finset.sum_congr rfl fun j _ => ?_)
  rw [truncf_apply, truncf_apply, addf_apply]

/-! ## The readout body -/

/-- The readout body at (g, q): the perceptron of the pooled row g. -/
theorem k5_pay6_apply (S : Vec Ideal S256x64 .f32) (C : Vec Ideal S256x1 .f32) (W1 : Vec Ideal S64x64 .f32) (b1 : Vec Ideal S64 .f32) (W2 : Vec Ideal S64x64 .f32) (b2 : Vec Ideal S64 .f32) (g : Fin 256) (q : Fin 64) :
    k5_pay6 (F := Ideal) S C W1 b1 W2 b2 (ix2 g q) = mlpRow (fun j => Ideal.div (S (ix2 g j)) (max (C (ix2 g (0 : Fin 1))) 1)) (fun j k => W1 (ix2 j k)) (fun k => b1 (ix1 k)) (fun k q' => W2 (ix2 k q')) (fun q' => b2 (ix1 q')) q := by
  unfold k5_pay6 mlpRow
  rw [addf_apply, matmul_pool_apply, bias_pool_apply]
  refine congrArg (· + b2 (ix1 q)) (Finset.sum_congr rfl fun k _ => ?_)
  rw [truncf_apply, truncf_apply, maximumf_apply, addf_apply, matmul_pool_apply, bias_pool_apply, broadcast_apply,
    Ideal.ofBits_def (φ := .f32) 0x00000000#32, Ideal.ofBits_zero_f32]
  refine congrArg (fun s => max (s + b1 (ix1 k)) 0 * W2 (ix2 k q)) (Finset.sum_congr rfl fun j _ => ?_)
  rw [truncf_apply, truncf_apply, divf_apply, count_col_apply, maximumf_apply, broadcast_apply,
    Ideal.ofBits_def, Ideal.ofBits_one_f32]

end Cert.KernelIdeal.Hand

end
-- ==== Proof.KI.MlpValue0.lean ====
/-
  Region 0 of the program, read as a value: what one layer's dense update leaves in its output array, as ONE function of
  the six arrays the region reads. The grid has 20 tiles of 5000 node rows. At tile t the output block is the two-layer
  perceptron of "features plus summed neighbour features" on the tile's rows, with the layer's two weight matrices and two
  bias vectors read whole. Row p of tile t is row 5000 t + p of the array, and a weight or bias block is its whole array, so
  what tile t writes back is tile t of the whole-array function  (r, q) ↦ mlpRow (h r + a r) W₁ b₁ W₂ b₂ q.  The tiles cover
  the array (row r lies in tile r / 5000), so after the region the output array is that function.
-/
import proofs.«419162_j62646392980003_1_alg».proof.Proof.KI.Mlp0
import proofs.«419162_j62646392980003_1_alg».proof.Proof.KI.MlpPay
import proofs.«419162_j62646392980003_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Gin.Spec

-- the buffer contents when the region is entered, at the extended reals
variable (V : (c : Dev nD) → (b : Ref sig .tc) → Buf (Elt Ideal) ((c : Thread nD τ).loc b))

/-- The zero offsets of a whole-buffer access, rank 2 and rank 1. -/
theorem hz0 : (![0, 0] : Fin 2 → Nat) = (fun _ => 0) ∧ (![0] : Fin 1 → Nat) = (fun _ => 0) :=
  ⟨funext fun a => by fin_cases a <;> rfl, funext fun a => by fin_cases a <;> rfl⟩

/-- The layer's update as one function of the six arrays the region reads, index by index. -/
def mlpArr0 (c : Dev nD) : S100000x64.Idx → EReal := fun i =>
  mlpRow (fun j => HAdd.hAdd (α := EReal) (β := EReal) (γ := EReal) ((V c (Pipeline.arrRef spec0 0) : S100000x64.Idx → EReal) (ix2 (i 0) j)) ((V c (Pipeline.arrRef spec0 1) : S100000x64.Idx → EReal) (ix2 (i 0) j)))
    (fun j k => (V c (Pipeline.arrRef spec0 2) : S64x64.Idx → EReal) (ix2 j k)) (fun k => (V c (Pipeline.arrRef spec0 3) : S64.Idx → EReal) (ix1 k))
    (fun k q' => (V c (Pipeline.arrRef spec0 4) : S64x64.Idx → EReal) (ix2 k q')) (fun q' => (V c (Pipeline.arrRef spec0 5) : S64.Idx → EReal) (ix1 q')) (i 1)

theorem mlpArr0_apply (c : Dev nD) (r : Fin 100000) (q : Fin 64) :
    mlpArr0 V c (ix2 r q) = mlpRow (fun j => HAdd.hAdd (α := EReal) (β := EReal) (γ := EReal) ((V c (Pipeline.arrRef spec0 0) : S100000x64.Idx → EReal) (ix2 r j)) ((V c (Pipeline.arrRef spec0 1) : S100000x64.Idx → EReal) (ix2 r j)))
      (fun j k => (V c (Pipeline.arrRef spec0 2) : S64x64.Idx → EReal) (ix2 j k)) (fun k => (V c (Pipeline.arrRef spec0 3) : S64.Idx → EReal) (ix1 k))
      (fun k q' => (V c (Pipeline.arrRef spec0 4) : S64x64.Idx → EReal) (ix2 k q')) (fun q' => (V c (Pipeline.arrRef spec0 5) : S64.Idx → EReal) (ix1 q')) q := rfl

/-- The windows' block indices over the grid: the two tiled inputs and the output sit at tile t, the weights and biases at
    their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of tile t is row 5000 t + p of the array. -/
def tile0 (t : Fin cfg0.N) (p : Fin 5000) : Fin 100000 :=
  ⟨t.val * 5000 + p.val, by have ht : t.val < 20 := N_0 ▸ t.isLt; have := p.isLt; omega⟩

/-- Window 0's block at tile t, read at row p: the array at row 5000 t + p. -/
theorem iblk0_at_0 (c : Dev nD) (t : Fin cfg0.N) (p : Fin 5000) (j : Fin 64) :
    iblk0 V c 0 t (ix2 p j) = V c (Pipeline.arrRef spec0 0) (ix2 (tile0 t p) j) := by
  obtain ⟨f0a, f0b, f1a, f1b, -⟩ := idx_facts0 t
  show V c (Pipeline.arrRef spec0 0) (((cfg0.win 0).blk t).view.emb (ix2 p j)) = _
  refine congrArg (V c (Pipeline.arrRef spec0 0)) ?_
  funext a; apply Fin.ext
  match a with
  | ⟨0, _⟩ => show win0_0.index t (0 : Fin 2) * 5000 + 1 * p.val = t.val * 5000 + p.val; omega
  | ⟨1, _⟩ => show win0_0.index t (1 : Fin 2) * 64 + 1 * j.val = j.val; omega

/-- Window 1's block at tile t, read at row p: the array at row 5000 t + p. -/
theorem iblk0_at_1 (c : Dev nD) (t : Fin cfg0.N) (p : Fin 5000) (j : Fin 64) :
    iblk0 V c 1 t (ix2 p j) = V c (Pipeline.arrRef spec0 1) (ix2 (tile0 t p) j) := by
  obtain ⟨f0a, f0b, f1a, f1b, -⟩ := idx_facts0 t
  show V c (Pipeline.arrRef spec0 1) (((cfg0.win 1).blk t).view.emb (ix2 p j)) = _
  refine congrArg (V c (Pipeline.arrRef spec0 1)) ?_
  funext a; apply Fin.ext
  match a with
  | ⟨0, _⟩ => show win0_1.index t (0 : Fin 2) * 5000 + 1 * p.val = t.val * 5000 + p.val; omega
  | ⟨1, _⟩ => show win0_1.index t (1 : Fin 2) * 64 + 1 * j.val = j.val; omega

/-- Window 2's block is its whole array at every tile. -/
theorem iblk0_at_2 (c : Dev nD) (t : Fin cfg0.N) (j k : Fin 64) :
    iblk0 V c 2 t (ix2 j k) = V c (Pipeline.arrRef spec0 2) (ix2 j k) := by
  obtain ⟨-, -, -, -, f2a, f2b, -, f4a, f4b, -⟩ := idx_facts0 t
  show V c (Pipeline.arrRef spec0 2) (((cfg0.win 2).blk t).view.emb (ix2 j k)) = _
  refine congrArg (V c (Pipeline.arrRef spec0 2)) ?_
  funext a; apply Fin.ext
  match a with
  | ⟨0, _⟩ => show win0_2.index t (0 : Fin 2) * 64 + 1 * j.val = j.val; omega
  | ⟨1, _⟩ => show win0_2.index t (1 : Fin 2) * 64 + 1 * k.val = k.val; omega

/-- Window 3's block is its whole array at every tile. -/
theorem iblk0_at_3 (c : Dev nD) (t : Fin cfg0.N) (k : Fin 64) :
    iblk0 V c 3 t (ix1 k) = V c (Pipeline.arrRef spec0 3) (ix1 k) := by
  obtain ⟨-, -, -, -, -, -, f3a, -, -, f5a, -⟩ := idx_facts0 t
  show V c (Pipeline.arrRef spec0 3) (((cfg0.win 3).blk t).view.emb (ix1 k)) = _
  refine congrArg (V c (Pipeline.arrRef spec0 3)) ?_
  funext a; apply Fin.ext
  match a with
  | ⟨0, _⟩ => show win0_3.index t (0 : Fin 1) * 64 + 1 * k.val = k.val; omega

/-- Window 4's block is its whole array at every tile. -/
theorem iblk0_at_4 (c : Dev nD) (t : Fin cfg0.N) (j k : Fin 64) :
    iblk0 V c 4 t (ix2 j k) = V c (Pipeline.arrRef spec0 4) (ix2 j k) := by
  obtain ⟨-, -, -, -, f2a, f2b, -, f4a, f4b, -⟩ := idx_facts0 t
  show V c (Pipeline.arrRef spec0 4) (((cfg0.win 4).blk t).view.emb (ix2 j k)) = _
  refine congrArg (V c (Pipeline.arrRef spec0 4)) ?_
  funext a; apply Fin.ext
  match a with
  | ⟨0, _⟩ => show win0_4.index t (0 : Fin 2) * 64 + 1 * j.val = j.val; omega
  | ⟨1, _⟩ => show win0_4.index t (1 : Fin 2) * 64 + 1 * k.val = k.val; omega

/-- Window 5's block is its whole array at every tile. -/
theorem iblk0_at_5 (c : Dev nD) (t : Fin cfg0.N) (k : Fin 64) :
    iblk0 V c 5 t (ix1 k) = V c (Pipeline.arrRef spec0 5) (ix1 k) := by
  obtain ⟨-, -, -, -, -, -, f3a, -, -, f5a, -⟩ := idx_facts0 t
  show V c (Pipeline.arrRef spec0 5) (((cfg0.win 5).blk t).view.emb (ix1 k)) = _
  refine congrArg (V c (Pipeline.arrRef spec0 5)) ?_
  funext a; apply Fin.ext
  match a with
  | ⟨0, _⟩ => show win0_5.index t (0 : Fin 1) * 64 + 1 * k.val = k.val; omega

/-- What tile t writes back is tile t of the layer's update of the six arrays. -/
theorem flushed_eq0 (c : Dev nD) (t : Fin cfg0.N) :
    (dat0 V c).flushed 6 t = ((cfg0.win 6).blk t).view.read (Elt Ideal) (mlpArr0 V c) := by
  show (cfg0.win 6).cut (grid0.coords t) ((dat0 V c).after 6 t) = _
  rw [after0_6]
  unfold out0_6
  rw [View.canon_unit_zero hz0.1]
  simp only [View.ld_unit_zero (S := S5000x64) hz0.1, View.ld_unit_zero (S := S64x64) hz0.1, View.ld_unit_zero (S := S64) hz0.2]
  obtain ⟨-, -, -, -, -, -, -, -, -, -, f6a, f6b⟩ := idx_facts0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q) = mlpArr0 V c (((cfg0.win 6).blk t).view.emb (ix2 p q))
  have hemb : ((cfg0.win 6).blk t).view.emb (ix2 p q) = ix2 (tile0 t p) q := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  rw [hemb, mlpArr0_apply, k0_pay1_apply]
  simp only [iblk0_at_0, iblk0_at_1, iblk0_at_2, iblk0_at_3, iblk0_at_4, iblk0_at_5]

/-- An index of the array is in tile t iff each coordinate is in the tile's range on its axis. -/
theorem mem_tile0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole (Pipeline.arrRef spec0 6)).slice (win0_6.rect t)).set ↔ _
  rw [View.set_slice_whole, Rect.mem_set_unit]
  exact Iff.rfl

/-- The tiles cover the array: row r is in tile r / 5000. -/
theorem cover_rows0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by rw [show cfg0.N = 20 from N_0]; omega⟩, rfl⟩
  obtain ⟨-, -, -, -, -, -, -, -, -, -, f6a, f6b⟩ := idx_facts0 t
  refine ⟨t, flush0_6 t, ?_⟩
  rw [mem_tile0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- After the region's run the output array holds the layer's update of the six arrays, whole. -/
theorem mlpFinal0 (c : Dev nD) : ((dat0 V c).arrAt 6 cfg0.N : S100000x64.Idx → EReal) = mlpArr0 V c :=
  (dat0 V c).arrAt_eq_of_cover 6 (mlpArr0 V c) (fun t _ => flushed_eq0 V c t) cover_rows0

end Cert.KernelIdeal.Hand

end
-- ==== Proof.KI.MlpValue1.lean ====
/-
  Region 1 of the program, read as a value: what one layer's dense update leaves in its output array, as ONE function of
  the six arrays the region reads. The grid has 20 tiles of 5000 node rows. At tile t the output block is the two-layer
  perceptron of "features plus summed neighbour features" on the tile's rows, with the layer's two weight matrices and two
  bias vectors read whole. Row p of tile t is row 5000 t + p of the array, and a weight or bias block is its whole array, so
  what tile t writes back is tile t of the whole-array function  (r, q) ↦ mlpRow (h r + a r) W₁ b₁ W₂ b₂ q.  The tiles cover
  the array (row r lies in tile r / 5000), so after the region the output array is that function.
-/
import proofs.«419162_j62646392980003_1_alg».proof.Proof.KI.Mlp1
import proofs.«419162_j62646392980003_1_alg».proof.Proof.KI.MlpPay
import proofs.«419162_j62646392980003_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Gin.Spec

-- the buffer contents when the region is entered, at the extended reals
variable (V : (c : Dev nD) → (b : Ref sig .tc) → Buf (Elt Ideal) ((c : Thread nD τ).loc b))

/-- The zero offsets of a whole-buffer access, rank 2 and rank 1. -/
theorem hz1 : (![0, 0] : Fin 2 → Nat) = (fun _ => 0) ∧ (![0] : Fin 1 → Nat) = (fun _ => 0) :=
  ⟨funext fun a => by fin_cases a <;> rfl, funext fun a => by fin_cases a <;> rfl⟩

/-- The layer's update as one function of the six arrays the region reads, index by index. -/
def mlpArr1 (c : Dev nD) : S100000x64.Idx → EReal := fun i =>
  mlpRow (fun j => HAdd.hAdd (α := EReal) (β := EReal) (γ := EReal) ((V c (Pipeline.arrRef spec1 0) : S100000x64.Idx → EReal) (ix2 (i 0) j)) ((V c (Pipeline.arrRef spec1 1) : S100000x64.Idx → EReal) (ix2 (i 0) j)))
    (fun j k => (V c (Pipeline.arrRef spec1 2) : S64x64.Idx → EReal) (ix2 j k)) (fun k => (V c (Pipeline.arrRef spec1 3) : S64.Idx → EReal) (ix1 k))
    (fun k q' => (V c (Pipeline.arrRef spec1 4) : S64x64.Idx → EReal) (ix2 k q')) (fun q' => (V c (Pipeline.arrRef spec1 5) : S64.Idx → EReal) (ix1 q')) (i 1)

theorem mlpArr1_apply (c : Dev nD) (r : Fin 100000) (q : Fin 64) :
    mlpArr1 V c (ix2 r q) = mlpRow (fun j => HAdd.hAdd (α := EReal) (β := EReal) (γ := EReal) ((V c (Pipeline.arrRef spec1 0) : S100000x64.Idx → EReal) (ix2 r j)) ((V c (Pipeline.arrRef spec1 1) : S100000x64.Idx → EReal) (ix2 r j)))
      (fun j k => (V c (Pipeline.arrRef spec1 2) : S64x64.Idx → EReal) (ix2 j k)) (fun k => (V c (Pipeline.arrRef spec1 3) : S64.Idx → EReal) (ix1 k))
      (fun k q' => (V c (Pipeline.arrRef spec1 4) : S64x64.Idx → EReal) (ix2 k q')) (fun q' => (V c (Pipeline.arrRef spec1 5) : S64.Idx → EReal) (ix1 q')) q := rfl

/-- The windows' block indices over the grid: the two tiled inputs and the output sit at tile t, the weights and biases at
    their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row p of tile t is row 5000 t + p of the array. -/
def tile1 (t : Fin cfg1.N) (p : Fin 5000) : Fin 100000 :=
  ⟨t.val * 5000 + p.val, by have ht : t.val < 20 := N_1 ▸ t.isLt; have := p.isLt; omega⟩

/-- Window 0's block at tile t, read at row p: the array at row 5000 t + p. -/
theorem iblk1_at_0 (c : Dev nD) (t : Fin cfg1.N) (p : Fin 5000) (j : Fin 64) :
    iblk1 V c 0 t (ix2 p j) = V c (Pipeline.arrRef spec1 0) (ix2 (tile1 t p) j) := by
  obtain ⟨f0a, f0b, f1a, f1b, -⟩ := idx_facts1 t
  show V c (Pipeline.arrRef spec1 0) (((cfg1.win 0).blk t).view.emb (ix2 p j)) = _
  refine congrArg (V c (Pipeline.arrRef spec1 0)) ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * j.val = j.val; omega

/-- Window 1's block at tile t, read at row p: the array at row 5000 t + p. -/
theorem iblk1_at_1 (c : Dev nD) (t : Fin cfg1.N) (p : Fin 5000) (j : Fin 64) :
    iblk1 V c 1 t (ix2 p j) = V c (Pipeline.arrRef spec1 1) (ix2 (tile1 t p) j) := by
  obtain ⟨f0a, f0b, f1a, f1b, -⟩ := idx_facts1 t
  show V c (Pipeline.arrRef spec1 1) (((cfg1.win 1).blk t).view.emb (ix2 p j)) = _
  refine congrArg (V c (Pipeline.arrRef spec1 1)) ?_
  funext a; apply Fin.ext
  match a with
  | ⟨0, _⟩ => show win1_1.index t (0 : Fin 2) * 5000 + 1 * p.val = t.val * 5000 + p.val; omega
  | ⟨1, _⟩ => show win1_1.index t (1 : Fin 2) * 64 + 1 * j.val = j.val; omega

/-- Window 2's block is its whole array at every tile. -/
theorem iblk1_at_2 (c : Dev nD) (t : Fin cfg1.N) (j k : Fin 64) :
    iblk1 V c 2 t (ix2 j k) = V c (Pipeline.arrRef spec1 2) (ix2 j k) := by
  obtain ⟨-, -, -, -, f2a, f2b, -, f4a, f4b, -⟩ := idx_facts1 t
  show V c (Pipeline.arrRef spec1 2) (((cfg1.win 2).blk t).view.emb (ix2 j k)) = _
  refine congrArg (V c (Pipeline.arrRef spec1 2)) ?_
  funext a; apply Fin.ext
  match a with
  | ⟨0, _⟩ => show win1_2.index t (0 : Fin 2) * 64 + 1 * j.val = j.val; omega
  | ⟨1, _⟩ => show win1_2.index t (1 : Fin 2) * 64 + 1 * k.val = k.val; omega

/-- Window 3's block is its whole array at every tile. -/
theorem iblk1_at_3 (c : Dev nD) (t : Fin cfg1.N) (k : Fin 64) :
    iblk1 V c 3 t (ix1 k) = V c (Pipeline.arrRef spec1 3) (ix1 k) := by
  obtain ⟨-, -, -, -, -, -, f3a, -, -, f5a, -⟩ := idx_facts1 t
  show V c (Pipeline.arrRef spec1 3) (((cfg1.win 3).blk t).view.emb (ix1 k)) = _
  refine congrArg (V c (Pipeline.arrRef spec1 3)) ?_
  funext a; apply Fin.ext
  match a with
  | ⟨0, _⟩ => show win1_3.index t (0 : Fin 1) * 64 + 1 * k.val = k.val; omega

/-- Window 4's block is its whole array at every tile. -/
theorem iblk1_at_4 (c : Dev nD) (t : Fin cfg1.N) (j k : Fin 64) :
    iblk1 V c 4 t (ix2 j k) = V c (Pipeline.arrRef spec1 4) (ix2 j k) := by
  obtain ⟨-, -, -, -, f2a, f2b, -, f4a, f4b, -⟩ := idx_facts1 t
  show V c (Pipeline.arrRef spec1 4) (((cfg1.win 4).blk t).view.emb (ix2 j k)) = _
  refine congrArg (V c (Pipeline.arrRef spec1 4)) ?_
  funext a; apply Fin.ext
  match a with
  | ⟨0, _⟩ => show win1_4.index t (0 : Fin 2) * 64 + 1 * j.val = j.val; omega
  | ⟨1, _⟩ => show win1_4.index t (1 : Fin 2) * 64 + 1 * k.val = k.val; omega

/-- Window 5's block is its whole array at every tile. -/
theorem iblk1_at_5 (c : Dev nD) (t : Fin cfg1.N) (k : Fin 64) :
    iblk1 V c 5 t (ix1 k) = V c (Pipeline.arrRef spec1 5) (ix1 k) := by
  obtain ⟨-, -, -, -, -, -, f3a, -, -, f5a, -⟩ := idx_facts1 t
  show V c (Pipeline.arrRef spec1 5) (((cfg1.win 5).blk t).view.emb (ix1 k)) = _
  refine congrArg (V c (Pipeline.arrRef spec1 5)) ?_
  funext a; apply Fin.ext
  match a with
  | ⟨0, _⟩ => show win1_5.index t (0 : Fin 1) * 64 + 1 * k.val = k.val; omega

/-- What tile t writes back is tile t of the layer's update of the six arrays. -/
theorem flushed_eq1 (c : Dev nD) (t : Fin cfg1.N) :
    (dat1 V c).flushed 6 t = ((cfg1.win 6).blk t).view.read (Elt Ideal) (mlpArr1 V c) := by
  show (cfg1.win 6).cut (grid1.coords t) ((dat1 V c).after 6 t) = _
  rw [after1_6]
  unfold out1_6
  rw [View.canon_unit_zero hz1.1]
  simp only [View.ld_unit_zero (S := S5000x64) hz1.1, View.ld_unit_zero (S := S64x64) hz1.1, View.ld_unit_zero (S := S64) hz1.2]
  obtain ⟨-, -, -, -, -, -, -, -, -, -, f6a, f6b⟩ := idx_facts1 t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q) = mlpArr1 V c (((cfg1.win 6).blk t).view.emb (ix2 p q))
  have hemb : ((cfg1.win 6).blk t).view.emb (ix2 p q) = ix2 (tile1 t p) q := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * q.val = q.val; omega
  rw [hemb, mlpArr1_apply, k1_pay1_apply]
  simp only [iblk1_at_0, iblk1_at_1, iblk1_at_2, iblk1_at_3, iblk1_at_4, iblk1_at_5]

/-- An index of the array is in tile t iff each coordinate is in the tile's range on its axis. -/
theorem mem_tile1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole (Pipeline.arrRef spec1 6)).slice (win1_6.rect t)).set ↔ _
  rw [View.set_slice_whole, Rect.mem_set_unit]
  exact Iff.rfl

/-- The tiles cover the array: row r is in tile r / 5000. -/
theorem cover_rows1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [show cfg1.N = 20 from N_1]; omega⟩, rfl⟩
  obtain ⟨-, -, -, -, -, -, -, -, -, -, f6a, f6b⟩ := idx_facts1 t
  refine ⟨t, flush1_6 t, ?_⟩
  rw [mem_tile1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- After the region's run the output array holds the layer's update of the six arrays, whole. -/
theorem mlpFinal1 (c : Dev nD) : ((dat1 V c).arrAt 6 cfg1.N : S100000x64.Idx → EReal) = mlpArr1 V c :=
  (dat1 V c).arrAt_eq_of_cover 6 (mlpArr1 V c) (fun t _ => flushed_eq1 V c t) cover_rows1

end Cert.KernelIdeal.Hand

end
-- ==== Proof.KI.MlpValue2.lean ====
/-
  Region 2 of the program, read as a value: what one layer's dense update leaves in its output array, as ONE function of
  the six arrays the region reads. The grid has 20 tiles of 5000 node rows. At tile t the output block is the two-layer
  perceptron of "features plus summed neighbour features" on the tile's rows, with the layer's two weight matrices and two
  bias vectors read whole. Row p of tile t is row 5000 t + p of the array, and a weight or bias block is its whole array, so
  what tile t writes back is tile t of the whole-array function  (r, q) ↦ mlpRow (h r + a r) W₁ b₁ W₂ b₂ q.  The tiles cover
  the array (row r lies in tile r / 5000), so after the region the output array is that function.
-/
import proofs.«419162_j62646392980003_1_alg».proof.Proof.KI.Mlp2
import proofs.«419162_j62646392980003_1_alg».proof.Proof.KI.MlpPay
import proofs.«419162_j62646392980003_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Gin.Spec

-- the buffer contents when the region is entered, at the extended reals
variable (V : (c : Dev nD) → (b : Ref sig .tc) → Buf (Elt Ideal) ((c : Thread nD τ).loc b))

/-- The zero offsets of a whole-buffer access, rank 2 and rank 1. -/
theorem hz2 : (![0, 0] : Fin 2 → Nat) = (fun _ => 0) ∧ (![0] : Fin 1 → Nat) = (fun _ => 0) :=
  ⟨funext fun a => by fin_cases a <;> rfl, funext fun a => by fin_cases a <;> rfl⟩

/-- The layer's update as one function of the six arrays the region reads, index by index. -/
def mlpArr2 (c : Dev nD) : S100000x64.Idx → EReal := fun i =>
  mlpRow (fun j => HAdd.hAdd (α := EReal) (β := EReal) (γ := EReal) ((V c (Pipeline.arrRef spec2 0) : S100000x64.Idx → EReal) (ix2 (i 0) j)) ((V c (Pipeline.arrRef spec2 1) : S100000x64.Idx → EReal) (ix2 (i 0) j)))
    (fun j k => (V c (Pipeline.arrRef spec2 2) : S64x64.Idx → EReal) (ix2 j k)) (fun k => (V c (Pipeline.arrRef spec2 3) : S64.Idx → EReal) (ix1 k))
    (fun k q' => (V c (Pipeline.arrRef spec2 4) : S64x64.Idx → EReal) (ix2 k q')) (fun q' => (V c (Pipeline.arrRef spec2 5) : S64.Idx → EReal) (ix1 q')) (i 1)

theorem mlpArr2_apply (c : Dev nD) (r : Fin 100000) (q : Fin 64) :
    mlpArr2 V c (ix2 r q) = mlpRow (fun j => HAdd.hAdd (α := EReal) (β := EReal) (γ := EReal) ((V c (Pipeline.arrRef spec2 0) : S100000x64.Idx → EReal) (ix2 r j)) ((V c (Pipeline.arrRef spec2 1) : S100000x64.Idx → EReal) (ix2 r j)))
      (fun j k => (V c (Pipeline.arrRef spec2 2) : S64x64.Idx → EReal) (ix2 j k)) (fun k => (V c (Pipeline.arrRef spec2 3) : S64.Idx → EReal) (ix1 k))
      (fun k q' => (V c (Pipeline.arrRef spec2 4) : S64x64.Idx → EReal) (ix2 k q')) (fun q' => (V c (Pipeline.arrRef spec2 5) : S64.Idx → EReal) (ix1 q')) q := rfl

/-- The windows' block indices over the grid: the two tiled inputs and the output sit at tile t, the weights and biases at
    their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row p of tile t is row 5000 t + p of the array. -/
def tile2 (t : Fin cfg2.N) (p : Fin 5000) : Fin 100000 :=
  ⟨t.val * 5000 + p.val, by have ht : t.val < 20 := N_2 ▸ t.isLt; have := p.isLt; omega⟩

/-- Window 0's block at tile t, read at row p: the array at row 5000 t + p. -/
theorem iblk2_at_0 (c : Dev nD) (t : Fin cfg2.N) (p : Fin 5000) (j : Fin 64) :
    iblk2 V c 0 t (ix2 p j) = V c (Pipeline.arrRef spec2 0) (ix2 (tile2 t p) j) := by
  obtain ⟨f0a, f0b, f1a, f1b, -⟩ := idx_facts2 t
  show V c (Pipeline.arrRef spec2 0) (((cfg2.win 0).blk t).view.emb (ix2 p j)) = _
  refine congrArg (V c (Pipeline.arrRef spec2 0)) ?_
  funext a; apply Fin.ext
  match a with
  | ⟨0, _⟩ => show win2_0.index t (0 : Fin 2) * 5000 + 1 * p.val = t.val * 5000 + p.val; omega
  | ⟨1, _⟩ => show win2_0.index t (1 : Fin 2) * 64 + 1 * j.val = j.val; omega

/-- Window 1's block at tile t, read at row p: the array at row 5000 t + p. -/
theorem iblk2_at_1 (c : Dev nD) (t : Fin cfg2.N) (p : Fin 5000) (j : Fin 64) :
    iblk2 V c 1 t (ix2 p j) = V c (Pipeline.arrRef spec2 1) (ix2 (tile2 t p) j) := by
  obtain ⟨f0a, f0b, f1a, f1b, -⟩ := idx_facts2 t
  show V c (Pipeline.arrRef spec2 1) (((cfg2.win 1).blk t).view.emb (ix2 p j)) = _
  refine congrArg (V c (Pipeline.arrRef spec2 1)) ?_
  funext a; apply Fin.ext
  match a with
  | ⟨0, _⟩ => show win2_1.index t (0 : Fin 2) * 5000 + 1 * p.val = t.val * 5000 + p.val; omega
  | ⟨1, _⟩ => show win2_1.index t (1 : Fin 2) * 64 + 1 * j.val = j.val; omega

/-- Window 2's block is its whole array at every tile. -/
theorem iblk2_at_2 (c : Dev nD) (t : Fin cfg2.N) (j k : Fin 64) :
    iblk2 V c 2 t (ix2 j k) = V c (Pipeline.arrRef spec2 2) (ix2 j k) := by
  obtain ⟨-, -, -, -, f2a, f2b, -, f4a, f4b, -⟩ := idx_facts2 t
  show V c (Pipeline.arrRef spec2 2) (((cfg2.win 2).blk t).view.emb (ix2 j k)) = _
  refine congrArg (V c (Pipeline.arrRef spec2 2)) ?_
  funext a; apply Fin.ext
  match a with
  | ⟨0, _⟩ => show win2_2.index t (0 : Fin 2) * 64 + 1 * j.val = j.val; omega
  | ⟨1, _⟩ => show win2_2.index t (1 : Fin 2) * 64 + 1 * k.val = k.val; omega

/-- Window 3's block is its whole array at every tile. -/
theorem iblk2_at_3 (c : Dev nD) (t : Fin cfg2.N) (k : Fin 64) :
    iblk2 V c 3 t (ix1 k) = V c (Pipeline.arrRef spec2 3) (ix1 k) := by
  obtain ⟨-, -, -, -, -, -, f3a, -, -, f5a, -⟩ := idx_facts2 t
  show V c (Pipeline.arrRef spec2 3) (((cfg2.win 3).blk t).view.emb (ix1 k)) = _
  refine congrArg (V c (Pipeline.arrRef spec2 3)) ?_
  funext a; apply Fin.ext
  match a with
  | ⟨0, _⟩ => show win2_3.index t (0 : Fin 1) * 64 + 1 * k.val = k.val; omega

/-- Window 4's block is its whole array at every tile. -/
theorem iblk2_at_4 (c : Dev nD) (t : Fin cfg2.N) (j k : Fin 64) :
    iblk2 V c 4 t (ix2 j k) = V c (Pipeline.arrRef spec2 4) (ix2 j k) := by
  obtain ⟨-, -, -, -, f2a, f2b, -, f4a, f4b, -⟩ := idx_facts2 t
  show V c (Pipeline.arrRef spec2 4) (((cfg2.win 4).blk t).view.emb (ix2 j k)) = _
  refine congrArg (V c (Pipeline.arrRef spec2 4)) ?_
  funext a; apply Fin.ext
  match a with
  | ⟨0, _⟩ => show win2_4.index t (0 : Fin 2) * 64 + 1 * j.val = j.val; omega
  | ⟨1, _⟩ => show win2_4.index t (1 : Fin 2) * 64 + 1 * k.val = k.val; omega

/-- Window 5's block is its whole array at every tile. -/
theorem iblk2_at_5 (c : Dev nD) (t : Fin cfg2.N) (k : Fin 64) :
    iblk2 V c 5 t (ix1 k) = V c (Pipeline.arrRef spec2 5) (ix1 k) := by
  obtain ⟨-, -, -, -, -, -, f3a, -, -, f5a, -⟩ := idx_facts2 t
  show V c (Pipeline.arrRef spec2 5) (((cfg2.win 5).blk t).view.emb (ix1 k)) = _
  refine congrArg (V c (Pipeline.arrRef spec2 5)) ?_
  funext a; apply Fin.ext
  match a with
  | ⟨0, _⟩ => show win2_5.index t (0 : Fin 1) * 64 + 1 * k.val = k.val; omega

/-- What tile t writes back is tile t of the layer's update of the six arrays. -/
theorem flushed_eq2 (c : Dev nD) (t : Fin cfg2.N) :
    (dat2 V c).flushed 6 t = ((cfg2.win 6).blk t).view.read (Elt Ideal) (mlpArr2 V c) := by
  show (cfg2.win 6).cut (grid2.coords t) ((dat2 V c).after 6 t) = _
  rw [after2_6]
  unfold out2_6
  rw [View.canon_unit_zero hz2.1]
  simp only [View.ld_unit_zero (S := S5000x64) hz2.1, View.ld_unit_zero (S := S64x64) hz2.1, View.ld_unit_zero (S := S64) hz2.2]
  obtain ⟨-, -, -, -, -, -, -, -, -, -, f6a, f6b⟩ := idx_facts2 t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q) = mlpArr2 V c (((cfg2.win 6).blk t).view.emb (ix2 p q))
  have hemb : ((cfg2.win 6).blk t).view.emb (ix2 p q) = ix2 (tile2 t p) q := by
    funext a; apply Fin.ext
    match a with
    | ⟨0, _⟩ => show win2_6.index t (0 : Fin 2) * 5000 + 1 * p.val = t.val * 5000 + p.val; omega
    | ⟨1, _⟩ => show win2_6.index t (1 : Fin 2) * 64 + 1 * q.val = q.val; omega
  rw [hemb, mlpArr2_apply, k2_pay1_apply]
  simp only [iblk2_at_0, iblk2_at_1, iblk2_at_2, iblk2_at_3, iblk2_at_4, iblk2_at_5]

/-- An index of the array is in tile t iff each coordinate is in the tile's range on its axis. -/
theorem mem_tile2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole (Pipeline.arrRef spec2 6)).slice (win2_6.rect t)).set ↔ _
  rw [View.set_slice_whole, Rect.mem_set_unit]
  exact Iff.rfl

/-- The tiles cover the array: row r is in tile r / 5000. -/
theorem cover_rows2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ : ∃ t : Fin cfg2.N, t.val = (i 0).val / 5000 := ⟨⟨(i 0).val / 5000, by rw [show cfg2.N = 20 from N_2]; omega⟩, rfl⟩
  obtain ⟨-, -, -, -, -, -, -, -, -, -, f6a, f6b⟩ := idx_facts2 t
  refine ⟨t, flush2_6 t, ?_⟩
  rw [mem_tile2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- After the region's run the output array holds the layer's update of the six arrays, whole. -/
theorem mlpFinal2 (c : Dev nD) : ((dat2 V c).arrAt 6 cfg2.N : S100000x64.Idx → EReal) = mlpArr2 V c :=
  (dat2 V c).arrAt_eq_of_cover 6 (mlpArr2 V c) (fun t _ => flushed_eq2 V c t) cover_rows2

end Cert.KernelIdeal.Hand

end
-- ==== Proof.KI.MlpValue3.lean ====
/-
  Region 3 of the program, read as a value: what one layer's dense update leaves in its output array, as ONE function of
  the six arrays the region reads. The grid has 20 tiles of 5000 node rows. At tile t the output block is the two-layer
  perceptron of "features plus summed neighbour features" on the tile's rows, with the layer's two weight matrices and two
  bias vectors read whole. Row p of tile t is row 5000 t + p of the array, and a weight or bias block is its whole array, so
  what tile t writes back is tile t of the whole-array function  (r, q) ↦ mlpRow (h r + a r) W₁ b₁ W₂ b₂ q.  The tiles cover
  the array (row r lies in tile r / 5000), so after the region the output array is that function.
-/
import proofs.«419162_j62646392980003_1_alg».proof.Proof.KI.Mlp3
import proofs.«419162_j62646392980003_1_alg».proof.Proof.KI.MlpPay
import proofs.«419162_j62646392980003_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Gin.Spec

-- the buffer contents when the region is entered, at the extended reals
variable (V : (c : Dev nD) → (b : Ref sig .tc) → Buf (Elt Ideal) ((c : Thread nD τ).loc b))

/-- The zero offsets of a whole-buffer access, rank 2 and rank 1. -/
theorem hz3 : (![0, 0] : Fin 2 → Nat) = (fun _ => 0) ∧ (![0] : Fin 1 → Nat) = (fun _ => 0) :=
  ⟨funext fun a => by fin_cases a <;> rfl, funext fun a => by fin_cases a <;> rfl⟩

/-- The layer's update as one function of the six arrays the region reads, index by index. -/
def mlpArr3 (c : Dev nD) : S100000x64.Idx → EReal := fun i =>
  mlpRow (fun j => HAdd.hAdd (α := EReal) (β := EReal) (γ := EReal) ((V c (Pipeline.arrRef spec3 0) : S100000x64.Idx → EReal) (ix2 (i 0) j)) ((V c (Pipeline.arrRef spec3 1) : S100000x64.Idx → EReal) (ix2 (i 0) j)))
    (fun j k => (V c (Pipeline.arrRef spec3 2) : S64x64.Idx → EReal) (ix2 j k)) (fun k => (V c (Pipeline.arrRef spec3 3) : S64.Idx → EReal) (ix1 k))
    (fun k q' => (V c (Pipeline.arrRef spec3 4) : S64x64.Idx → EReal) (ix2 k q')) (fun q' => (V c (Pipeline.arrRef spec3 5) : S64.Idx → EReal) (ix1 q')) (i 1)

theorem mlpArr3_apply (c : Dev nD) (r : Fin 100000) (q : Fin 64) :
    mlpArr3 V c (ix2 r q) = mlpRow (fun j => HAdd.hAdd (α := EReal) (β := EReal) (γ := EReal) ((V c (Pipeline.arrRef spec3 0) : S100000x64.Idx → EReal) (ix2 r j)) ((V c (Pipeline.arrRef spec3 1) : S100000x64.Idx → EReal) (ix2 r j)))
      (fun j k => (V c (Pipeline.arrRef spec3 2) : S64x64.Idx → EReal) (ix2 j k)) (fun k => (V c (Pipeline.arrRef spec3 3) : S64.Idx → EReal) (ix1 k))
      (fun k q' => (V c (Pipeline.arrRef spec3 4) : S64x64.Idx → EReal) (ix2 k q')) (fun q' => (V c (Pipeline.arrRef spec3 5) : S64.Idx → EReal) (ix1 q')) q := rfl

/-- The windows' block indices over the grid: the two tiled inputs and the output sit at tile t, the weights and biases at
    their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Row p of tile t is row 5000 t + p of the array. -/
def tile3 (t : Fin cfg3.N) (p : Fin 5000) : Fin 100000 :=
  ⟨t.val * 5000 + p.val, by have ht : t.val < 20 := N_3 ▸ t.isLt; have := p.isLt; omega⟩

/-- Window 0's block at tile t, read at row p: the array at row 5000 t + p. -/
theorem iblk3_at_0 (c : Dev nD) (t : Fin cfg3.N) (p : Fin 5000) (j : Fin 64) :
    iblk3 V c 0 t (ix2 p j) = V c (Pipeline.arrRef spec3 0) (ix2 (tile3 t p) j) := by
  obtain ⟨f0a, f0b, f1a, f1b, -⟩ := idx_facts3 t
  show V c (Pipeline.arrRef spec3 0) (((cfg3.win 0).blk t).view.emb (ix2 p j)) = _
  refine congrArg (V c (Pipeline.arrRef spec3 0)) ?_
  funext a; apply Fin.ext
  match a with
  | ⟨0, _⟩ => show win3_0.index t (0 : Fin 2) * 5000 + 1 * p.val = t.val * 5000 + p.val; omega
  | ⟨1, _⟩ => show win3_0.index t (1 : Fin 2) * 64 + 1 * j.val = j.val; omega

/-- Window 1's block at tile t, read at row p: the array at row 5000 t + p. -/
theorem iblk3_at_1 (c : Dev nD) (t : Fin cfg3.N) (p : Fin 5000) (j : Fin 64) :
    iblk3 V c 1 t (ix2 p j) = V c (Pipeline.arrRef spec3 1) (ix2 (tile3 t p) j) := by
  obtain ⟨f0a, f0b, f1a, f1b, -⟩ := idx_facts3 t
  show V c (Pipeline.arrRef spec3 1) (((cfg3.win 1).blk t).view.emb (ix2 p j)) = _
  refine congrArg (V c (Pipeline.arrRef spec3 1)) ?_
  funext a; apply Fin.ext
  match a with
  | ⟨0, _⟩ => show win3_1.index t (0 : Fin 2) * 5000 + 1 * p.val = t.val * 5000 + p.val; omega
  | ⟨1, _⟩ => show win3_1.index t (1 : Fin 2) * 64 + 1 * j.val = j.val; omega

/-- Window 2's block is its whole array at every tile. -/
theorem iblk3_at_2 (c : Dev nD) (t : Fin cfg3.N) (j k : Fin 64) :
    iblk3 V c 2 t (ix2 j k) = V c (Pipeline.arrRef spec3 2) (ix2 j k) := by
  obtain ⟨-, -, -, -, f2a, f2b, -, f4a, f4b, -⟩ := idx_facts3 t
  show V c (Pipeline.arrRef spec3 2) (((cfg3.win 2).blk t).view.emb (ix2 j k)) = _
  refine congrArg (V c (Pipeline.arrRef spec3 2)) ?_
  funext a; apply Fin.ext
  match a with
  | ⟨0, _⟩ => show win3_2.index t (0 : Fin 2) * 64 + 1 * j.val = j.val; omega
  | ⟨1, _⟩ => show win3_2.index t (1 : Fin 2) * 64 + 1 * k.val = k.val; omega

/-- Window 3's block is its whole array at every tile. -/
theorem iblk3_at_3 (c : Dev nD) (t : Fin cfg3.N) (k : Fin 64) :
    iblk3 V c 3 t (ix1 k) = V c (Pipeline.arrRef spec3 3) (ix1 k) := by
  obtain ⟨-, -, -, -, -, -, f3a, -, -, f5a, -⟩ := idx_facts3 t
  show V c (Pipeline.arrRef spec3 3) (((cfg3.win 3).blk t).view.emb (ix1 k)) = _
  refine congrArg (V c (Pipeline.arrRef spec3 3)) ?_
  funext a; apply Fin.ext
  match a with
  | ⟨0, _⟩ => show win3_3.index t (0 : Fin 1) * 64 + 1 * k.val = k.val; omega

/-- Window 4's block is its whole array at every tile. -/
theorem iblk3_at_4 (c : Dev nD) (t : Fin cfg3.N) (j k : Fin 64) :
    iblk3 V c 4 t (ix2 j k) = V c (Pipeline.arrRef spec3 4) (ix2 j k) := by
  obtain ⟨-, -, -, -, f2a, f2b, -, f4a, f4b, -⟩ := idx_facts3 t
  show V c (Pipeline.arrRef spec3 4) (((cfg3.win 4).blk t).view.emb (ix2 j k)) = _
  refine congrArg (V c (Pipeline.arrRef spec3 4)) ?_
  funext a; apply Fin.ext
  match a with
  | ⟨0, _⟩ => show win3_4.index t (0 : Fin 2) * 64 + 1 * j.val = j.val; omega
  | ⟨1, _⟩ => show win3_4.index t (1 : Fin 2) * 64 + 1 * k.val = k.val; omega

/-- Window 5's block is its whole array at every tile. -/
theorem iblk3_at_5 (c : Dev nD) (t : Fin cfg3.N) (k : Fin 64) :
    iblk3 V c 5 t (ix1 k) = V c (Pipeline.arrRef spec3 5) (ix1 k) := by
  obtain ⟨-, -, -, -, -, -, f3a, -, -, f5a, -⟩ := idx_facts3 t
  show V c (Pipeline.arrRef spec3 5) (((cfg3.win 5).blk t).view.emb (ix1 k)) = _
  refine congrArg (V c (Pipeline.arrRef spec3 5)) ?_
  funext a; apply Fin.ext
  match a with
  | ⟨0, _⟩ => show win3_5.index t (0 : Fin 1) * 64 + 1 * k.val = k.val; omega

/-- What tile t writes back is tile t of the layer's update of the six arrays. -/
theorem flushed_eq3 (c : Dev nD) (t : Fin cfg3.N) :
    (dat3 V c).flushed 6 t = ((cfg3.win 6).blk t).view.read (Elt Ideal) (mlpArr3 V c) := by
  show (cfg3.win 6).cut (grid3.coords t) ((dat3 V c).after 6 t) = _
  rw [after3_6]
  unfold out3_6
  rw [View.canon_unit_zero hz3.1]
  simp only [View.ld_unit_zero (S := S5000x64) hz3.1, View.ld_unit_zero (S := S64x64) hz3.1, View.ld_unit_zero (S := S64) hz3.2]
  obtain ⟨-, -, -, -, -, -, -, -, -, -, f6a, f6b⟩ := idx_facts3 t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (iblk3 V c 3 t) (iblk3 V c 4 t) (iblk3 V c 5 t) (ix2 p q) = mlpArr3 V c (((cfg3.win 6).blk t).view.emb (ix2 p q))
  have hemb : ((cfg3.win 6).blk t).view.emb (ix2 p q) = ix2 (tile3 t p) q := by
    funext a; apply Fin.ext
    match a with
    | ⟨0, _⟩ => show win3_6.index t (0 : Fin 2) * 5000 + 1 * p.val = t.val * 5000 + p.val; omega
    | ⟨1, _⟩ => show win3_6.index t (1 : Fin 2) * 64 + 1 * q.val = q.val; omega
  rw [hemb, mlpArr3_apply, k3_pay1_apply]
  simp only [iblk3_at_0, iblk3_at_1, iblk3_at_2, iblk3_at_3, iblk3_at_4, iblk3_at_5]

/-- An index of the array is in tile t iff each coordinate is in the tile's range on its axis. -/
theorem mem_tile3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole (Pipeline.arrRef spec3 6)).slice (win3_6.rect t)).set ↔ _
  rw [View.set_slice_whole, Rect.mem_set_unit]
  exact Iff.rfl

/-- The tiles cover the array: row r is in tile r / 5000. -/
theorem cover_rows3 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ : ∃ t : Fin cfg3.N, t.val = (i 0).val / 5000 := ⟨⟨(i 0).val / 5000, by rw [show cfg3.N = 20 from N_3]; omega⟩, rfl⟩
  obtain ⟨-, -, -, -, -, -, -, -, -, -, f6a, f6b⟩ := idx_facts3 t
  refine ⟨t, flush3_6 t, ?_⟩
  rw [mem_tile3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- After the region's run the output array holds the layer's update of the six arrays, whole. -/
theorem mlpFinal3 (c : Dev nD) : ((dat3 V c).arrAt 6 cfg3.N : S100000x64.Idx → EReal) = mlpArr3 V c :=
  (dat3 V c).arrAt_eq_of_cover 6 (mlpArr3 V c) (fun t _ => flushed_eq3 V c t) cover_rows3

end Cert.KernelIdeal.Hand

end
-- ==== Proof.KI.MlpValue4.lean ====
/-
  Region 4 of the program, read as a value: what one layer's dense update leaves in its output array, as ONE function of
  the six arrays the region reads. The grid has 20 tiles of 5000 node rows. At tile t the output block is the two-layer
  perceptron of "features plus summed neighbour features" on the tile's rows, with the layer's two weight matrices and two
  bias vectors read whole. Row p of tile t is row 5000 t + p of the array, and a weight or bias block is its whole array, so
  what tile t writes back is tile t of the whole-array function  (r, q) ↦ mlpRow (h r + a r) W₁ b₁ W₂ b₂ q.  The tiles cover
  the array (row r lies in tile r / 5000), so after the region the output array is that function.
-/
import proofs.«419162_j62646392980003_1_alg».proof.Proof.KI.Mlp4
import proofs.«419162_j62646392980003_1_alg».proof.Proof.KI.MlpPay
import proofs.«419162_j62646392980003_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Gin.Spec

-- the buffer contents when the region is entered, at the extended reals
variable (V : (c : Dev nD) → (b : Ref sig .tc) → Buf (Elt Ideal) ((c : Thread nD τ).loc b))

/-- The zero offsets of a whole-buffer access, rank 2 and rank 1. -/
theorem hz4 : (![0, 0] : Fin 2 → Nat) = (fun _ => 0) ∧ (![0] : Fin 1 → Nat) = (fun _ => 0) :=
  ⟨funext fun a => by fin_cases a <;> rfl, funext fun a => by fin_cases a <;> rfl⟩

/-- The layer's update as one function of the six arrays the region reads, index by index. -/
def mlpArr4 (c : Dev nD) : S100000x64.Idx → EReal := fun i =>
  mlpRow (fun j => HAdd.hAdd (α := EReal) (β := EReal) (γ := EReal) ((V c (Pipeline.arrRef spec4 0) : S100000x64.Idx → EReal) (ix2 (i 0) j)) ((V c (Pipeline.arrRef spec4 1) : S100000x64.Idx → EReal) (ix2 (i 0) j)))
    (fun j k => (V c (Pipeline.arrRef spec4 2) : S64x64.Idx → EReal) (ix2 j k)) (fun k => (V c (Pipeline.arrRef spec4 3) : S64.Idx → EReal) (ix1 k))
    (fun k q' => (V c (Pipeline.arrRef spec4 4) : S64x64.Idx → EReal) (ix2 k q')) (fun q' => (V c (Pipeline.arrRef spec4 5) : S64.Idx → EReal) (ix1 q')) (i 1)

theorem mlpArr4_apply (c : Dev nD) (r : Fin 100000) (q : Fin 64) :
    mlpArr4 V c (ix2 r q) = mlpRow (fun j => HAdd.hAdd (α := EReal) (β := EReal) (γ := EReal) ((V c (Pipeline.arrRef spec4 0) : S100000x64.Idx → EReal) (ix2 r j)) ((V c (Pipeline.arrRef spec4 1) : S100000x64.Idx → EReal) (ix2 r j)))
      (fun j k => (V c (Pipeline.arrRef spec4 2) : S64x64.Idx → EReal) (ix2 j k)) (fun k => (V c (Pipeline.arrRef spec4 3) : S64.Idx → EReal) (ix1 k))
      (fun k q' => (V c (Pipeline.arrRef spec4 4) : S64x64.Idx → EReal) (ix2 k q')) (fun q' => (V c (Pipeline.arrRef spec4 5) : S64.Idx → EReal) (ix1 q')) q := rfl

/-- The windows' block indices over the grid: the two tiled inputs and the output sit at tile t, the weights and biases at
    their one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- Row p of tile t is row 5000 t + p of the array. -/
def tile4 (t : Fin cfg4.N) (p : Fin 5000) : Fin 100000 :=
  ⟨t.val * 5000 + p.val, by have ht : t.val < 20 := N_4 ▸ t.isLt; have := p.isLt; omega⟩

/-- Window 0's block at tile t, read at row p: the array at row 5000 t + p. -/
theorem iblk4_at_0 (c : Dev nD) (t : Fin cfg4.N) (p : Fin 5000) (j : Fin 64) :
    iblk4 V c 0 t (ix2 p j) = V c (Pipeline.arrRef spec4 0) (ix2 (tile4 t p) j) := by
  obtain ⟨f0a, f0b, f1a, f1b, -⟩ := idx_facts4 t
  show V c (Pipeline.arrRef spec4 0) (((cfg4.win 0).blk t).view.emb (ix2 p j)) = _
  refine congrArg (V c (Pipeline.arrRef spec4 0)) ?_
  funext a; apply Fin.ext
  match a with
  | ⟨0, _⟩ => show win4_0.index t (0 : Fin 2) * 5000 + 1 * p.val = t.val * 5000 + p.val; omega
  | ⟨1, _⟩ => show win4_0.index t (1 : Fin 2) * 64 + 1 * j.val = j.val; omega

/-- Window 1's block at tile t, read at row p: the array at row 5000 t + p. -/
theorem iblk4_at_1 (c : Dev nD) (t : Fin cfg4.N) (p : Fin 5000) (j : Fin 64) :
    iblk4 V c 1 t (ix2 p j) = V c (Pipeline.arrRef spec4 1) (ix2 (tile4 t p) j) := by
  obtain ⟨f0a, f0b, f1a, f1b, -⟩ := idx_facts4 t
  show V c (Pipeline.arrRef spec4 1) (((cfg4.win 1).blk t).view.emb (ix2 p j)) = _
  refine congrArg (V c (Pipeline.arrRef spec4 1)) ?_
  funext a; apply Fin.ext
  match a with
  | ⟨0, _⟩ => show win4_1.index t (0 : Fin 2) * 5000 + 1 * p.val = t.val * 5000 + p.val; omega
  | ⟨1, _⟩ => show win4_1.index t (1 : Fin 2) * 64 + 1 * j.val = j.val; omega

/-- Window 2's block is its whole array at every tile. -/
theorem iblk4_at_2 (c : Dev nD) (t : Fin cfg4.N) (j k : Fin 64) :
    iblk4 V c 2 t (ix2 j k) = V c (Pipeline.arrRef spec4 2) (ix2 j k) := by
  obtain ⟨-, -, -, -, f2a, f2b, -, f4a, f4b, -⟩ := idx_facts4 t
  show V c (Pipeline.arrRef spec4 2) (((cfg4.win 2).blk t).view.emb (ix2 j k)) = _
  refine congrArg (V c (Pipeline.arrRef spec4 2)) ?_
  funext a; apply Fin.ext
  match a with
  | ⟨0, _⟩ => show win4_2.index t (0 : Fin 2) * 64 + 1 * j.val = j.val; omega
  | ⟨1, _⟩ => show win4_2.index t (1 : Fin 2) * 64 + 1 * k.val = k.val; omega

/-- Window 3's block is its whole array at every tile. -/
theorem iblk4_at_3 (c : Dev nD) (t : Fin cfg4.N) (k : Fin 64) :
    iblk4 V c 3 t (ix1 k) = V c (Pipeline.arrRef spec4 3) (ix1 k) := by
  obtain ⟨-, -, -, -, -, -, f3a, -, -, f5a, -⟩ := idx_facts4 t
  show V c (Pipeline.arrRef spec4 3) (((cfg4.win 3).blk t).view.emb (ix1 k)) = _
  refine congrArg (V c (Pipeline.arrRef spec4 3)) ?_
  funext a; apply Fin.ext
  match a with
  | ⟨0, _⟩ => show win4_3.index t (0 : Fin 1) * 64 + 1 * k.val = k.val; omega

/-- Window 4's block is its whole array at every tile. -/
theorem iblk4_at_4 (c : Dev nD) (t : Fin cfg4.N) (j k : Fin 64) :
    iblk4 V c 4 t (ix2 j k) = V c (Pipeline.arrRef spec4 4) (ix2 j k) := by
  obtain ⟨-, -, -, -, f2a, f2b, -, f4a, f4b, -⟩ := idx_facts4 t
  show V c (Pipeline.arrRef spec4 4) (((cfg4.win 4).blk t).view.emb (ix2 j k)) = _
  refine congrArg (V c (Pipeline.arrRef spec4 4)) ?_
  funext a; apply Fin.ext
  match a with
  | ⟨0, _⟩ => show win4_4.index t (0 : Fin 2) * 64 + 1 * j.val = j.val; omega
  | ⟨1, _⟩ => show win4_4.index t (1 : Fin 2) * 64 + 1 * k.val = k.val; omega

/-- Window 5's block is its whole array at every tile. -/
theorem iblk4_at_5 (c : Dev nD) (t : Fin cfg4.N) (k : Fin 64) :
    iblk4 V c 5 t (ix1 k) = V c (Pipeline.arrRef spec4 5) (ix1 k) := by
  obtain ⟨-, -, -, -, -, -, f3a, -, -, f5a, -⟩ := idx_facts4 t
  show V c (Pipeline.arrRef spec4 5) (((cfg4.win 5).blk t).view.emb (ix1 k)) = _
  refine congrArg (V c (Pipeline.arrRef spec4 5)) ?_
  funext a; apply Fin.ext
  match a with
  | ⟨0, _⟩ => show win4_5.index t (0 : Fin 1) * 64 + 1 * k.val = k.val; omega

/-- What tile t writes back is tile t of the layer's update of the six arrays. -/
theorem flushed_eq4 (c : Dev nD) (t : Fin cfg4.N) :
    (dat4 V c).flushed 6 t = ((cfg4.win 6).blk t).view.read (Elt Ideal) (mlpArr4 V c) := by
  show (cfg4.win 6).cut (grid4.coords t) ((dat4 V c).after 6 t) = _
  rw [after4_6]
  unfold out4_6
  rw [View.canon_unit_zero hz4.1]
  simp only [View.ld_unit_zero (S := S5000x64) hz4.1, View.ld_unit_zero (S := S64x64) hz4.1, View.ld_unit_zero (S := S64) hz4.2]
  obtain ⟨-, -, -, -, -, -, -, -, -, -, f6a, f6b⟩ := idx_facts4 t
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (iblk4 V c 2 t) (iblk4 V c 3 t) (iblk4 V c 4 t) (iblk4 V c 5 t) (ix2 p q) = mlpArr4 V c (((cfg4.win 6).blk t).view.emb (ix2 p q))
  have hemb : ((cfg4.win 6).blk t).view.emb (ix2 p q) = ix2 (tile4 t p) q := by
    funext a; apply Fin.ext
    match a with
    | ⟨0, _⟩ => show win4_6.index t (0 : Fin 2) * 5000 + 1 * p.val = t.val * 5000 + p.val; omega
    | ⟨1, _⟩ => show win4_6.index t (1 : Fin 2) * 64 + 1 * q.val = q.val; omega
  rw [hemb, mlpArr4_apply, k4_pay1_apply]
  simp only [iblk4_at_0, iblk4_at_1, iblk4_at_2, iblk4_at_3, iblk4_at_4, iblk4_at_5]

/-- An index of the array is in tile t iff each coordinate is in the tile's range on its axis. -/
theorem mem_tile4 (t : Fin cfg4.N) (i : S100000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole (Pipeline.arrRef spec4 6)).slice (win4_6.rect t)).set ↔ _
  rw [View.set_slice_whole, Rect.mem_set_unit]
  exact Iff.rfl

/-- The tiles cover the array: row r is in tile r / 5000. -/
theorem cover_rows4 (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  obtain ⟨t, ht⟩ : ∃ t : Fin cfg4.N, t.val = (i 0).val / 5000 := ⟨⟨(i 0).val / 5000, by rw [show cfg4.N = 20 from N_4]; omega⟩, rfl⟩
  obtain ⟨-, -, -, -, -, -, -, -, -, -, f6a, f6b⟩ := idx_facts4 t
  refine ⟨t, flush4_6 t, ?_⟩
  rw [mem_tile4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 64 ≤ (i 1).val ∧ (i 1).val < win4_6.index t (1 : Fin 2) * 64 + 64; omega

/-- After the region's run the output array holds the layer's update of the six arrays, whole. -/
theorem mlpFinal4 (c : Dev nD) : ((dat4 V c).arrAt 6 cfg4.N : S100000x64.Idx → EReal) = mlpArr4 V c :=
  (dat4 V c).arrAt_eq_of_cover 6 (mlpArr4 V c) (fun t _ => flushed_eq4 V c t) cover_rows4

end Cert.KernelIdeal.Hand

end
-- ==== Proof.KI.PoolPay.lean ====
/-
  The pooling region's accumulation, read at an index.

  A tile of 8192 node rows carries, per row, a group id (a 32-bit word) and 64 features. The region compares the ids with
  the 256 group numbers: the comparison matrix has, at (n, g), the extended real 1 when row n's id is the word of g and 0
  otherwise; for g below 256 the id is that word exactly when, read as a signed integer, it is g. Contracting the row axis
  of that matrix against the row axis of the features adds to the accumulator at (g, j) the sum of the features x n j over
  the rows n whose id is g; contracting it against a column of ones adds at (g, 0) the number of those rows. A product
  (1 or 0) · x is x or 0 on the extended reals, whatever x, so no finiteness is asked. The two accumulators start at zero.
-/
import proofs.«419162_j62646392980003_1_alg».proof.Proof.Gen.KernelIdeal.Skeleton
import proofs.«419162_j62646392980003_1_alg».proof.Proof.Spec
import Idealize.ShloMosaic.Lib.ValueLayout
import Idealize.ShloMosaic.Lib.ValueIdx
import Idealize.ShloMosaic.Lib.Pipeline.Value
import Idealize.ShloMosaic.Lib.IdealHost
import Idealize.ShloMosaic.Lib.StableHlo.Predicate
import Idealize.ShloMosaic.PureOps.Ideal.Laws

noncomputable section

namespace Cert.KernelIdeal.Hand

open Cert.KernelIdeal Cert.KernelIdeal.Gen Gin.Spec Idealize.ShloMosaic Idealize.ShloMosaic.ValueIdx

/-! ## Two layout reads: a vector as a column, a column along its unit axis -/

/-- An [a] vector cast to an [a, 1] column reads, at (i, u), the vector at i, whatever the unit coordinate u. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column's entry of row i. -/
private theorem broadcastTo_col_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The word fact: a group number below 256 as a 32-bit word -/

/-- A 32-bit word is the word of a number g below 256 exactly when it reads, signed, as g. -/
private theorem word_eq_ofNat_iff (w : BitVec 32) (g : ℕ) (hg : g < 256) : w = BitVec.ofNat 32 g ↔ w.toInt = (g : ℤ) := by
  constructor
  · rintro rfl
    exact StableHlo.Predicate.toInt_ofNat_small g (by omega)
  · intro h
    apply BitVec.eq_of_toInt_eq
    rw [h, StableHlo.Predicate.toInt_ofNat_small g (by omega)]

/-! ## The comparison matrix at an index -/

/-- Entry (n, g) of the comparison matrix: 1 when row n's id reads as g, else 0. -/
private theorem k5_pay3_apply (id : Vec Ideal S8192 .i32) (n : Fin 8192) (g : Fin 256) :
    k5_pay3 (F := Ideal) id (ix2 n g) = if (id (ix1 n)).toInt = (g.val : ℤ) then (1 : EReal) else 0 := by
  unfold k5_pay3
  rw [truncf_apply, sitofp_apply, extui_apply]
  show FloatOps.sitofp FTy.f32 (BitVec.setWidth 32 (IntOp.cmpi .eq
      (broadcastTo S8192x256 (shapeCast S8192x1 (shapeCast S8192 id shapeCasts_S8192_S8192) shapeCasts_S8192_S8192x1)
        broadcasts_S8192x1_S8192x256 (ix2 n g))
      (iota Kind.tc S8192x256 32 [1] iota_S8192x256_d1_w32 (ix2 n g)))) = _
  rw [broadcastTo_col_apply, shapeCast_col_apply, shapeCast_self, iota_single_apply]
  show (((BitVec.setWidth 32 (IntOp.cmpi .eq (id (ix1 n)) (BitVec.ofNat 32 g.val))).toInt : ℝ) : EReal) = _
  by_cases h : (id (ix1 n)).toInt = (g.val : ℤ)
  · have e : id (ix1 n) = BitVec.ofNat 32 g.val := (word_eq_ofNat_iff _ _ g.isLt).2 h
    have hb : IntOp.cmpi .eq (id (ix1 n)) (BitVec.ofNat 32 g.val) = 1#1 := StableHlo.Predicate.cmpi_eq_iff.2 e
    have h1 : ((1#1 : BitVec 1).setWidth 32).toInt = 1 := by decide
    rw [if_pos h, hb, h1]
    simp
  · have hb : IntOp.cmpi .eq (id (ix1 n)) (BitVec.ofNat 32 g.val) = 0#1 :=
      eq_zero_of_ne_one fun hc => h ((word_eq_ofNat_iff _ _ g.isLt).1 (StableHlo.Predicate.cmpi_eq_iff.1 hc))
    have h0 : ((0#1 : BitVec 1).setWidth 32).toInt = 0 := by decide
    rw [if_neg h, hb, h0]
    simp

/-! ## The two accumulators' starting values -/

/-- The feature accumulator starts at zero. -/
theorem k5_pay1_apply (g : Fin 256) (j : Fin 64) : k5_pay1 (F := Ideal) (ix2 g j) = 0 := by
  unfold k5_pay1
  rw [shapeCast_self, broadcast_apply]
  exact Ideal.ofBits_zero_f32

/-- The count accumulator starts at zero. -/
theorem k5_pay2_apply (g : Fin 256) : k5_pay2 (F := Ideal) (ix2 g (0 : Fin 1)) = 0 := by
  unfold k5_pay2
  rw [shapeCast_self, broadcast_apply]
  exact Ideal.ofBits_zero_f32

/-! ## The feature sums: the comparison matrix contracted against the features along the row axis -/

private theorem lhs_pool_feat_0 (i : S256x64.Idx) (q : dot_S8192x256_S8192x64_S256x64_0_0_1_1_n_n.contr.Idx) :
    (dot_S8192x256_S8192x64_S256x64_0_0_1_1_n_n.lhsIdx i q 0).val = (q ⟨0, by decide⟩).val :=
  dot_S8192x256_S8192x64_S256x64_0_0_1_1_n_n.lhsIdx_val_of_single rfl i q
private theorem lhs_pool_feat_1 (i : S256x64.Idx) (q : dot_S8192x256_S8192x64_S256x64_0_0_1_1_n_n.contr.Idx) :
    (dot_S8192x256_S8192x64_S256x64_0_0_1_1_n_n.lhsIdx i q 1).val = (i 0).val := by
  unfold DotDims.lhsIdx
  rw [dif_neg (show ¬(1 : Fin S8192x256.rank) ∈ dot_S8192x256_S8192x64_S256x64_0_0_1_1_n_n.lhsBatch by decide), dif_pos (show (1 : Fin S8192x256.rank) ∈ dot_S8192x256_S8192x64_S256x64_0_0_1_1_n_n.lhsNonContracting by decide)]
  rfl
private theorem rhs_pool_feat_0 (i : S256x64.Idx) (q : dot_S8192x256_S8192x64_S256x64_0_0_1_1_n_n.contr.Idx) :
    (dot_S8192x256_S8192x64_S256x64_0_0_1_1_n_n.rhsIdx i q 0).val = (q ⟨0, by decide⟩).val :=
  dot_S8192x256_S8192x64_S256x64_0_0_1_1_n_n.rhsIdx_val_of_single rfl i q
private theorem rhs_pool_feat_1 (i : S256x64.Idx) (q : dot_S8192x256_S8192x64_S256x64_0_0_1_1_n_n.contr.Idx) :
    (dot_S8192x256_S8192x64_S256x64_0_0_1_1_n_n.rhsIdx i q 1).val = (i 1).val := by
  unfold DotDims.rhsIdx
  rw [dif_neg (show ¬(1 : Fin S8192x64.rank) ∈ dot_S8192x256_S8192x64_S256x64_0_0_1_1_n_n.rhsBatch by decide), dif_pos (show (1 : Fin S8192x64.rank) ∈ dot_S8192x256_S8192x64_S256x64_0_0_1_1_n_n.rhsNonContracting by decide)]
  rfl

/-- The feature accumulator after a tile: at (g, j) it has gained the sum of x n j over the rows n whose id reads as g. -/
theorem k5_pay4_apply (x : Vec Ideal S8192x64 .f32) (id : Vec Ideal S8192 .i32) (acc : Vec Ideal S256x64 .f32) (g : Fin 256) (j : Fin 64) :
    k5_pay4 (F := Ideal) x id acc (ix2 g j) = acc (ix2 g j) + ∑ n : Fin 8192, if (id (ix1 n)).toInt = (g.val : ℤ) then x (ix2 n j) else 0 := by
  unfold k5_pay4
  rw [shapeCast_self, addf_apply]
  simp only [matmul]
  rw [Ideal.matmul_constant_zero_apply, ← Equiv.sum_comp (contrEquiv1 dot_S8192x256_S8192x64_S256x64_0_0_1_1_n_n 8192 rfl rfl).symm]
  refine congrArg (acc (ix2 g j) + ·) (Finset.sum_congr rfl fun n _ => ?_)
  have hk := contrEquiv1_symm_val dot_S8192x256_S8192x64_S256x64_0_0_1_1_n_n 8192 rfl rfl n
  have el : dot_S8192x256_S8192x64_S256x64_0_0_1_1_n_n.lhsIdx (ix2 g j) ((contrEquiv1 dot_S8192x256_S8192x64_S256x64_0_0_1_1_n_n 8192 rfl rfl).symm n) = ix2 n g := funext fun a => Fin.ext (by
    match a with
    | ⟨0, _⟩ => exact (lhs_pool_feat_0 _ _).trans hk
    | ⟨1, _⟩ => exact lhs_pool_feat_1 _ _)
  have er : dot_S8192x256_S8192x64_S256x64_0_0_1_1_n_n.rhsIdx (ix2 g j) ((contrEquiv1 dot_S8192x256_S8192x64_S256x64_0_0_1_1_n_n 8192 rfl rfl).symm n) = ix2 n j := funext fun a => Fin.ext (by
    match a with
    | ⟨0, _⟩ => exact (rhs_pool_feat_0 _ _).trans hk
    | ⟨1, _⟩ => exact rhs_pool_feat_1 _ _)
  rw [el, er, k5_pay3_apply, truncf_apply, shapeCast_self, ite_mul, one_mul, zero_mul]

/-! ## The counts: the comparison matrix contracted against a column of ones along the row axis -/

private theorem lhs_pool_cnt_0 (i : S256x1.Idx) (q : dot_S8192x256_S8192x1_S256x1_0_0_1_1_n_n.contr.Idx) :
    (dot_S8192x256_S8192x1_S256x1_0_0_1_1_n_n.lhsIdx i q 0).val = (q ⟨0, by decide⟩).val :=
  dot_S8192x256_S8192x1_S256x1_0_0_1_1_n_n.lhsIdx_val_of_single rfl i q
private theorem lhs_pool_cnt_1 (i : S256x1.Idx) (q : dot_S8192x256_S8192x1_S256x1_0_0_1_1_n_n.contr.Idx) :
    (dot_S8192x256_S8192x1_S256x1_0_0_1_1_n_n.lhsIdx i q 1).val = (i 0).val := by
  unfold DotDims.lhsIdx
  rw [dif_neg (show ¬(1 : Fin S8192x256.rank) ∈ dot_S8192x256_S8192x1_S256x1_0_0_1_1_n_n.lhsBatch by decide), dif_pos (show (1 : Fin S8192x256.rank) ∈ dot_S8192x256_S8192x1_S256x1_0_0_1_1_n_n.lhsNonContracting by decide)]
  rfl

/-- The count accumulator after a tile: at (g, 0) it has gained the number of rows whose id reads as g. -/
theorem k5_pay5_apply (id : Vec Ideal S8192 .i32) (acc : Vec Ideal S256x1 .f32) (g : Fin 256) :
    k5_pay5 (F := Ideal) id acc (ix2 g (0 : Fin 1)) = acc (ix2 g (0 : Fin 1)) + ∑ n : Fin 8192, if (id (ix1 n)).toInt = (g.val : ℤ) then (1 : EReal) else 0 := by
  unfold k5_pay5
  rw [shapeCast_self, addf_apply]
  simp only [matmul]
  rw [Ideal.matmul_constant_zero_apply, ← Equiv.sum_comp (contrEquiv1 dot_S8192x256_S8192x1_S256x1_0_0_1_1_n_n 8192 rfl rfl).symm]
  refine congrArg (acc (ix2 g (0 : Fin 1)) + ·) (Finset.sum_congr rfl fun n _ => ?_)
  have hk := contrEquiv1_symm_val dot_S8192x256_S8192x1_S256x1_0_0_1_1_n_n 8192 rfl rfl n
  have el : dot_S8192x256_S8192x1_S256x1_0_0_1_1_n_n.lhsIdx (ix2 g (0 : Fin 1)) ((contrEquiv1 dot_S8192x256_S8192x1_S256x1_0_0_1_1_n_n 8192 rfl rfl).symm n) = ix2 n g := funext fun a => Fin.ext (by
    match a with
    | ⟨0, _⟩ => exact (lhs_pool_cnt_0 _ _).trans hk
    | ⟨1, _⟩ => exact lhs_pool_cnt_1 _ _)
  rw [el, k5_pay3_apply, broadcast_apply]
  show (if (id (ix1 n)).toInt = (g.val : ℤ) then (1 : EReal) else 0) * Ideal.ofBits .bf16 0x3F80#16 = _
  rw [Ideal.ofBits_one_bf16, mul_one]

end Cert.KernelIdeal.Hand

end
-- ==== Proof.KI.PoolValue.lean ====
/-
  What the pooling region leaves in its output array, as a function of the arrays it reads.

  The region walks 13 tiles of 8192 rows over the padded node features (106496 rows of 64) and the padded segment ids
  (106496 words). Two running totals are carried from tile to tile: for each of 256 segments the sum of the feature rows whose
  id is the segment, and the number of such rows. Tile t's block of either array is the array's rows 8192·t … 8192·t + 8191,
  so after tile t the totals are the sums over the rows below 8192·(t + 1) (induction on the tile), and since
  (tile, row in the tile) ↦ 8192·tile + row is a bijection onto the 106496 rows, after the last tile they are the segment
  sums and segment counts over all padded rows. The last point divides each sum by its count raised to at least one and
  applies the two-layer perceptron with the region's four weight arrays, each read whole; that result is stored in the
  output's staging buffer, whose one block is the whole [256, 64] output array and is written back at the last point only.
-/
import proofs.«419162_j62646392980003_1_alg».proof.Proof.KI.Pool
import proofs.«419162_j62646392980003_1_alg».proof.Proof.KI.PoolPay
import proofs.«419162_j62646392980003_1_alg».proof.Proof.KI.MlpPay
import proofs.«419162_j62646392980003_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Gin.Spec

/-! ## What the region reads -/

variable (V : (c : Dev nD) → (b : Ref sig .tc) → Buf (Elt Ideal) ((c : Thread nD τ).loc b))

/-- The padded node features as the region finds them. -/
abbrev hpad (c : Dev nD) : S106496x64.Idx → EReal := V c (Pipeline.arrRef spec5 0)
/-- The padded segment ids as the region finds them. -/
abbrev bpad (c : Dev nD) : S106496.Idx → BitVec 32 := V c (Pipeline.arrRef spec5 1)

/-- Row n of tile s, as a row of the padded arrays: 8192·s + n (taken below 106496, which it is for every tile of the grid). -/
def pool_tileRow (s : ℕ) (n : Fin 8192) : Fin 106496 := ⟨(8192 * s + n.val) % 106496, Nat.mod_lt _ (by decide)⟩

theorem pool_tileRow_val (s : ℕ) (hs : s < 13) (n : Fin 8192) : (pool_tileRow s n).val = 8192 * s + n.val := by
  have := n.isLt
  show (8192 * s + n.val) % 106496 = _
  omega

/-- The printed index maps over the grid: tile t of the features is block (t, 0), tile t of the ids is block (t). -/
theorem idx_facts5 : ∀ t : Fin cfg5.N, win5_0.index t (0 : Fin 2) = t.val ∧ win5_0.index t (1 : Fin 2) = 0 ∧ win5_1.index t (0 : Fin 1) = t.val :=
  (by decide +kernel : ∀ t : Fin grid5.N, _)

/-- The features' block at point t, at (n, j): the padded features at row 8192·t + n, column j. -/
theorem iblk5_0_apply (c : Dev nD) (t : Fin cfg5.N) (n : Fin 8192) (j : Fin 64) :
    (iblk5 V c 0 t : S8192x64.Idx → EReal) (ix2 n j) = hpad V c (ix2 (pool_tileRow t.val n) j) := by
  have hN : cfg5.N = 13 := N_5
  have ht := t.isLt
  obtain ⟨e0, e1, -⟩ := idx_facts5 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 8192 + 1 * n.val = (pool_tileRow t.val n).val; rw [e0, pool_tileRow_val _ (by omega)]; omega
  | ⟨1, _⟩ => show win5_0.index t (1 : Fin 2) * 64 + 1 * j.val = j.val; rw [e1]; omega

/-- The ids' block at point t, at n: the padded ids at row 8192·t + n. -/
theorem iblk5_1_apply (c : Dev nD) (t : Fin cfg5.N) (n : Fin 8192) :
    (iblk5 V c 1 t : S8192.Idx → BitVec 32) (ix1 n) = bpad V c (ix1 (pool_tileRow t.val n)) := by
  have hN : cfg5.N = 13 := N_5
  have ht := t.isLt
  obtain ⟨-, -, e2⟩ := idx_facts5 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 1) * 8192 + 1 * n.val = (pool_tileRow t.val n).val; rw [e2, pool_tileRow_val _ (by omega)]; omega

/-! ## The running totals after the last tile -/

/-- Tile s's contribution to segment g's sum of column j. -/
def pool_tileSum (c : Dev nD) (g : ℕ) (j : Fin 64) (s : ℕ) : EReal :=
  ∑ n : Fin 8192, if (bpad V c (ix1 (pool_tileRow s n))).toInt = (g : ℤ) then hpad V c (ix2 (pool_tileRow s n) j) else 0

/-- Tile s's contribution to segment g's row count. -/
def pool_tileCnt (c : Dev nD) (g : ℕ) (s : ℕ) : EReal :=
  ∑ n : Fin 8192, if (bpad V c (ix1 (pool_tileRow s n))).toInt = (g : ℤ) then (1 : EReal) else 0

/-- One accumulation step of the sums at point t, read at (g, j): the total before plus tile t's contribution. -/
theorem pool_step_sums (c : Dev nD) (t : Fin cfg5.N) (acc : Vec Ideal S256x64 .f32) (g : Fin 256) (j : Fin 64) :
    k5_pay4 (F := Ideal) (iblk5 V c 0 t) (iblk5 V c 1 t) acc (ix2 g j) = acc (ix2 g j) + pool_tileSum V c g.val j t.val := by
  refine (k5_pay4_apply _ _ acc g j).trans ?_
  unfold pool_tileSum
  refine congrArg (acc (ix2 g j) + ·) (Finset.sum_congr rfl fun n _ => ?_)
  rw [iblk5_0_apply V c t n j, iblk5_1_apply V c t n]

/-- One accumulation step of the counts at point t, read at (g, 0). -/
theorem pool_step_cnts (c : Dev nD) (t : Fin cfg5.N) (acc : Vec Ideal S256x1 .f32) (g : Fin 256) :
    k5_pay5 (F := Ideal) (iblk5 V c 1 t) acc (ix2 g (0 : Fin 1)) = acc (ix2 g (0 : Fin 1)) + pool_tileCnt V c g.val t.val := by
  refine (k5_pay5_apply _ acc g).trans ?_
  unfold pool_tileCnt
  refine congrArg (acc (ix2 g (0 : Fin 1)) + ·) (Finset.sum_congr rfl fun n _ => ?_)
  rw [iblk5_1_apply V c t n]

/-- After point t the sums hold the contributions of tiles 0 … t. -/
theorem acc_sums_upto (c : Dev nD) (g : Fin 256) (j : Fin 64) : ∀ (t : ℕ) (h : t < cfg5.N),
    (accAt5 V c t h).1 (ix2 g j) = ∑ s ∈ Finset.range (t + 1), pool_tileSum V c g.val j s
  | 0, h => by
    rw [accAt5_zero]
    show k5_pay4 (F := Ideal) _ _ _ (ix2 g j) = _
    rw [pool_step_sums V c ⟨0, h⟩, k5_pay1_apply, zero_add, Finset.sum_range_one]
  | t + 1, h => by
    rw [accAt5_succ]
    show k5_pay4 (F := Ideal) _ _ _ (ix2 g j) = _
    rw [pool_step_sums V c ⟨t + 1, h⟩, acc_sums_upto c g j t, Finset.sum_range_succ _ (t + 1)]

/-- After point t the counts hold the contributions of tiles 0 … t. -/
theorem acc_cnts_upto (c : Dev nD) (g : Fin 256) : ∀ (t : ℕ) (h : t < cfg5.N),
    (accAt5 V c t h).2 (ix2 g (0 : Fin 1)) = ∑ s ∈ Finset.range (t + 1), pool_tileCnt V c g.val s
  | 0, h => by
    rw [accAt5_zero]
    show k5_pay5 (F := Ideal) _ _ (ix2 g (0 : Fin 1)) = _
    rw [pool_step_cnts V c ⟨0, h⟩, k5_pay2_apply, zero_add, Finset.sum_range_one]
  | t + 1, h => by
    rw [accAt5_succ]
    show k5_pay5 (F := Ideal) _ _ (ix2 g (0 : Fin 1)) = _
    rw [pool_step_cnts V c ⟨t + 1, h⟩, acc_cnts_upto c g t, Finset.sum_range_succ _ (t + 1)]

/-- The thirteen tiles are the padded arrays' rows: (tile, row in the tile) ↦ 8192·tile + row is a bijection onto the 106496 rows. -/
theorem pool_sum_tiles {M : Type*} [AddCommMonoid M] (f : Fin 106496 → M) :
    ∑ s ∈ Finset.range 13, ∑ n : Fin 8192, f (pool_tileRow s n) = ∑ p : Fin 106496, f p := by
  rw [Finset.sum_range (fun s => ∑ n : Fin 8192, f (pool_tileRow s n)), ← Fintype.sum_prod_type']
  refine Fintype.sum_equiv (finProdFinEquiv : Fin 13 × Fin 8192 ≃ Fin 106496) _ _ fun p => congrArg f (Fin.ext ?_)
  rw [pool_tileRow_val _ p.1.isLt]
  show _ = p.2.val + 8192 * p.1.val
  omega

/-- After the last tile the sums buffer holds, at (g, j), the sum of column j over the padded rows whose id is g. -/
theorem acc_sums (c : Dev nD) (g : Fin 256) (j : Fin 64) :
    (accAt5 V c 12 (by rw [show cfg5.N = 13 from N_5]; decide)).1 (ix2 g j)
      = segSum (fun n : Fin 106496 => bpad V c (ix1 n)) (fun n => hpad V c (ix2 n j)) g.val := by
  rw [acc_sums_upto V c g j 12]
  unfold segSum pool_tileSum
  exact pool_sum_tiles (fun p => if (bpad V c (ix1 p)).toInt = (g.val : ℤ) then hpad V c (ix2 p j) else 0)

/-- After the last tile the counts buffer holds, at (g, 0), the number of padded rows whose id is g. -/
theorem acc_cnts (c : Dev nD) (g : Fin 256) :
    (accAt5 V c 12 (by rw [show cfg5.N = 13 from N_5]; decide)).2 (ix2 g (0 : Fin 1))
      = segCount (fun n : Fin 106496 => bpad V c (ix1 n)) g.val := by
  rw [acc_cnts_upto V c g 12]
  unfold segCount pool_tileCnt
  exact pool_sum_tiles (fun p => if (bpad V c (ix1 p)).toInt = (g.val : ℤ) then (1 : EReal) else 0)

/-! ## The readout's weights: each window's one block is its whole array -/

/-- The printed index maps of the four weight windows and of the output window: block 0 on every axis, at every point. -/
theorem idx_whole5 : ∀ t : Fin cfg5.N, win5_2.index t (0 : Fin 2) = 0 ∧ win5_2.index t (1 : Fin 2) = 0 ∧ win5_3.index t (0 : Fin 1) = 0
    ∧ win5_4.index t (0 : Fin 2) = 0 ∧ win5_4.index t (1 : Fin 2) = 0 ∧ win5_5.index t (0 : Fin 1) = 0
    ∧ win5_6.index t (0 : Fin 2) = 0 ∧ win5_6.index t (1 : Fin 2) = 0 :=
  (by decide +kernel : ∀ t : Fin grid5.N, _)

theorem iblk5_2_apply (c : Dev nD) (t : Fin cfg5.N) (j k : Fin 64) :
    (iblk5 V c 2 t : S64x64.Idx → EReal) (ix2 j k) = (V c (Pipeline.arrRef spec5 2) : S64x64.Idx → EReal) (ix2 j k) := by
  obtain ⟨e0, e1, -⟩ := idx_whole5 t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 64 + 1 * j.val = j.val; rw [e0]; omega
  | ⟨1, _⟩ => show win5_2.index t (1 : Fin 2) * 64 + 1 * k.val = k.val; rw [e1]; omega

theorem iblk5_3_apply (c : Dev nD) (t : Fin cfg5.N) (k : Fin 64) :
    (iblk5 V c 3 t : S64.Idx → EReal) (ix1 k) = (V c (Pipeline.arrRef spec5 3) : S64.Idx → EReal) (ix1 k) := by
  obtain ⟨-, -, e2, -⟩ := idx_whole5 t
  unfold iblk5
  rw [View.read_apply]
  show V c (Pipeline.arrRef spec5 3) _ = V c (Pipeline.arrRef spec5 3) _
  congr 1
  funext a
  apply Fin.ext
  match a with
  | ⟨0, _⟩ => show win5_3.index t (0 : Fin 1) * 64 + 1 * k.val = k.val; rw [e2]; omega

theorem iblk5_4_apply (c : Dev nD) (t : Fin cfg5.N) (j k : Fin 64) :
    (iblk5 V c 4 t : S64x64.Idx → EReal) (ix2 j k) = (V c (Pipeline.arrRef spec5 4) : S64x64.Idx → EReal) (ix2 j k) := by
  obtain ⟨-, -, -, e3, e4, -⟩ := idx_whole5 t
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 64 + 1 * j.val = j.val; rw [e3]; omega
  | ⟨1, _⟩ => show win5_4.index t (1 : Fin 2) * 64 + 1 * k.val = k.val; rw [e4]; omega

theorem iblk5_5_apply (c : Dev nD) (t : Fin cfg5.N) (k : Fin 64) :
    (iblk5 V c 5 t : S64.Idx → EReal) (ix1 k) = (V c (Pipeline.arrRef spec5 5) : S64.Idx → EReal) (ix1 k) := by
  obtain ⟨-, -, -, -, -, e5, -⟩ := idx_whole5 t
  unfold iblk5
  rw [View.read_apply]
  show V c (Pipeline.arrRef spec5 5) _ = V c (Pipeline.arrRef spec5 5) _
  congr 1
  funext a
  apply Fin.ext
  match a with
  | ⟨0, _⟩ => show win5_5.index t (0 : Fin 1) * 64 + 1 * k.val = k.val; rw [e5]; omega

/-! ## The output -/

/-- The perceptron of a row depends on the row, the weights and the biases entry by entry. -/
theorem pool_mlpRow_congr {z z' : Fin 64 → EReal} {W1 W1' : Fin 64 → Fin 64 → EReal} {b1 b1' : Fin 64 → EReal}
    {W2 W2' : Fin 64 → Fin 64 → EReal} {b2 b2' : Fin 64 → EReal} (hz : ∀ j, z j = z' j) (hW1 : ∀ j k, W1 j k = W1' j k)
    (hb1 : ∀ k, b1 k = b1' k) (hW2 : ∀ k q, W2 k q = W2' k q) (hb2 : ∀ q, b2 q = b2' q) (q : Fin 64) :
    mlpRow z W1 b1 W2 b2 q = mlpRow z' W1' b1' W2' b2' q := by
  rw [funext hz, (funext fun j => funext (hW1 j) : W1 = W1'), funext hb1, (funext fun k => funext (hW2 k) : W2 = W2'), funext hb2]

/-- What the last point stores, at (g, q): the perceptron, with the region's four weight arrays, of segment g's mean row over
    the padded arrays. -/
theorem out5_apply (c : Dev nD) (g : Fin 256) (q : Fin 64) :
    out5 V c (ix2 g q)
      = mlpRow (pooledRow (fun n : Fin 106496 => bpad V c (ix1 n)) (fun n j => hpad V c (ix2 n j)) g.val)
          (fun j k => (V c (Pipeline.arrRef spec5 2) : S64x64.Idx → EReal) (ix2 j k))
          (fun k => (V c (Pipeline.arrRef spec5 3) : S64.Idx → EReal) (ix1 k))
          (fun k q' => (V c (Pipeline.arrRef spec5 4) : S64x64.Idx → EReal) (ix2 k q'))
          (fun q' => (V c (Pipeline.arrRef spec5 5) : S64.Idx → EReal) (ix1 q')) q := by
  rw [out5_eq]
  refine (k5_pay6_apply _ _ _ _ _ _ g q).trans ?_
  refine pool_mlpRow_congr (fun j => ?_) (fun j k => iblk5_2_apply V c t5_12 j k) (fun k => iblk5_3_apply V c t5_12 k)
    (fun k q' => iblk5_4_apply V c t5_12 k q') (fun q' => iblk5_5_apply V c t5_12 q') q
  unfold pooledRow
  rw [acc_sums V c g j, acc_cnts V c g]

/-! ## From the last point's block to the output array -/

/-- The output window's block at the last point is the whole array: what the write-back moves of contents G of the staging
    buffer is what the block reads of G as contents of the array. -/
theorem cut_whole5_6 (G : S256x64.Idx → EReal) :
    (cfg5.win 6).cut (grid5.coords t5_12) G = ((cfg5.win 6).blk t5_12).view.read (Elt Ideal) G := by
  obtain ⟨-, -, -, -, -, -, e6, e7⟩ := idx_whole5 t5_12
  funext y
  rw [View.read_apply]
  show G y = G _
  congr 1
  funext a
  apply Fin.ext
  match a with
  | ⟨0, _⟩ => show (y 0).val = win5_6.index t5_12 (0 : Fin 2) * 256 + 1 * (y 0).val; rw [e6]; omega
  | ⟨1, _⟩ => show (y 1).val = win5_6.index t5_12 (1 : Fin 2) * 64 + 1 * (y 1).val; rw [e7]; omega

/-- The one write-back, at the last point, writes the whole output array. -/
theorem flushed5_6_eq (c : Dev nD) (t : Fin cfg5.N) (hf : (cfg5.win 6).flush t = true) :
    (dat5 V c).flushed 6 t = ((cfg5.win 6).blk t).view.read (Elt Ideal) (out5 V c) := by
  have hN : cfg5.N = 13 := N_5
  have h12 : t.val = 12 := by have := (flush5_6 t).mp hf; have := t.isLt; omega
  obtain rfl : t = t5_12 := Fin.ext h12
  show (cfg5.win 6).cut (grid5.coords t5_12) ((dat5 V c).after 6 t5_12) = _
  rw [after5_6_last V c t5_12 rfl]
  exact cut_whole5_6 _

/-- An index of the output array is in point t's block iff each coordinate is in the block's range on its axis. -/
theorem mem_blk5_6 (t : Fin cfg5.N) (i : S256x64.Idx) :
    i ∈ ((cfg5.win 6).blk t).view.set ↔ ∀ a : Fin 2, win5_6.index t a * S256x64.size a ≤ (i a).val ∧ (i a).val < win5_6.index t a * S256x64.size a + S256x64.size a := by
  show i ∈ ((View.whole main_v101).slice (win5_6.rect t)).set ↔ _
  rw [View.set_slice_whole, Rect.mem_set_unit]
  exact Iff.rfl

/-- The last point's block covers the output array. -/
theorem cover5_6 (i : S256x64.Idx) : ∃ t : Fin cfg5.N, (cfg5.win 6).flush t = true ∧ i ∈ ((cfg5.win 6).blk t).view.set := by
  refine ⟨t5_12, (flush5_6 t5_12).mpr rfl, ?_⟩
  rw [mem_blk5_6]
  obtain ⟨-, -, -, -, -, -, e6, e7⟩ := idx_whole5 t5_12
  have h0 := idx2_lt0 i
  have h1 := idx2_lt1 i
  intro a
  match a with
  | ⟨0, _⟩ => show win5_6.index t5_12 (0 : Fin 2) * 256 ≤ (i 0).val ∧ (i 0).val < win5_6.index t5_12 (0 : Fin 2) * 256 + 256; rw [e6]; omega
  | ⟨1, _⟩ => show win5_6.index t5_12 (1 : Fin 2) * 64 ≤ (i 1).val ∧ (i 1).val < win5_6.index t5_12 (1 : Fin 2) * 64 + 64; rw [e7]; omega

/-- So the output array ends holding what the last point stored. -/
theorem poolFinal (c : Dev nD) : ((dat5 V c).arrAt 6 cfg5.N : S256x64.Idx → EReal) = out5 V c :=
  (dat5 V c).arrAt_eq_of_cover 6 (out5 V c) (flushed5_6_eq V c) cover5_6

end Cert.KernelIdeal.Hand

end
-- ==== Proof.RefLayers.lean ====
/-
  The reference's five graph layers, read at an index.

  Every layer replaces the feature matrix h by  mlp(h + agg h), where agg h gathers the rows of h that a source index names
  and adds each of them into the row its destination index names, starting from zeros. The aggregation is kept as ONE
  function aggR of the features entering the layer (the same host operations in every layer: only the buffers they
  are recomputed into differ). Read at row r and column q, a layer's output is the two-layer perceptron mlpRow of the row
  j ↦ h (r, j) + aggR h (r, j), with the layer's slices of the four stacked parameter arrays.
-/
import proofs.«419162_j62646392980003_1_alg».proof.Proof.Gen.ReferenceIdeal.Read
import proofs.«419162_j62646392980003_1_alg».proof.Proof.Spec
import Idealize.ShloMosaic.Lib.ValueLayout

noncomputable section

namespace Cert.ReferenceIdeal.Hand

open Cert.ReferenceIdeal Cert.ReferenceIdeal.Gen Cert.ReferenceIdeal.Read Gin.Spec Idealize.ShloMosaic Idealize.ShloMosaic.ValueIdx

/-- The aggregation of one layer: gather the rows of h at the wrapped source index, add them into zeros at the
    destination index. -/
def aggR (h : (⟨S100000x64, .f32⟩ : BufTy).Contents (Elt Ideal)) (x1 : (⟨S2x1600000, .i32⟩ : BufTy).Contents (Elt Ideal)) :
    (⟨S100000x64, .f32⟩ : BufTy).Contents (Elt Ideal) :=
  Host.scatterAdd (F := Ideal) (φ := .f32) scatter_S100000x64_S1600000x1_S1600000x64_1_0_0_1 (val_main_v11 (F := Ideal)) (val_main_v12 (F := Ideal) x1)
    (Host.gather gather_S100000x64_S1600000x1_S1600000x64_1_0_n_n_0_1_164 h (val_main_v9 (F := Ideal) x1))

/-! ## The five aggregations are one function

Each layer wraps the source index (a negative index is raised by the table's height), gathers, and scatters into zeros by
the destination index. The later layers recompute the wrapped index, the zeros and the destination column into buffers
of their own, by the same operations on the same operands, so every layer's aggregation is aggR of the features
entering it: the two sides unfold to the same term. -/

theorem agg0 (x0 : (⟨S100000x64, .f32⟩ : BufTy).Contents (Elt Ideal)) (x1 : (⟨S2x1600000, .i32⟩ : BufTy).Contents (Elt Ideal)) :
    val_main_v13 (F := Ideal) x0 x1 = aggR x0 x1 := rfl

theorem agg1 (x0 : (⟨S100000x64, .f32⟩ : BufTy).Contents (Elt Ideal)) (x1 : (⟨S2x1600000, .i32⟩ : BufTy).Contents (Elt Ideal)) (x3 : (⟨S5x64x64, .f32⟩ : BufTy).Contents (Elt Ideal)) (x4 : (⟨S5x64, .f32⟩ : BufTy).Contents (Elt Ideal)) (x5 : (⟨S5x64x64, .f32⟩ : BufTy).Contents (Elt Ideal)) (x6 : (⟨S5x64, .f32⟩ : BufTy).Contents (Elt Ideal)) :
    val_main_v41 (F := Ideal) x0 x1 x3 x4 x5 x6 = aggR (val_main_v31 (F := Ideal) x0 x1 x3 x4 x5 x6) x1 := rfl

theorem agg2 (x0 : (⟨S100000x64, .f32⟩ : BufTy).Contents (Elt Ideal)) (x1 : (⟨S2x1600000, .i32⟩ : BufTy).Contents (Elt Ideal)) (x3 : (⟨S5x64x64, .f32⟩ : BufTy).Contents (Elt Ideal)) (x4 : (⟨S5x64, .f32⟩ : BufTy).Contents (Elt Ideal)) (x5 : (⟨S5x64x64, .f32⟩ : BufTy).Contents (Elt Ideal)) (x6 : (⟨S5x64, .f32⟩ : BufTy).Contents (Elt Ideal)) :
    val_main_v69 (F := Ideal) x0 x1 x3 x4 x5 x6 = aggR (val_main_v59 (F := Ideal) x0 x1 x3 x4 x5 x6) x1 := rfl

theorem agg3 (x0 : (⟨S100000x64, .f32⟩ : BufTy).Contents (Elt Ideal)) (x1 : (⟨S2x1600000, .i32⟩ : BufTy).Contents (Elt Ideal)) (x3 : (⟨S5x64x64, .f32⟩ : BufTy).Contents (Elt Ideal)) (x4 : (⟨S5x64, .f32⟩ : BufTy).Contents (Elt Ideal)) (x5 : (⟨S5x64x64, .f32⟩ : BufTy).Contents (Elt Ideal)) (x6 : (⟨S5x64, .f32⟩ : BufTy).Contents (Elt Ideal)) :
    val_main_v97 (F := Ideal) x0 x1 x3 x4 x5 x6 = aggR (val_main_v87 (F := Ideal) x0 x1 x3 x4 x5 x6) x1 := rfl

theorem agg4 (x0 : (⟨S100000x64, .f32⟩ : BufTy).Contents (Elt Ideal)) (x1 : (⟨S2x1600000, .i32⟩ : BufTy).Contents (Elt Ideal)) (x3 : (⟨S5x64x64, .f32⟩ : BufTy).Contents (Elt Ideal)) (x4 : (⟨S5x64, .f32⟩ : BufTy).Contents (Elt Ideal)) (x5 : (⟨S5x64x64, .f32⟩ : BufTy).Contents (Elt Ideal)) (x6 : (⟨S5x64, .f32⟩ : BufTy).Contents (Elt Ideal)) :
    val_main_v125 (F := Ideal) x0 x1 x3 x4 x5 x6 = aggR (val_main_v115 (F := Ideal) x0 x1 x3 x4 x5 x6) x1 := rfl

/-! ## One layer's arithmetic, for any operands -/

/-- The layers' matrix product, read at row r and column q: the sum over the contracted axis of the left operand's row r
    times the right operand's column q. -/
theorem dot_read (y0 : (⟨S100000x64, .f32⟩ : BufTy).Contents (Elt Ideal)) (y1 : (⟨S64x64, .f32⟩ : BufTy).Contents (Elt Ideal)) (r : Fin 100000) (q : Fin 64) :
    Host.dotGeneral (F := Ideal) (φ₁ := .f32) (φ₂ := .f32) dot_S100000x64_S64x64_S100000x64_1_0_0_1_n_n none y0 y1 (ix2 r q) = ∑ k : Fin 64, y0 (ix2 r k) * y1 (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r q) ((contrEquiv1 dot_S100000x64_S64x64_S100000x64_1_0_0_1_n_n 64 rfl rfl).symm k) = ix2 r k := funext fun a => Fin.ext (by
    match a with
    | ⟨0, _⟩ => exact lhs_main_v17_0 _ _
    | ⟨1, _⟩ => exact (lhs_main_v17_1 _ _).trans hk)
  have er : dot_S100000x64_S64x64_S100000x64_1_0_0_1_n_n.rhsIdx (ix2 r q) ((contrEquiv1 dot_S100000x64_S64x64_S100000x64_1_0_0_1_n_n 64 rfl rfl).symm k) = ix2 k q := funext fun a => Fin.ext (by
    match a with
    | ⟨0, _⟩ => exact (rhs_main_v17_0 _ _).trans hk
    | ⟨1, _⟩ => exact rhs_main_v17_1 _ _)
  rw [el, er]

/-- A bias vector broadcast to a row and then down the rows reads, at (r, k), the vector's entry k. -/
theorem rowBias_read (b : (⟨S64, .f32⟩ : BufTy).Contents (Elt Ideal)) (r : Fin 100000) (k : Fin 64) :
    broadcastInDim S100000x64 ![0, 1] bcast_S1x64_S100000x64_0_1 (broadcastInDim S1x64 ![1] bcast_S64_S1x64_1 b) (ix2 r k) = b (ix1 k) := by
  rw [broadcastInDim_apply _ bcast_S1x64_S100000x64_0_1 _ (ix2 r k) (ix2 (0 : Fin 1) k) (fun a => match a with
      | ⟨0, _⟩ => by show 0 = if (1 : Nat) = 1 then 0 else r.val; rw [if_pos rfl]
      | ⟨1, _⟩ => by show k.val = if (64 : Nat) = 1 then 0 else k.val; rw [if_neg (by decide)]),
    broadcastInDim_apply _ bcast_S64_S1x64_1 b (ix2 (0 : Fin 1) k) (ix1 k) (fun a => match a with
      | ⟨0, _⟩ => by show k.val = if (64 : Nat) = 1 then 0 else k.val; rw [if_neg (by decide)])]

/-- The rectifier's zero matrix reads 0 everywhere. -/
theorem zeros_read (i : S100000x64.Idx) :
    broadcastInDim S100000x64 ![] bcast_S_S100000x64 (constant (F := Ideal) S_ .f32 0x00000000#32) i = 0 := by
  rw [broadcastInDim_apply _ bcast_S_S100000x64 _ i ix0 (fun a => a.elim0), constant_apply, Ideal.ofBits_zero_f32]

/-- One layer: the product of "features plus aggregate" with the first weights, plus the first bias down the rows,
    rectified, times the second weights, plus the second bias, read at (r, q), is the perceptron of row r. -/
theorem mlp_read (hin agg : (⟨S100000x64, .f32⟩ : BufTy).Contents (Elt Ideal)) (w1 : (⟨S64x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal))
    (W1 : Fin 64 → Fin 64 → EReal) (B1 : Fin 64 → EReal) (W2 : Fin 64 → Fin 64 → EReal) (B2 : Fin 64 → EReal)
    (hw1 : ∀ j k : Fin 64, w1 (ix2 j k) = W1 j k) (hb1 : ∀ k : Fin 64, b1 (ix1 k) = B1 k)
    (hw2 : ∀ j k : Fin 64, w2 (ix2 j k) = W2 j k) (hb2 : ∀ k : Fin 64, b2 (ix1 k) = B2 k)
    (r : Fin 100000) (q : Fin 64) :
    addf (F := Ideal) (φ := .f32)
        (Host.dotGeneral (F := Ideal) (φ₁ := .f32) (φ₂ := .f32) dot_S100000x64_S64x64_S100000x64_1_0_0_1_n_n none
          (maximumf (F := Ideal) (φ := .f32)
            (addf (F := Ideal) (φ := .f32)
              (Host.dotGeneral (F := Ideal) (φ₁ := .f32) (φ₂ := .f32) dot_S100000x64_S64x64_S100000x64_1_0_0_1_n_n none (addf (F := Ideal) (φ := .f32) hin agg) w1)
              (broadcastInDim S100000x64 ![0, 1] bcast_S1x64_S100000x64_0_1 (broadcastInDim S1x64 ![1] bcast_S64_S1x64_1 b1)))
            (broadcastInDim S100000x64 ![] bcast_S_S100000x64 (constant (F := Ideal) S_ .f32 0x00000000#32)))
          w2)
        (broadcastInDim S100000x64 ![0, 1] bcast_S1x64_S100000x64_0_1 (broadcastInDim S1x64 ![1] bcast_S64_S1x64_1 b2))
        (ix2 r q)
      = mlpRow (fun j => hin (ix2 r j) + agg (ix2 r j)) W1 B1 W2 B2 q := by
  unfold mlpRow
  rw [addf_apply, dot_read, rowBias_read, hb2]
  congr 1
  refine Finset.sum_congr rfl fun k _ => ?_
  rw [maximumf_apply, addf_apply, dot_read, rowBias_read, hb1, zeros_read, hw2]
  have inner : (∑ j : Fin 64, addf (F := Ideal) (φ := .f32) hin agg (ix2 r j) * w1 (ix2 j k))
      = ∑ j : Fin 64, (hin (ix2 r j) + agg (ix2 r j)) * W1 j k :=
    Finset.sum_congr rfl fun j _ => by rw [addf_apply, hw1]
  rw [inner]

/-! ## Layer 0 -/

/-- Layer 0's first weight matrix is slice 0 of the stacked array. -/
theorem sliceW1_0 (x3 : (⟨S5x64x64, .f32⟩ : BufTy).Contents (Elt Ideal)) (j k : Fin 64) :
    val_main_v16 (F := Ideal) x3 (ix2 j k) = x3 (ix3 (0 : Fin 5) j k) := by
  rw [val_main_v16_apply, val_main_v15_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 0's first bias is row 0 of the stacked array. -/
theorem sliceb1_0 (x4 : (⟨S5x64, .f32⟩ : BufTy).Contents (Elt Ideal)) (k : Fin 64) :
    val_main_v19 (F := Ideal) x4 (ix1 k) = x4 (ix2 (0 : Fin 5) k) := by
  rw [val_main_v19_apply, val_main_v18_apply]
  congr 1
  funext a
  apply Fin.ext
  match a with
  | ⟨0, _⟩ => rfl
  | ⟨1, _⟩ => exact Nat.mod_eq_of_lt k.isLt

/-- Layer 0's second weight matrix is slice 0 of the stacked array. -/
theorem sliceW2_0 (x5 : (⟨S5x64x64, .f32⟩ : BufTy).Contents (Elt Ideal)) (j k : Fin 64) :
    val_main_v25 (F := Ideal) x5 (ix2 j k) = x5 (ix3 (0 : Fin 5) j k) := by
  rw [val_main_v25_apply, val_main_v24_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 0's second bias is row 0 of the stacked array. -/
theorem sliceb2_0 (x6 : (⟨S5x64, .f32⟩ : BufTy).Contents (Elt Ideal)) (k : Fin 64) :
    val_main_v28 (F := Ideal) x6 (ix1 k) = x6 (ix2 (0 : Fin 5) k) := by
  rw [val_main_v28_apply, val_main_v27_apply]
  congr 1
  funext a
  apply Fin.ext
  match a with
  | ⟨0, _⟩ => rfl
  | ⟨1, _⟩ => exact Nat.mod_eq_of_lt k.isLt

/-- Layer 0's output at (r, q): the perceptron of the row "features plus aggregated features" of the input. -/
theorem layer0 (x0 : (⟨S100000x64, .f32⟩ : BufTy).Contents (Elt Ideal)) (x1 : (⟨S2x1600000, .i32⟩ : BufTy).Contents (Elt Ideal)) (x3 : (⟨S5x64x64, .f32⟩ : BufTy).Contents (Elt Ideal)) (x4 : (⟨S5x64, .f32⟩ : BufTy).Contents (Elt Ideal)) (x5 : (⟨S5x64x64, .f32⟩ : BufTy).Contents (Elt Ideal)) (x6 : (⟨S5x64, .f32⟩ : BufTy).Contents (Elt Ideal)) (r : Fin 100000) (q : Fin 64) :
    val_main_v31 (F := Ideal) x0 x1 x3 x4 x5 x6 (ix2 r q)
      = mlpRow (fun j => x0 (ix2 r j) + aggR x0 x1 (ix2 r j))
          (fun j k => x3 (ix3 (0 : Fin 5) j k)) (fun k => x4 (ix2 (0 : Fin 5) k))
          (fun k q' => x5 (ix3 (0 : Fin 5) k q')) (fun q' => x6 (ix2 (0 : Fin 5) q')) q := by
  rw [← agg0]
  exact mlp_read x0 (val_main_v13 (F := Ideal) x0 x1) (val_main_v16 (F := Ideal) x3) (val_main_v19 (F := Ideal) x4)
    (val_main_v25 (F := Ideal) x5) (val_main_v28 (F := Ideal) x6) _ _ _ _
    (sliceW1_0 x3) (sliceb1_0 x4) (sliceW2_0 x5) (sliceb2_0 x6) r q

/-! ## Layer 1 -/

/-- Layer 1's first weight matrix is slice 1 of the stacked array. -/
theorem sliceW1_1 (x3 : (⟨S5x64x64, .f32⟩ : BufTy).Contents (Elt Ideal)) (j k : Fin 64) :
    val_main_v44 (F := Ideal) x3 (ix2 j k) = x3 (ix3 (1 : Fin 5) j k) := by
  rw [val_main_v44_apply, val_main_v43_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 1's first bias is row 1 of the stacked array. -/
theorem sliceb1_1 (x4 : (⟨S5x64, .f32⟩ : BufTy).Contents (Elt Ideal)) (k : Fin 64) :
    val_main_v47 (F := Ideal) x4 (ix1 k) = x4 (ix2 (1 : Fin 5) k) := by
  rw [val_main_v47_apply, val_main_v46_apply]
  congr 1
  funext a
  apply Fin.ext
  match a with
  | ⟨0, _⟩ => rfl
  | ⟨1, _⟩ => exact Nat.mod_eq_of_lt k.isLt

/-- Layer 1's second weight matrix is slice 1 of the stacked array. -/
theorem sliceW2_1 (x5 : (⟨S5x64x64, .f32⟩ : BufTy).Contents (Elt Ideal)) (j k : Fin 64) :
    val_main_v53 (F := Ideal) x5 (ix2 j k) = x5 (ix3 (1 : Fin 5) j k) := by
  rw [val_main_v53_apply, val_main_v52_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 1's second bias is row 1 of the stacked array. -/
theorem sliceb2_1 (x6 : (⟨S5x64, .f32⟩ : BufTy).Contents (Elt Ideal)) (k : Fin 64) :
    val_main_v56 (F := Ideal) x6 (ix1 k) = x6 (ix2 (1 : Fin 5) k) := by
  rw [val_main_v56_apply, val_main_v55_apply]
  congr 1
  funext a
  apply Fin.ext
  match a with
  | ⟨0, _⟩ => rfl
  | ⟨1, _⟩ => exact Nat.mod_eq_of_lt k.isLt

/-- Layer 1's output at (r, q): the perceptron of the row "features plus aggregated features" of layer 0's output. -/
theorem layer1 (x0 : (⟨S100000x64, .f32⟩ : BufTy).Contents (Elt Ideal)) (x1 : (⟨S2x1600000, .i32⟩ : BufTy).Contents (Elt Ideal)) (x3 : (⟨S5x64x64, .f32⟩ : BufTy).Contents (Elt Ideal)) (x4 : (⟨S5x64, .f32⟩ : BufTy).Contents (Elt Ideal)) (x5 : (⟨S5x64x64, .f32⟩ : BufTy).Contents (Elt Ideal)) (x6 : (⟨S5x64, .f32⟩ : BufTy).Contents (Elt Ideal)) (r : Fin 100000) (q : Fin 64) :
    val_main_v59 (F := Ideal) x0 x1 x3 x4 x5 x6 (ix2 r q)
      = mlpRow (fun j => val_main_v31 (F := Ideal) x0 x1 x3 x4 x5 x6 (ix2 r j) + aggR (val_main_v31 (F := Ideal) x0 x1 x3 x4 x5 x6) x1 (ix2 r j))
          (fun j k => x3 (ix3 (1 : Fin 5) j k)) (fun k => x4 (ix2 (1 : Fin 5) k))
          (fun k q' => x5 (ix3 (1 : Fin 5) k q')) (fun q' => x6 (ix2 (1 : Fin 5) q')) q := by
  rw [← agg1]
  exact mlp_read (val_main_v31 (F := Ideal) x0 x1 x3 x4 x5 x6) (val_main_v41 (F := Ideal) x0 x1 x3 x4 x5 x6) (val_main_v44 (F := Ideal) x3) (val_main_v47 (F := Ideal) x4)
    (val_main_v53 (F := Ideal) x5) (val_main_v56 (F := Ideal) x6) _ _ _ _
    (sliceW1_1 x3) (sliceb1_1 x4) (sliceW2_1 x5) (sliceb2_1 x6) r q

/-! ## Layer 2 -/

/-- Layer 2's first weight matrix is slice 2 of the stacked array. -/
theorem sliceW1_2 (x3 : (⟨S5x64x64, .f32⟩ : BufTy).Contents (Elt Ideal)) (j k : Fin 64) :
    val_main_v72 (F := Ideal) x3 (ix2 j k) = x3 (ix3 (2 : Fin 5) j k) := by
  rw [val_main_v72_apply, val_main_v71_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 2's first bias is row 2 of the stacked array. -/
theorem sliceb1_2 (x4 : (⟨S5x64, .f32⟩ : BufTy).Contents (Elt Ideal)) (k : Fin 64) :
    val_main_v75 (F := Ideal) x4 (ix1 k) = x4 (ix2 (2 : Fin 5) k) := by
  rw [val_main_v75_apply, val_main_v74_apply]
  congr 1
  funext a
  apply Fin.ext
  match a with
  | ⟨0, _⟩ => rfl
  | ⟨1, _⟩ => exact Nat.mod_eq_of_lt k.isLt

/-- Layer 2's second weight matrix is slice 2 of the stacked array. -/
theorem sliceW2_2 (x5 : (⟨S5x64x64, .f32⟩ : BufTy).Contents (Elt Ideal)) (j k : Fin 64) :
    val_main_v81 (F := Ideal) x5 (ix2 j k) = x5 (ix3 (2 : Fin 5) j k) := by
  rw [val_main_v81_apply, val_main_v80_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 2's second bias is row 2 of the stacked array. -/
theorem sliceb2_2 (x6 : (⟨S5x64, .f32⟩ : BufTy).Contents (Elt Ideal)) (k : Fin 64) :
    val_main_v84 (F := Ideal) x6 (ix1 k) = x6 (ix2 (2 : Fin 5) k) := by
  rw [val_main_v84_apply, val_main_v83_apply]
  congr 1
  funext a
  apply Fin.ext
  match a with
  | ⟨0, _⟩ => rfl
  | ⟨1, _⟩ => exact Nat.mod_eq_of_lt k.isLt

/-- Layer 2's output at (r, q): the perceptron of the row "features plus aggregated features" of layer 1's output. -/
theorem layer2 (x0 : (⟨S100000x64, .f32⟩ : BufTy).Contents (Elt Ideal)) (x1 : (⟨S2x1600000, .i32⟩ : BufTy).Contents (Elt Ideal)) (x3 : (⟨S5x64x64, .f32⟩ : BufTy).Contents (Elt Ideal)) (x4 : (⟨S5x64, .f32⟩ : BufTy).Contents (Elt Ideal)) (x5 : (⟨S5x64x64, .f32⟩ : BufTy).Contents (Elt Ideal)) (x6 : (⟨S5x64, .f32⟩ : BufTy).Contents (Elt Ideal)) (r : Fin 100000) (q : Fin 64) :
    val_main_v87 (F := Ideal) x0 x1 x3 x4 x5 x6 (ix2 r q)
      = mlpRow (fun j => val_main_v59 (F := Ideal) x0 x1 x3 x4 x5 x6 (ix2 r j) + aggR (val_main_v59 (F := Ideal) x0 x1 x3 x4 x5 x6) x1 (ix2 r j))
          (fun j k => x3 (ix3 (2 : Fin 5) j k)) (fun k => x4 (ix2 (2 : Fin 5) k))
          (fun k q' => x5 (ix3 (2 : Fin 5) k q')) (fun q' => x6 (ix2 (2 : Fin 5) q')) q := by
  rw [← agg2]
  exact mlp_read (val_main_v59 (F := Ideal) x0 x1 x3 x4 x5 x6) (val_main_v69 (F := Ideal) x0 x1 x3 x4 x5 x6) (val_main_v72 (F := Ideal) x3) (val_main_v75 (F := Ideal) x4)
    (val_main_v81 (F := Ideal) x5) (val_main_v84 (F := Ideal) x6) _ _ _ _
    (sliceW1_2 x3) (sliceb1_2 x4) (sliceW2_2 x5) (sliceb2_2 x6) r q

/-! ## Layer 3 -/

/-- Layer 3's first weight matrix is slice 3 of the stacked array. -/
theorem sliceW1_3 (x3 : (⟨S5x64x64, .f32⟩ : BufTy).Contents (Elt Ideal)) (j k : Fin 64) :
    val_main_v100 (F := Ideal) x3 (ix2 j k) = x3 (ix3 (3 : Fin 5) j k) := by
  rw [val_main_v100_apply, val_main_v99_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 3's first bias is row 3 of the stacked array. -/
theorem sliceb1_3 (x4 : (⟨S5x64, .f32⟩ : BufTy).Contents (Elt Ideal)) (k : Fin 64) :
    val_main_v103 (F := Ideal) x4 (ix1 k) = x4 (ix2 (3 : Fin 5) k) := by
  rw [val_main_v103_apply, val_main_v102_apply]
  congr 1
  funext a
  apply Fin.ext
  match a with
  | ⟨0, _⟩ => rfl
  | ⟨1, _⟩ => exact Nat.mod_eq_of_lt k.isLt

/-- Layer 3's second weight matrix is slice 3 of the stacked array. -/
theorem sliceW2_3 (x5 : (⟨S5x64x64, .f32⟩ : BufTy).Contents (Elt Ideal)) (j k : Fin 64) :
    val_main_v109 (F := Ideal) x5 (ix2 j k) = x5 (ix3 (3 : Fin 5) j k) := by
  rw [val_main_v109_apply, val_main_v108_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 3's second bias is row 3 of the stacked array. -/
theorem sliceb2_3 (x6 : (⟨S5x64, .f32⟩ : BufTy).Contents (Elt Ideal)) (k : Fin 64) :
    val_main_v112 (F := Ideal) x6 (ix1 k) = x6 (ix2 (3 : Fin 5) k) := by
  rw [val_main_v112_apply, val_main_v111_apply]
  congr 1
  funext a
  apply Fin.ext
  match a with
  | ⟨0, _⟩ => rfl
  | ⟨1, _⟩ => exact Nat.mod_eq_of_lt k.isLt

/-- Layer 3's output at (r, q): the perceptron of the row "features plus aggregated features" of layer 2's output. -/
theorem layer3 (x0 : (⟨S100000x64, .f32⟩ : BufTy).Contents (Elt Ideal)) (x1 : (⟨S2x1600000, .i32⟩ : BufTy).Contents (Elt Ideal)) (x3 : (⟨S5x64x64, .f32⟩ : BufTy).Contents (Elt Ideal)) (x4 : (⟨S5x64, .f32⟩ : BufTy).Contents (Elt Ideal)) (x5 : (⟨S5x64x64, .f32⟩ : BufTy).Contents (Elt Ideal)) (x6 : (⟨S5x64, .f32⟩ : BufTy).Contents (Elt Ideal)) (r : Fin 100000) (q : Fin 64) :
    val_main_v115 (F := Ideal) x0 x1 x3 x4 x5 x6 (ix2 r q)
      = mlpRow (fun j => val_main_v87 (F := Ideal) x0 x1 x3 x4 x5 x6 (ix2 r j) + aggR (val_main_v87 (F := Ideal) x0 x1 x3 x4 x5 x6) x1 (ix2 r j))
          (fun j k => x3 (ix3 (3 : Fin 5) j k)) (fun k => x4 (ix2 (3 : Fin 5) k))
          (fun k q' => x5 (ix3 (3 : Fin 5) k q')) (fun q' => x6 (ix2 (3 : Fin 5) q')) q := by
  rw [← agg3]
  exact mlp_read (val_main_v87 (F := Ideal) x0 x1 x3 x4 x5 x6) (val_main_v97 (F := Ideal) x0 x1 x3 x4 x5 x6) (val_main_v100 (F := Ideal) x3) (val_main_v103 (F := Ideal) x4)
    (val_main_v109 (F := Ideal) x5) (val_main_v112 (F := Ideal) x6) _ _ _ _
    (sliceW1_3 x3) (sliceb1_3 x4) (sliceW2_3 x5) (sliceb2_3 x6) r q

/-! ## Layer 4 -/

/-- Layer 4's first weight matrix is slice 4 of the stacked array. -/
theorem sliceW1_4 (x3 : (⟨S5x64x64, .f32⟩ : BufTy).Contents (Elt Ideal)) (j k : Fin 64) :
    val_main_v128 (F := Ideal) x3 (ix2 j k) = x3 (ix3 (4 : Fin 5) j k) := by
  rw [val_main_v128_apply, val_main_v127_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 4's first bias is row 4 of the stacked array. -/
theorem sliceb1_4 (x4 : (⟨S5x64, .f32⟩ : BufTy).Contents (Elt Ideal)) (k : Fin 64) :
    val_main_v131 (F := Ideal) x4 (ix1 k) = x4 (ix2 (4 : Fin 5) k) := by
  rw [val_main_v131_apply, val_main_v130_apply]
  congr 1
  funext a
  apply Fin.ext
  match a with
  | ⟨0, _⟩ => rfl
  | ⟨1, _⟩ => exact Nat.mod_eq_of_lt k.isLt

/-- Layer 4's second weight matrix is slice 4 of the stacked array. -/
theorem sliceW2_4 (x5 : (⟨S5x64x64, .f32⟩ : BufTy).Contents (Elt Ideal)) (j k : Fin 64) :
    val_main_v137 (F := Ideal) x5 (ix2 j k) = x5 (ix3 (4 : Fin 5) j k) := by
  rw [val_main_v137_apply, val_main_v136_apply]
  congr 1
  funext a
  apply Fin.ext
  have hj := j.isLt
  have hk := k.isLt
  match a with
  | ⟨0, _⟩ => rfl
  | ⟨1, _⟩ => show (j.val * 64 + k.val) / 64 % 64 = j.val; omega
  | ⟨2, _⟩ => show (j.val * 64 + k.val) % 64 = k.val; omega

/-- Layer 4's second bias is row 4 of the stacked array. -/
theorem sliceb2_4 (x6 : (⟨S5x64, .f32⟩ : BufTy).Contents (Elt Ideal)) (k : Fin 64) :
    val_main_v140 (F := Ideal) x6 (ix1 k) = x6 (ix2 (4 : Fin 5) k) := by
  rw [val_main_v140_apply, val_main_v139_apply]
  congr 1
  funext a
  apply Fin.ext
  match a with
  | ⟨0, _⟩ => rfl
  | ⟨1, _⟩ => exact Nat.mod_eq_of_lt k.isLt

/-- Layer 4's output at (r, q): the perceptron of the row "features plus aggregated features" of layer 3's output. -/
theorem layer4 (x0 : (⟨S100000x64, .f32⟩ : BufTy).Contents (Elt Ideal)) (x1 : (⟨S2x1600000, .i32⟩ : BufTy).Contents (Elt Ideal)) (x3 : (⟨S5x64x64, .f32⟩ : BufTy).Contents (Elt Ideal)) (x4 : (⟨S5x64, .f32⟩ : BufTy).Contents (Elt Ideal)) (x5 : (⟨S5x64x64, .f32⟩ : BufTy).Contents (Elt Ideal)) (x6 : (⟨S5x64, .f32⟩ : BufTy).Contents (Elt Ideal)) (r : Fin 100000) (q : Fin 64) :
    val_main_v143 (F := Ideal) x0 x1 x3 x4 x5 x6 (ix2 r q)
      = mlpRow (fun j => val_main_v115 (F := Ideal) x0 x1 x3 x4 x5 x6 (ix2 r j) + aggR (val_main_v115 (F := Ideal) x0 x1 x3 x4 x5 x6) x1 (ix2 r j))
          (fun j k => x3 (ix3 (4 : Fin 5) j k)) (fun k => x4 (ix2 (4 : Fin 5) k))
          (fun k q' => x5 (ix3 (4 : Fin 5) k q')) (fun q' => x6 (ix2 (4 : Fin 5) q')) q := by
  rw [← agg4]
  exact mlp_read (val_main_v115 (F := Ideal) x0 x1 x3 x4 x5 x6) (val_main_v125 (F := Ideal) x0 x1 x3 x4 x5 x6) (val_main_v128 (F := Ideal) x3) (val_main_v131 (F := Ideal) x4)
    (val_main_v137 (F := Ideal) x5) (val_main_v140 (F := Ideal) x6) _ _ _ _
    (sliceW1_4 x3) (sliceb1_4 x4) (sliceW2_4 x5) (sliceb2_4 x6) r q

end Cert.ReferenceIdeal.Hand

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.RefReadout.lean ====
/-
  The tail of the reference program, read at an index: the mean pool over the 256 graphs and the readout.

  After the fifth layer the node features h (100000 rows of 64) are summed per graph by an accumulating scatter into a
  zero table: row g of the result is the sum of the rows of h whose segment id, read signed, is g. The same scatter of a
  vector of ones counts the rows of each graph. The sums are divided by the counts raised to at least one, and the
  pooled rows go through the two-layer perceptron: a product with the first weight matrix, a bias, a maximum with zero,
  a product with the second weight matrix, a bias.
-/
import proofs.«419162_j62646392980003_1_alg».proof.Proof.Gen.ReferenceIdeal.Read
import proofs.«419162_j62646392980003_1_alg».proof.Proof.Spec
import proofs.«419162_j62646392980003_1_alg».proof.Proof.LibRows
import Idealize.ShloMosaic.Lib.IdealHost
import Idealize.ShloMosaic.Lib.ValueLayout

noncomputable section

namespace Cert.ReferenceIdeal.Hand

open Cert.ReferenceIdeal Cert.ReferenceIdeal.Read Gin.Spec Idealize.ShloMosaic Idealize.ShloMosaic.ValueIdx

/-- The segment-id column at (e, 0) is the id of row e. -/
theorem idcol_149 (e : Fin 100000) : idx_main_v149 (ix2 e (0 : Fin 1)) = ix1 e :=
  funext fun a => match a with | ⟨0, _⟩ => rfl

/-- The count of graph g: the zero table plus a one for every row whose segment id is g. -/
theorem pool_counts (x2 : (⟨S100000, .i32⟩ : BufTy).Contents (Elt Ideal)) (g : Fin 256) :
    val_main_v150 (F := Ideal) x2 (ix1 g) = segCount (fun n : Fin 100000 => x2 (ix1 n)) g.val := by
  unfold val_main_v150 Host.scatterAdd
  rw [Ideal.hostScatterAdd_def,
    Gcn.Rows.scatterAdd_vec scatter_S256_S100000x1_S100000_n_0_0_1 rfl rfl rfl rfl]
  rw [val_main_v148_apply, val_main_cst_15_apply, Ideal.ofBits_def, Ideal.ofBits_zero_f32, zero_add]
  unfold segCount
  refine Finset.sum_congr rfl fun e _ => ?_
  rw [val_main_v149_apply, idcol_149, val_main_v147_apply, val_main_cst_14_apply, Ideal.ofBits_def,
    Ideal.ofBits_one_f32]

/-- The segment-id column at (e, 0) is the id of row e. -/
theorem idcol_145 (e : Fin 100000) : idx_main_v145 (ix2 e (0 : Fin 1)) = ix1 e :=
  funext fun a => match a with | ⟨0, _⟩ => rfl

/-- Entry (g, j) of the feature sums: the zero table plus entry j of every row of h whose segment id is g. -/
theorem pool_sums (x0 : (⟨S100000x64, .f32⟩ : BufTy).Contents (Elt Ideal)) (x1 : (⟨S2x1600000, .i32⟩ : BufTy).Contents (Elt Ideal))
    (x2 : (⟨S100000, .i32⟩ : BufTy).Contents (Elt Ideal)) (x3 : (⟨S5x64x64, .f32⟩ : BufTy).Contents (Elt Ideal))
    (x4 : (⟨S5x64, .f32⟩ : BufTy).Contents (Elt Ideal)) (x5 : (⟨S5x64x64, .f32⟩ : BufTy).Contents (Elt Ideal))
    (x6 : (⟨S5x64, .f32⟩ : BufTy).Contents (Elt Ideal)) (g : Fin 256) (j : Fin 64) :
    val_main_v146 (F := Ideal) x0 x1 x2 x3 x4 x5 x6 (ix2 g j)
      = segSum (fun n : Fin 100000 => x2 (ix1 n)) (fun n => val_main_v143 (F := Ideal) x0 x1 x3 x4 x5 x6 (ix2 n j)) g.val := by
  unfold val_main_v146 Host.scatterAdd
  generalize val_main_v143 (F := Ideal) x0 x1 x3 x4 x5 x6 = h
  rw [Ideal.hostScatterAdd_def,
    Gcn.Rows.scatterAdd_rows scatter_S256x64_S100000x1_S100000x64_1_0_0_1 rfl rfl rfl rfl]
  rw [val_main_v144_apply, val_main_cst_13_apply, Ideal.ofBits_def, Ideal.ofBits_zero_f32, zero_add]
  unfold segSum
  refine Finset.sum_congr rfl fun e _ => ?_
  rw [val_main_v145_apply, idcol_145]

/-! The readout. Each product with a weight matrix reads row g of its left operand and a column of its right operand;
    each bias is a row vector stretched over the 256 rows. -/

theorem lidx_156 (g : Fin 256) (k j : Fin 64) : lidx_main_v156 (ix2 g k) j = ix2 g j :=
  funext fun a => Fin.ext (by match a with | ⟨0, _⟩ => rfl | ⟨1, _⟩ => rfl)

theorem ridx_156 (g : Fin 256) (k j : Fin 64) : ridx_main_v156 (ix2 g k) j = ix2 j k :=
  funext fun a => Fin.ext (by match a with | ⟨0, _⟩ => rfl | ⟨1, _⟩ => rfl)

theorem lidx_161 (g : Fin 256) (q k : Fin 64) : lidx_main_v161 (ix2 g q) k = ix2 g k :=
  funext fun a => Fin.ext (by match a with | ⟨0, _⟩ => rfl | ⟨1, _⟩ => rfl)

theorem ridx_161 (g : Fin 256) (q k : Fin 64) : ridx_main_v161 (ix2 g q) k = ix2 k q :=
  funext fun a => Fin.ext (by match a with | ⟨0, _⟩ => rfl | ⟨1, _⟩ => rfl)

/-- Entry (g, j) of the pooled table: the feature sum over the count raised to at least one. -/
theorem pooled_apply (x0 : (⟨S100000x64, .f32⟩ : BufTy).Contents (Elt Ideal)) (x1 : (⟨S2x1600000, .i32⟩ : BufTy).Contents (Elt Ideal))
    (x2 : (⟨S100000, .i32⟩ : BufTy).Contents (Elt Ideal)) (x3 : (⟨S5x64x64, .f32⟩ : BufTy).Contents (Elt Ideal))
    (x4 : (⟨S5x64, .f32⟩ : BufTy).Contents (Elt Ideal)) (x5 : (⟨S5x64x64, .f32⟩ : BufTy).Contents (Elt Ideal))
    (x6 : (⟨S5x64, .f32⟩ : BufTy).Contents (Elt Ideal)) (g : Fin 256) (j : Fin 64) :
    val_main_v155 (F := Ideal) x0 x1 x2 x3 x4 x5 x6 (ix2 g j)
      = pooledRow (fun n : Fin 100000 => x2 (ix1 n)) (fun n j => val_main_v143 (F := Ideal) x0 x1 x3 x4 x5 x6 (ix2 n j)) g.val j := by
  have hidx : idx_main_v153 (idx_main_v154 (ix2 g j)) = ix1 g := funext fun a => match a with | ⟨0, _⟩ => rfl
  rw [val_main_v155_apply, Ideal.hostDivf_def, pool_sums, val_main_v154_apply, val_main_v153_apply, hidx,
    val_main_v152_apply, Ideal.maximumf_def, pool_counts, val_main_v151_apply, val_main_cst_16_apply, Ideal.ofBits_def,
    Ideal.ofBits_one_f32]
  rfl

/-- Entry (g, k) of the hidden table: the pooled row of g through the first dense layer, then the maximum with zero. -/
theorem hidden_apply (x0 : (⟨S100000x64, .f32⟩ : BufTy).Contents (Elt Ideal)) (x1 : (⟨S2x1600000, .i32⟩ : BufTy).Contents (Elt Ideal))
    (x2 : (⟨S100000, .i32⟩ : BufTy).Contents (Elt Ideal)) (x3 : (⟨S5x64x64, .f32⟩ : BufTy).Contents (Elt Ideal))
    (x4 : (⟨S5x64, .f32⟩ : BufTy).Contents (Elt Ideal)) (x5 : (⟨S5x64x64, .f32⟩ : BufTy).Contents (Elt Ideal))
    (x6 : (⟨S5x64, .f32⟩ : BufTy).Contents (Elt Ideal))
    (x7 : (⟨S64x64, .f32⟩ : BufTy).Contents (Elt Ideal)) (x8 : (⟨S64, .f32⟩ : BufTy).Contents (Elt Ideal)) (g : Fin 256) (k : Fin 64) :
    val_main_v160 (F := Ideal) x0 x1 x2 x3 x4 x5 x6 x7 x8 (ix2 g k)
      = max (∑ j : Fin 64, pooledRow (fun n : Fin 100000 => x2 (ix1 n)) (fun n j => val_main_v143 (F := Ideal) x0 x1 x3 x4 x5 x6 (ix2 n j)) g.val j * x7 (ix2 j k) + x8 (ix1 k)) 0 := by
  have hb : idx_main_v157 (idx_main_v158 (ix2 g k)) = ix1 k := funext fun a => match a with | ⟨0, _⟩ => rfl
  rw [val_main_v160_apply, Ideal.maximumf_def, val_main_v159_apply, Ideal.addf_def, val_main_v156_apply, val_main_v158_apply,
    val_main_v157_apply, hb, val_main_call5_v0_apply, val_main_call5_cst_apply, Ideal.ofBits_def, Ideal.ofBits_zero_f32]
  refine congrArg (fun s => max (s + x8 (ix1 k)) 0) (Finset.sum_congr rfl fun j _ => ?_)
  rw [lidx_156, ridx_156, pooled_apply]

/-- Entry (g, q) of the result: the pooled row of graph g through the two-layer perceptron. -/
theorem readout (x0 : (⟨S100000x64, .f32⟩ : BufTy).Contents (Elt Ideal)) (x1 : (⟨S2x1600000, .i32⟩ : BufTy).Contents (Elt Ideal))
    (x2 : (⟨S100000, .i32⟩ : BufTy).Contents (Elt Ideal)) (x3 : (⟨S5x64x64, .f32⟩ : BufTy).Contents (Elt Ideal))
    (x4 : (⟨S5x64, .f32⟩ : BufTy).Contents (Elt Ideal)) (x5 : (⟨S5x64x64, .f32⟩ : BufTy).Contents (Elt Ideal))
    (x6 : (⟨S5x64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal)) (g : Fin 256) (q : Fin 64) :
    val_main_v164 (F := Ideal) x0 x1 x2 x3 x4 x5 x6 x7 x8 x9 x10 (ix2 g q)
      = mlpRow (pooledRow (fun n : Fin 100000 => x2 (ix1 n)) (fun n j => val_main_v143 (F := Ideal) x0 x1 x3 x4 x5 x6 (ix2 n j)) g.val)
          (fun j k => x7 (ix2 j k)) (fun k => x8 (ix1 k)) (fun k q' => x9 (ix2 k q')) (fun q' => x10 (ix1 q')) q := by
  have hb : idx_main_v162 (idx_main_v163 (ix2 g q)) = ix1 q := funext fun a => match a with | ⟨0, _⟩ => rfl
  rw [val_main_v164_apply, Ideal.addf_def, val_main_v161_apply, val_main_v163_apply, val_main_v162_apply, hb]
  unfold mlpRow
  refine congrArg (fun s => s + x10 (ix1 q)) (Finset.sum_congr rfl fun k _ => ?_)
  rw [lidx_161, ridx_161, hidden_apply]

end Cert.ReferenceIdeal.Hand

end
-- ==== Proof.KI.Value.lean ====
/-
  The idealized kernel program's result is the reference's.

  Layer by layer: the region's output array is, row by row, the perceptron of "features plus aggregated features" with the
  layer's sliced parameters (the region's value), the features entering it are the reference's previous stage (the step
  before), the aggregated features are one and the same function of them in both programs, and the slices are the
  reference's own terms; the reference's stage read at an index is the same perceptron. After the fifth layer the pooled rows
  over the padded arrays are the pooled rows over the unpadded ones, and both programs apply the readout perceptron to them.
-/
import proofs.«419162_j62646392980003_1_alg».proof.Proof.KI.HostVal
import proofs.«419162_j62646392980003_1_alg».proof.Proof.KI.PadVal
import proofs.«419162_j62646392980003_1_alg».proof.Proof.KI.MlpValue0
import proofs.«419162_j62646392980003_1_alg».proof.Proof.KI.MlpValue1
import proofs.«419162_j62646392980003_1_alg».proof.Proof.KI.MlpValue2
import proofs.«419162_j62646392980003_1_alg».proof.Proof.KI.MlpValue3
import proofs.«419162_j62646392980003_1_alg».proof.Proof.KI.MlpValue4
import proofs.«419162_j62646392980003_1_alg».proof.Proof.KI.PoolValue
import proofs.«419162_j62646392980003_1_alg».proof.Proof.RefLayers
import proofs.«419162_j62646392980003_1_alg».proof.Proof.RefReadout

set_option maxRecDepth 16384

noncomputable section

namespace Cert.KernelIdeal.Hand

open Idealize.ShloMosaic Idealize.ShloMosaic.TcCoe Idealize.SL.Sem Idealize.ShloMosaic.ValueIdx Gin.Spec
open Cert.KernelIdeal Cert.KernelIdeal.Gen
open Cert.ReferenceIdeal.Read (val_main_v31 val_main_v59 val_main_v87 val_main_v115 val_main_v143 val_main_v164 val_main_v1 val_main_v3)
open Cert.ReferenceIdeal.Hand (aggR)

variable (m : (ℓ : Loc nD τ sig) → Buf (Elt Ideal) ℓ) (outs : Outs (F := Ideal))

/-- The kernel program's aggregation of features h over the edges is the reference's. -/
theorem aggT_eq (h : (⟨S100000x64, .f32⟩ : BufTy).Contents (Elt Ideal)) (x1 : (⟨S2x1600000, .i32⟩ : BufTy).Contents (Elt Ideal)) :
    aggT h (val_main_v1 (F := Ideal) x1) (val_main_v3 (F := Ideal) x1) = aggR h x1 := rfl

/-- Layer 0: the region's output array is the reference's stage. -/
theorem step0 (c : Dev nD)
    (hO : outs 2 main_v22 c = (dat0 (fun c b => V1 m c b) c).arrAt 6 cfg0.N) :
    outs 2 main_v22 c = val_main_v31 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [hO]
  refine (mlpFinal0 (fun c b => V1 m c b) c).trans ?_
  funext i
  obtain ⟨r, q, rfl⟩ : ∃ (r : Fin 100000) (q : Fin 64), i = ix2 r q := ⟨i 0, i 1, eq_ix2 i⟩
  rw [mlpArr0_apply, Cert.ReferenceIdeal.Hand.layer0]
  -- the features entering the layer
  have hh : (V1 m c main_arg0 : S100000x64.Idx → EReal) = m ((c.tc : Thread nD τ).loc main_arg0) := by
    exact V1_of m c main_arg0 (by decide)
  -- the aggregated features
  have ha : (V1 m c main_v13 : S100000x64.Idx → EReal) = aggR (m ((c.tc : Thread nD τ).loc main_arg0)) (m ((c.tc : Thread nD τ).loc main_arg1)) := by
    rw [agg0]
    rw [src1, dst1]
    exact aggT_eq _ _
  show mlpRow (fun j => HAdd.hAdd (α := EReal) (β := EReal) (γ := EReal) ((V1 m c main_arg0 : S100000x64.Idx → EReal) (ix2 r j)) ((V1 m c main_v13 : S100000x64.Idx → EReal) (ix2 r j)))
      (fun j k => (V1 m c main_v15 : S64x64.Idx → EReal) (ix2 j k)) (fun k => (V1 m c main_v17 : S64.Idx → EReal) (ix1 k))
      (fun k q' => (V1 m c main_v19 : S64x64.Idx → EReal) (ix2 k q')) (fun q' => (V1 m c main_v21 : S64.Idx → EReal) (ix1 q')) q = _
  rw [hh, ha, W1_0, b1_0, W2_0, b2_0]
  simp only [Cert.ReferenceIdeal.Hand.sliceW1_0, Cert.ReferenceIdeal.Hand.sliceb1_0, Cert.ReferenceIdeal.Hand.sliceW2_0, Cert.ReferenceIdeal.Hand.sliceb2_0]

/-- Layer 1: the region's output array is the reference's stage. -/
theorem step1 (c : Dev nD) (hprev : outs 2 main_v22 c = val_main_v31 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
    (hO : outs 4 main_v41 c = (dat1 (fun c b => V3 m outs c b) c).arrAt 6 cfg1.N) :
    outs 4 main_v41 c = val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [hO]
  refine (mlpFinal1 (fun c b => V3 m outs c b) c).trans ?_
  funext i
  obtain ⟨r, q, rfl⟩ : ∃ (r : Fin 100000) (q : Fin 64), i = ix2 r q := ⟨i 0, i 1, eq_ix2 i⟩
  rw [mlpArr1_apply, Cert.ReferenceIdeal.Hand.layer1]
  -- the features entering the layer
  have hh : (V3 m outs c main_v22 : S100000x64.Idx → EReal) = val_main_v31 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
    rw [V3_of m outs c main_v22 (by decide)]
    show Function.update _ _ _ _ = _
    rw [Function.update_self]
    exact hprev
  -- the aggregated features
  have ha : (V3 m outs c main_v32 : S100000x64.Idx → EReal) = aggR (val_main_v31 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) := by
    rw [agg1]
    rw [keep2_main_v1, keep2_main_v3, src1, dst1]
    have hp : (V2 m outs c main_v22 : S100000x64.Idx → EReal) = val_main_v31 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
      show Function.update _ _ _ _ = _
      rw [Function.update_self]
      exact hprev
    rw [hp]
    exact aggT_eq _ _
  show mlpRow (fun j => HAdd.hAdd (α := EReal) (β := EReal) (γ := EReal) ((V3 m outs c main_v22 : S100000x64.Idx → EReal) (ix2 r j)) ((V3 m outs c main_v32 : S100000x64.Idx → EReal) (ix2 r j)))
      (fun j k => (V3 m outs c main_v34 : S64x64.Idx → EReal) (ix2 j k)) (fun k => (V3 m outs c main_v36 : S64.Idx → EReal) (ix1 k))
      (fun k q' => (V3 m outs c main_v38 : S64x64.Idx → EReal) (ix2 k q')) (fun q' => (V3 m outs c main_v40 : S64.Idx → EReal) (ix1 q')) q = _
  rw [hh, ha, W1_1, b1_1, W2_1, b2_1]
  simp only [Cert.ReferenceIdeal.Hand.sliceW1_1, Cert.ReferenceIdeal.Hand.sliceb1_1, Cert.ReferenceIdeal.Hand.sliceW2_1, Cert.ReferenceIdeal.Hand.sliceb2_1]

/-- Layer 2: the region's output array is the reference's stage. -/
theorem step2 (c : Dev nD) (hprev : outs 4 main_v41 c = val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
    (hO : outs 6 main_v60 c = (dat2 (fun c b => V5 m outs c b) c).arrAt 6 cfg2.N) :
    outs 6 main_v60 c = val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [hO]
  refine (mlpFinal2 (fun c b => V5 m outs c b) c).trans ?_
  funext i
  obtain ⟨r, q, rfl⟩ : ∃ (r : Fin 100000) (q : Fin 64), i = ix2 r q := ⟨i 0, i 1, eq_ix2 i⟩
  rw [mlpArr2_apply, Cert.ReferenceIdeal.Hand.layer2]
  -- the features entering the layer
  have hh : (V5 m outs c main_v41 : S100000x64.Idx → EReal) = val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
    rw [V5_of m outs c main_v41 (by decide)]
    show Function.update _ _ _ _ = _
    rw [Function.update_self]
    exact hprev
  -- the aggregated features
  have ha : (V5 m outs c main_v51 : S100000x64.Idx → EReal) = aggR (val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) := by
    rw [agg2]
    rw [keep4_main_v1, keep4_main_v3, src1, dst1]
    have hp : (V4 m outs c main_v41 : S100000x64.Idx → EReal) = val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
      show Function.update _ _ _ _ = _
      rw [Function.update_self]
      exact hprev
    rw [hp]
    exact aggT_eq _ _
  show mlpRow (fun j => HAdd.hAdd (α := EReal) (β := EReal) (γ := EReal) ((V5 m outs c main_v41 : S100000x64.Idx → EReal) (ix2 r j)) ((V5 m outs c main_v51 : S100000x64.Idx → EReal) (ix2 r j)))
      (fun j k => (V5 m outs c main_v53 : S64x64.Idx → EReal) (ix2 j k)) (fun k => (V5 m outs c main_v55 : S64.Idx → EReal) (ix1 k))
      (fun k q' => (V5 m outs c main_v57 : S64x64.Idx → EReal) (ix2 k q')) (fun q' => (V5 m outs c main_v59 : S64.Idx → EReal) (ix1 q')) q = _
  rw [hh, ha, W1_2, b1_2, W2_2, b2_2]
  simp only [Cert.ReferenceIdeal.Hand.sliceW1_2, Cert.ReferenceIdeal.Hand.sliceb1_2, Cert.ReferenceIdeal.Hand.sliceW2_2, Cert.ReferenceIdeal.Hand.sliceb2_2]

/-- Layer 3: the region's output array is the reference's stage. -/
theorem step3 (c : Dev nD) (hprev : outs 6 main_v60 c = val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
    (hO : outs 8 main_v79 c = (dat3 (fun c b => V7 m outs c b) c).arrAt 6 cfg3.N) :
    outs 8 main_v79 c = val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [hO]
  refine (mlpFinal3 (fun c b => V7 m outs c b) c).trans ?_
  funext i
  obtain ⟨r, q, rfl⟩ : ∃ (r : Fin 100000) (q : Fin 64), i = ix2 r q := ⟨i 0, i 1, eq_ix2 i⟩
  rw [mlpArr3_apply, Cert.ReferenceIdeal.Hand.layer3]
  -- the features entering the layer
  have hh : (V7 m outs c main_v60 : S100000x64.Idx → EReal) = val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
    rw [V7_of m outs c main_v60 (by decide)]
    show Function.update _ _ _ _ = _
    rw [Function.update_self]
    exact hprev
  -- the aggregated features
  have ha : (V7 m outs c main_v70 : S100000x64.Idx → EReal) = aggR (val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) := by
    rw [agg3]
    rw [keep6_main_v1, keep6_main_v3, src1, dst1]
    have hp : (V6 m outs c main_v60 : S100000x64.Idx → EReal) = val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
      show Function.update _ _ _ _ = _
      rw [Function.update_self]
      exact hprev
    rw [hp]
    exact aggT_eq _ _
  show mlpRow (fun j => HAdd.hAdd (α := EReal) (β := EReal) (γ := EReal) ((V7 m outs c main_v60 : S100000x64.Idx → EReal) (ix2 r j)) ((V7 m outs c main_v70 : S100000x64.Idx → EReal) (ix2 r j)))
      (fun j k => (V7 m outs c main_v72 : S64x64.Idx → EReal) (ix2 j k)) (fun k => (V7 m outs c main_v74 : S64.Idx → EReal) (ix1 k))
      (fun k q' => (V7 m outs c main_v76 : S64x64.Idx → EReal) (ix2 k q')) (fun q' => (V7 m outs c main_v78 : S64.Idx → EReal) (ix1 q')) q = _
  rw [hh, ha, W1_3, b1_3, W2_3, b2_3]
  simp only [Cert.ReferenceIdeal.Hand.sliceW1_3, Cert.ReferenceIdeal.Hand.sliceb1_3, Cert.ReferenceIdeal.Hand.sliceW2_3, Cert.ReferenceIdeal.Hand.sliceb2_3]

/-- Layer 4: the region's output array is the reference's stage. -/
theorem step4 (c : Dev nD) (hprev : outs 8 main_v79 c = val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
    (hO : outs 10 main_v98 c = (dat4 (fun c b => V9 m outs c b) c).arrAt 6 cfg4.N) :
    outs 10 main_v98 c = val_main_v143 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [hO]
  refine (mlpFinal4 (fun c b => V9 m outs c b) c).trans ?_
  funext i
  obtain ⟨r, q, rfl⟩ : ∃ (r : Fin 100000) (q : Fin 64), i = ix2 r q := ⟨i 0, i 1, eq_ix2 i⟩
  rw [mlpArr4_apply, Cert.ReferenceIdeal.Hand.layer4]
  -- the features entering the layer
  have hh : (V9 m outs c main_v79 : S100000x64.Idx → EReal) = val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
    rw [V9_of m outs c main_v79 (by decide)]
    show Function.update _ _ _ _ = _
    rw [Function.update_self]
    exact hprev
  -- the aggregated features
  have ha : (V9 m outs c main_v89 : S100000x64.Idx → EReal) = aggR (val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) := by
    rw [agg4]
    rw [keep8_main_v1, keep8_main_v3, src1, dst1]
    have hp : (V8 m outs c main_v79 : S100000x64.Idx → EReal) = val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
      show Function.update _ _ _ _ = _
      rw [Function.update_self]
      exact hprev
    rw [hp]
    exact aggT_eq _ _
  show mlpRow (fun j => HAdd.hAdd (α := EReal) (β := EReal) (γ := EReal) ((V9 m outs c main_v79 : S100000x64.Idx → EReal) (ix2 r j)) ((V9 m outs c main_v89 : S100000x64.Idx → EReal) (ix2 r j)))
      (fun j k => (V9 m outs c main_v91 : S64x64.Idx → EReal) (ix2 j k)) (fun k => (V9 m outs c main_v93 : S64.Idx → EReal) (ix1 k))
      (fun k q' => (V9 m outs c main_v95 : S64x64.Idx → EReal) (ix2 k q')) (fun q' => (V9 m outs c main_v97 : S64.Idx → EReal) (ix1 q')) q = _
  rw [hh, ha, W1_4, b1_4, W2_4, b2_4]
  simp only [Cert.ReferenceIdeal.Hand.sliceW1_4, Cert.ReferenceIdeal.Hand.sliceb1_4, Cert.ReferenceIdeal.Hand.sliceW2_4, Cert.ReferenceIdeal.Hand.sliceb2_4]

/-- The readout's four parameter arrays reach the pooling region as launched. -/
theorem keep_arg7 (c : Dev nD) : V14 m outs c main_arg7 = m ((c.tc : Thread nD τ).loc main_arg7) :=
  ((((((((((((((V14_of m outs c main_arg7 (by decide)).trans (V13_of m outs c main_arg7 (by decide))).trans (V12_of m outs c main_arg7 (by decide))).trans (V11_of m outs c main_arg7 (by decide))).trans (V10_of m outs c main_arg7 (by decide))).trans (V9_of m outs c main_arg7 (by decide))).trans (V8_of m outs c main_arg7 (by decide))).trans (V7_of m outs c main_arg7 (by decide))).trans (V6_of m outs c main_arg7 (by decide))).trans (V5_of m outs c main_arg7 (by decide))).trans (V4_of m outs c main_arg7 (by decide))).trans (V3_of m outs c main_arg7 (by decide))).trans (V2_of m outs c main_arg7 (by decide))).trans (V1_of m c main_arg7 (by decide)))
theorem keep_arg8 (c : Dev nD) : V14 m outs c main_arg8 = m ((c.tc : Thread nD τ).loc main_arg8) :=
  ((((((((((((((V14_of m outs c main_arg8 (by decide)).trans (V13_of m outs c main_arg8 (by decide))).trans (V12_of m outs c main_arg8 (by decide))).trans (V11_of m outs c main_arg8 (by decide))).trans (V10_of m outs c main_arg8 (by decide))).trans (V9_of m outs c main_arg8 (by decide))).trans (V8_of m outs c main_arg8 (by decide))).trans (V7_of m outs c main_arg8 (by decide))).trans (V6_of m outs c main_arg8 (by decide))).trans (V5_of m outs c main_arg8 (by decide))).trans (V4_of m outs c main_arg8 (by decide))).trans (V3_of m outs c main_arg8 (by decide))).trans (V2_of m outs c main_arg8 (by decide))).trans (V1_of m c main_arg8 (by decide)))
theorem keep_arg9 (c : Dev nD) : V14 m outs c main_arg9 = m ((c.tc : Thread nD τ).loc main_arg9) :=
  ((((((((((((((V14_of m outs c main_arg9 (by decide)).trans (V13_of m outs c main_arg9 (by decide))).trans (V12_of m outs c main_arg9 (by decide))).trans (V11_of m outs c main_arg9 (by decide))).trans (V10_of m outs c main_arg9 (by decide))).trans (V9_of m outs c main_arg9 (by decide))).trans (V8_of m outs c main_arg9 (by decide))).trans (V7_of m outs c main_arg9 (by decide))).trans (V6_of m outs c main_arg9 (by decide))).trans (V5_of m outs c main_arg9 (by decide))).trans (V4_of m outs c main_arg9 (by decide))).trans (V3_of m outs c main_arg9 (by decide))).trans (V2_of m outs c main_arg9 (by decide))).trans (V1_of m c main_arg9 (by decide)))
theorem keep_arg10 (c : Dev nD) : V14 m outs c main_arg10 = m ((c.tc : Thread nD τ).loc main_arg10) :=
  ((((((((((((((V14_of m outs c main_arg10 (by decide)).trans (V13_of m outs c main_arg10 (by decide))).trans (V12_of m outs c main_arg10 (by decide))).trans (V11_of m outs c main_arg10 (by decide))).trans (V10_of m outs c main_arg10 (by decide))).trans (V9_of m outs c main_arg10 (by decide))).trans (V8_of m outs c main_arg10 (by decide))).trans (V7_of m outs c main_arg10 (by decide))).trans (V6_of m outs c main_arg10 (by decide))).trans (V5_of m outs c main_arg10 (by decide))).trans (V4_of m outs c main_arg10 (by decide))).trans (V3_of m outs c main_arg10 (by decide))).trans (V2_of m outs c main_arg10 (by decide))).trans (V1_of m c main_arg10 (by decide)))

/-- The pooling region's output array is the reference's result. -/
theorem result_val (c : Dev nD)
    (h4 : outs 10 main_v98 c = val_main_v143 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) :
    ((dat5 (fun c b => V14 m outs c b) c).arrAt 6 cfg5.N : S256x64.Idx → EReal)
      = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (poolFinal (fun c b => V14 m outs c b) c).trans ?_
  funext i
  obtain ⟨g, q, rfl⟩ : ∃ (g : Fin 256) (q : Fin 64), i = ix2 g q := ⟨i 0, i 1, eq_ix2 i⟩
  rw [out5_apply, Cert.ReferenceIdeal.Hand.readout]
  have hp := pooled_pad m outs c g
  have h98 : (V10 m outs c main_v98 : S100000x64.Idx → EReal) = val_main_v143 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
    show Function.update _ _ _ _ = _
    rw [Function.update_self]
    exact h4
  rw [h98] at hp
  show mlpRow (pooledRow (fun n : Fin 106496 => (V14 m outs c main_v100 : S106496.Idx → BitVec 32) (ix1 n)) (fun n j => (V14 m outs c main_v99 : S106496x64.Idx → EReal) (ix2 n j)) g.val)
      (fun j k => (V14 m outs c main_arg7 : S64x64.Idx → EReal) (ix2 j k)) (fun k => (V14 m outs c main_arg8 : S64.Idx → EReal) (ix1 k))
      (fun k q' => (V14 m outs c main_arg9 : S64x64.Idx → EReal) (ix2 k q')) (fun q' => (V14 m outs c main_arg10 : S64.Idx → EReal) (ix1 q')) q = _
  rw [hp, keep_arg7, keep_arg8, keep_arg9, keep_arg10]

end Cert.KernelIdeal.Hand

end
-- ==== Proof.lean ====
/-
  The certificate of a five-layer graph network with a mean pool and a readout against its plain reference.

  Both programs update the node features five times, h ← mlp(h + agg h), where agg sums the features of a node's neighbours:
  a gather of rows by the source index of every edge followed by an accumulating scatter by its destination index. Both programs
  spell agg by the same host operations, so it is carried as one function and never opened. The kernel program computes mlp in a
  kernel region tiled over 5000 rows at a time, the reference by two whole matrix products; over the extended reals a tile's row
  and the reference's row are the same two-layer perceptron of the row h + agg h, a change of float format being the identity.
  The kernel program pools by a one-hot matrix product accumulated over 13 tiles of rows padded to 106496 with zero rows and
  segment id -1; the reference by an accumulating scatter by the segment id. Both are the sum of the rows whose id is the
  graph's number: an id that is no graph's number, the padding's -1 included, matches no column of the one-hot matrix and lands
  nowhere in the scatter. Both divide by max(count, 1) and apply the same perceptron as readout. No step moves a factor across a
  sum, so the finiteness of the inputs is never used.

  The frames (each program runs to its end without a fault and leaves its arguments as launched) come from the run of the six
  kernel regions among the host lines, stated once for any float instance; the word-level program's modules are that text under
  its own names.
-/
import proofs.«419162_j62646392980003_1_alg».proof.Defs
import proofs.«419162_j62646392980003_1_alg».proof.Proof.Gen.Kernel
import proofs.«419162_j62646392980003_1_alg».proof.Proof.Gen.KernelIdeal
import proofs.«419162_j62646392980003_1_alg».proof.Proof.Gen.ReferenceIdeal
import proofs.«419162_j62646392980003_1_alg».proof.Proof.Gen.Pre_finite_inputs
import proofs.«419162_j62646392980003_1_alg».proof.Proof.Gen.ReferenceIdeal.Run
import proofs.«419162_j62646392980003_1_alg».proof.Proof.Gen.ReferenceIdeal.Read
import proofs.«419162_j62646392980003_1_alg».proof.Proof.K.Run
import proofs.«419162_j62646392980003_1_alg».proof.Proof.KI.Run
import proofs.«419162_j62646392980003_1_alg».proof.Proof.KI.Value
import Idealize.ShloMosaic.Adequacy
import Idealize.ShloMosaic.Init

set_option maxRecDepth 16384

noncomputable section

namespace Cert.Proof

open Idealize.ShloMosaic Idealize.ShloMosaic.TcCoe Idealize.SL.Sem

/-- The idealized kernel program's result array is the reference's result term at the same arguments: the five layers in
    order, each from the one before, then the pool and the readout. -/
theorem kernel_result (m : (ℓ : Loc Cert.KernelIdeal.nD Cert.KernelIdeal.τ Cert.KernelIdeal.sig) → Buf (Elt Ideal) ℓ) (c : Dev Cert.KernelIdeal.nD) :
    (Cert.KernelIdeal.Hand.dat5 (fun c b => Cert.KernelIdeal.Gen.V14 m (Cert.KernelIdeal.Hand.outs m) c b) c).arrAt 6 Cert.KernelIdeal.cfg5.N
      = Cert.ReferenceIdeal.Read.val_main_v164 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) :=
  have s0 := Cert.KernelIdeal.Hand.step0 m (Cert.KernelIdeal.Hand.outs m) c (Cert.KernelIdeal.Hand.outs_eq_0 m c)
  have s1 := Cert.KernelIdeal.Hand.step1 m (Cert.KernelIdeal.Hand.outs m) c s0 (Cert.KernelIdeal.Hand.outs_eq_1 m c)
  have s2 := Cert.KernelIdeal.Hand.step2 m (Cert.KernelIdeal.Hand.outs m) c s1 (Cert.KernelIdeal.Hand.outs_eq_2 m c)
  have s3 := Cert.KernelIdeal.Hand.step3 m (Cert.KernelIdeal.Hand.outs m) c s2 (Cert.KernelIdeal.Hand.outs_eq_3 m c)
  have s4 := Cert.KernelIdeal.Hand.step4 m (Cert.KernelIdeal.Hand.outs m) c s3 (Cert.KernelIdeal.Hand.outs_eq_4 m c)
  Cert.KernelIdeal.Hand.result_val m (Cert.KernelIdeal.Hand.outs m) c s4

theorem frame_kernel : Cert.frame_Kernel := fun m ρ _ => Cert.Kernel.Hand.frame m ρ

theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eleven arguments both idealized programs end with the reference's result term at those
    arguments. -/
theorem algebraic : Cert.algebraic_KernelIdeal_ReferenceIdeal := by
  intro m ρ m' ρ' _ hagree
  refine ⟨fun c => Cert.ReferenceIdeal.Read.val_main_v164 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun _ h c => ⟨(h c).1.trans (kernel_result m c), (h c).2⟩)
      (Cert.KernelIdeal.Hand.result_eq m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v164_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
